-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S2048x512 : Shape := ⟨2, ![2048, 512]⟩
abbrev S16 : Shape := ⟨1, ![16]⟩
abbrev S_ : Shape := ⟨0, ![]⟩
abbrev S1 : Shape := ⟨1, ![1]⟩
abbrev S32x512 : Shape := ⟨2, ![32, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .f32⟩
  | .local _ .vmem, ⟨0, _⟩ => ⟨S1024x512, .f32⟩
  | .local _ .vmem, ⟨1, _⟩ => ⟨S2048x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v18 : BitVec 32 := Scalar.muli v2 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_12 : BitVec 32 := 512#32
  let v19 : BitVec 32 := Scalar.muli v5 c512_i32_12
  let v20 : BitVec 32 := Scalar.addi v18 v19
  let v22 : BitVec 32 := Scalar.addi v20 c0_i32_14
  let c0_i32_35 : BitVec 32 := 0#32
  ![v22.toNat, 0]
def k0_off2 (d0 : Dev nD) (c0_i32_13 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let v21 : BitVec 32 := Scalar.addi v17 c0_i32_13
  let c0_i32_36 : BitVec 32 := 0#32
  ![v21.toNat, 0]
def k0_dev3 (d0 : Dev nD) : Nat :=
  let c0_i32_33 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_32 : BitVec 32 := 2#32
  let v53 : BitVec 32 := Scalar.muli v6 c2_i32_32
  let v54 : BitVec 32 := Scalar.addi c0_i32_33 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v55 : BitVec 32 := Scalar.muli v5 c1_i32_34
  let v56 : BitVec 32 := Scalar.addi v54 v55
  v56.toNat
def k0_dev4 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v63 : BitVec 32 := Scalar.muli v6 c2_i32_39
  let v64 : BitVec 32 := Scalar.addi c0_i32_40 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v65 : BitVec 32 := Scalar.muli v5 c1_i32_41
  let v66 : BitVec 32 := Scalar.addi v64 v65
  v66.toNat
def k0_dev5 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v73 : BitVec 32 := Scalar.muli v6 c2_i32_46
  let v74 : BitVec 32 := Scalar.addi c0_i32_47 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v75 : BitVec 32 := Scalar.muli v5 c1_i32_48
  let v76 : BitVec 32 := Scalar.addi v74 v75
  v76.toNat
def k0_dev6 (d0 : Dev nD) : Nat :=
  let c0_i32_53 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_52 : BitVec 32 := 2#32
  let v83 : BitVec 32 := Scalar.muli v6 c2_i32_52
  let v84 : BitVec 32 := Scalar.addi c0_i32_53 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v85 : BitVec 32 := Scalar.muli v5 c1_i32_54
  let v86 : BitVec 32 := Scalar.addi v84 v85
  v86.toNat
def k0_dev7 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v93 : BitVec 32 := Scalar.muli v6 c2_i32_58
  let v94 : BitVec 32 := Scalar.addi c0_i32_59 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v95 : BitVec 32 := Scalar.muli v5 c1_i32_60
  let v96 : BitVec 32 := Scalar.addi v94 v95
  v96.toNat
def k0_dev8 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v103 : BitVec 32 := Scalar.muli v6 c2_i32_64
  let v104 : BitVec 32 := Scalar.addi c0_i32_65 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v105 : BitVec 32 := Scalar.muli v5 c1_i32_66
  let v106 : BitVec 32 := Scalar.addi v104 v105
  v106.toNat
def k0_dev9 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v113 : BitVec 32 := Scalar.muli v6 c2_i32_70
  let v114 : BitVec 32 := Scalar.addi c0_i32_71 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v115 : BitVec 32 := Scalar.muli v5 c1_i32_72
  let v116 : BitVec 32 := Scalar.addi v114 v115
  v116.toNat
def k0_dev10 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v123 : BitVec 32 := Scalar.muli v6 c2_i32_76
  let v124 : BitVec 32 := Scalar.addi c0_i32_77 v123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v125 : BitVec 32 := Scalar.muli v5 c1_i32_78
  let v126 : BitVec 32 := Scalar.addi v124 v125
  v126.toNat
def k0_dev11 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v133 : BitVec 32 := Scalar.muli v6 c2_i32_82
  let v134 : BitVec 32 := Scalar.addi c0_i32_83 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v135 : BitVec 32 := Scalar.muli v5 c1_i32_84
  let v136 : BitVec 32 := Scalar.addi v134 v135
  v136.toNat
def k0_dev12 (d0 : Dev nD) : Nat :=
  let c0_i32_89 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_88 : BitVec 32 := 2#32
  let v143 : BitVec 32 := Scalar.muli v6 c2_i32_88
  let v144 : BitVec 32 := Scalar.addi c0_i32_89 v143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_90 : BitVec 32 := 1#32
  let v145 : BitVec 32 := Scalar.muli v5 c1_i32_90
  let v146 : BitVec 32 := Scalar.addi v144 v145
  v146.toNat
def k0_dev13 (d0 : Dev nD) : Nat :=
  let c0_i32_95 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_94 : BitVec 32 := 2#32
  let v153 : BitVec 32 := Scalar.muli v6 c2_i32_94
  let v154 : BitVec 32 := Scalar.addi c0_i32_95 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_96 : BitVec 32 := 1#32
  let v155 : BitVec 32 := Scalar.muli v5 c1_i32_96
  let v156 : BitVec 32 := Scalar.addi v154 v155
  v156.toNat
def k0_dev14 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v163 : BitVec 32 := Scalar.muli v6 c2_i32_100
  let v164 : BitVec 32 := Scalar.addi c0_i32_101 v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v165 : BitVec 32 := Scalar.muli v5 c1_i32_102
  let v166 : BitVec 32 := Scalar.addi v164 v165
  v166.toNat
def k0_dev15 (d0 : Dev nD) : Nat :=
  let c0_i32_107 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_106 : BitVec 32 := 2#32
  let v173 : BitVec 32 := Scalar.muli v6 c2_i32_106
  let v174 : BitVec 32 := Scalar.addi c0_i32_107 v173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_108 : BitVec 32 := 1#32
  let v175 : BitVec 32 := Scalar.muli v5 c1_i32_108
  let v176 : BitVec 32 := Scalar.addi v174 v175
  v176.toNat
def k0_dev16 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v183 : BitVec 32 := Scalar.muli v6 c2_i32_112
  let v184 : BitVec 32 := Scalar.addi c0_i32_113 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v185 : BitVec 32 := Scalar.muli v5 c1_i32_114
  let v186 : BitVec 32 := Scalar.addi v184 v185
  v186.toNat
def k0_dev17 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v193 : BitVec 32 := Scalar.muli v6 c2_i32_118
  let v194 : BitVec 32 := Scalar.addi c0_i32_119 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v195 : BitVec 32 := Scalar.muli v5 c1_i32_120
  let v196 : BitVec 32 := Scalar.addi v194 v195
  v196.toNat
def k0_dev18 (d0 : Dev nD) : Nat :=
  let c0_i32_125 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_124 : BitVec 32 := 2#32
  let v203 : BitVec 32 := Scalar.muli v6 c2_i32_124
  let v204 : BitVec 32 := Scalar.addi c0_i32_125 v203
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v205 : BitVec 32 := Scalar.muli v5 c1_i32_126
  let v206 : BitVec 32 := Scalar.addi v204 v205
  v206.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_129 : BitVec 32 := 1024#32
  let v213 : BitVec 32 := Scalar.muli v2 c1024_i32_129
  let c0_i32_130 : BitVec 32 := 0#32
  ![v213.toNat, 0]
def k0_off4 (d0 : Dev nD) (c0_i32_141 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_131 : BitVec 32 := 1024#32
  let v215 : BitVec 32 := Scalar.muli v6 c1024_i32_131
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_132 : BitVec 32 := 512#32
  let v216 : BitVec 32 := Scalar.muli v5 c512_i32_132
  let v217 : BitVec 32 := Scalar.addi v215 v216
  let v227 : BitVec 32 := Scalar.addi v217 c0_i32_141
  let c0_i32_147 : BitVec 32 := 0#32
  ![v227.toNat, 0]
def k0_dev19 (d0 : Dev nD) : Nat :=
  let c0_i32_145 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_144 : BitVec 32 := 2#32
  let v228 : BitVec 32 := Scalar.muli v2 c2_i32_144
  let v229 : BitVec 32 := Scalar.addi c0_i32_145 v228
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_146 : BitVec 32 := 1#32
  let v230 : BitVec 32 := Scalar.muli v7 c1_i32_146
  let v231 : BitVec 32 := Scalar.addi v229 v230
  v231.toNat
def k0_dev20 (d0 : Dev nD) : Nat :=
  let c0_i32_161 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_160 : BitVec 32 := 2#32
  let v248 : BitVec 32 := Scalar.muli v2 c2_i32_160
  let v249 : BitVec 32 := Scalar.addi c0_i32_161 v248
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_162 : BitVec 32 := 1#32
  let v250 : BitVec 32 := Scalar.muli v7 c1_i32_162
  let v251 : BitVec 32 := Scalar.addi v249 v250
  v251.toNat
def k0_dev21 (d0 : Dev nD) : Nat :=
  let c0_i32_177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_176 : BitVec 32 := 2#32
  let v268 : BitVec 32 := Scalar.muli v2 c2_i32_176
  let v269 : BitVec 32 := Scalar.addi c0_i32_177 v268
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_178 : BitVec 32 := 1#32
  let v270 : BitVec 32 := Scalar.muli v7 c1_i32_178
  let v271 : BitVec 32 := Scalar.addi v269 v270
  v271.toNat
def k0_dev22 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v288 : BitVec 32 := Scalar.muli v2 c2_i32_192
  let v289 : BitVec 32 := Scalar.addi c0_i32_193 v288
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_194 : BitVec 32 := 1#32
  let v290 : BitVec 32 := Scalar.muli v7 c1_i32_194
  let v291 : BitVec 32 := Scalar.addi v289 v290
  v291.toNat
def k0_dev23 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v308 : BitVec 32 := Scalar.muli v2 c2_i32_208
  let v309 : BitVec 32 := Scalar.addi c0_i32_209 v308
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_210 : BitVec 32 := 1#32
  let v310 : BitVec 32 := Scalar.muli v7 c1_i32_210
  let v311 : BitVec 32 := Scalar.addi v309 v310
  v311.toNat
def k0_dev24 (d0 : Dev nD) : Nat :=
  let c0_i32_225 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_224 : BitVec 32 := 2#32
  let v328 : BitVec 32 := Scalar.muli v2 c2_i32_224
  let v329 : BitVec 32 := Scalar.addi c0_i32_225 v328
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_226 : BitVec 32 := 1#32
  let v330 : BitVec 32 := Scalar.muli v7 c1_i32_226
  let v331 : BitVec 32 := Scalar.addi v329 v330
  v331.toNat
def k0_dev25 (d0 : Dev nD) : Nat :=
  let c0_i32_241 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_240 : BitVec 32 := 2#32
  let v348 : BitVec 32 := Scalar.muli v2 c2_i32_240
  let v349 : BitVec 32 := Scalar.addi c0_i32_241 v348
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_242 : BitVec 32 := 1#32
  let v350 : BitVec 32 := Scalar.muli v7 c1_i32_242
  let v351 : BitVec 32 := Scalar.addi v349 v350
  v351.toNat
def k0_dev26 (d0 : Dev nD) : Nat :=
  let c0_i32_257 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_256 : BitVec 32 := 2#32
  let v368 : BitVec 32 := Scalar.muli v2 c2_i32_256
  let v369 : BitVec 32 := Scalar.addi c0_i32_257 v368
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_258 : BitVec 32 := 1#32
  let v370 : BitVec 32 := Scalar.muli v7 c1_i32_258
  let v371 : BitVec 32 := Scalar.addi v369 v370
  v371.toNat
def k0_dev27 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v388 : BitVec 32 := Scalar.muli v2 c2_i32_272
  let v389 : BitVec 32 := Scalar.addi c0_i32_273 v388
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_274 : BitVec 32 := 1#32
  let v390 : BitVec 32 := Scalar.muli v7 c1_i32_274
  let v391 : BitVec 32 := Scalar.addi v389 v390
  v391.toNat
def k0_dev28 (d0 : Dev nD) : Nat :=
  let c0_i32_289 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_288 : BitVec 32 := 2#32
  let v408 : BitVec 32 := Scalar.muli v2 c2_i32_288
  let v409 : BitVec 32 := Scalar.addi c0_i32_289 v408
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_290 : BitVec 32 := 1#32
  let v410 : BitVec 32 := Scalar.muli v7 c1_i32_290
  let v411 : BitVec 32 := Scalar.addi v409 v410
  v411.toNat
def k0_dev29 (d0 : Dev nD) : Nat :=
  let c0_i32_305 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_304 : BitVec 32 := 2#32
  let v428 : BitVec 32 := Scalar.muli v2 c2_i32_304
  let v429 : BitVec 32 := Scalar.addi c0_i32_305 v428
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_306 : BitVec 32 := 1#32
  let v430 : BitVec 32 := Scalar.muli v7 c1_i32_306
  let v431 : BitVec 32 := Scalar.addi v429 v430
  v431.toNat
def k0_dev30 (d0 : Dev nD) : Nat :=
  let c0_i32_321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_320 : BitVec 32 := 2#32
  let v448 : BitVec 32 := Scalar.muli v2 c2_i32_320
  let v449 : BitVec 32 := Scalar.addi c0_i32_321 v448
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_322 : BitVec 32 := 1#32
  let v450 : BitVec 32 := Scalar.muli v7 c1_i32_322
  let v451 : BitVec 32 := Scalar.addi v449 v450
  v451.toNat
def k0_dev31 (d0 : Dev nD) : Nat :=
  let c0_i32_337 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_336 : BitVec 32 := 2#32
  let v468 : BitVec 32 := Scalar.muli v2 c2_i32_336
  let v469 : BitVec 32 := Scalar.addi c0_i32_337 v468
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_338 : BitVec 32 := 1#32
  let v470 : BitVec 32 := Scalar.muli v7 c1_i32_338
  let v471 : BitVec 32 := Scalar.addi v469 v470
  v471.toNat
def k0_dev32 (d0 : Dev nD) : Nat :=
  let c0_i32_353 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_352 : BitVec 32 := 2#32
  let v488 : BitVec 32 := Scalar.muli v2 c2_i32_352
  let v489 : BitVec 32 := Scalar.addi c0_i32_353 v488
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_354 : BitVec 32 := 1#32
  let v490 : BitVec 32 := Scalar.muli v7 c1_i32_354
  let v491 : BitVec 32 := Scalar.addi v489 v490
  v491.toNat
def k0_dev33 (d0 : Dev nD) : Nat :=
  let c0_i32_369 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_368 : BitVec 32 := 2#32
  let v508 : BitVec 32 := Scalar.muli v2 c2_i32_368
  let v509 : BitVec 32 := Scalar.addi c0_i32_369 v508
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_370 : BitVec 32 := 1#32
  let v510 : BitVec 32 := Scalar.muli v7 c1_i32_370
  let v511 : BitVec 32 := Scalar.addi v509 v510
  v511.toNat
def k0_dev34 (d0 : Dev nD) : Nat :=
  let c0_i32_385 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_384 : BitVec 32 := 2#32
  let v528 : BitVec 32 := Scalar.muli v2 c2_i32_384
  let v529 : BitVec 32 := Scalar.addi c0_i32_385 v528
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_386 : BitVec 32 := 1#32
  let v530 : BitVec 32 := Scalar.muli v7 c1_i32_386
  let v531 : BitVec 32 := Scalar.addi v529 v530
  v531.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  hcc0_scratch0 : 2 + S16.numel ≤ 67
  hcc0_scratch1 : 18 + S16.numel ≤ 67
  hcc0_scratch2 : 34 + S16.numel ≤ 67
  hcc0_scratch3 : 50 + S16.numel ≤ 67
  hcc0_scratch4 : 66 + S_.numel ≤ 67
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (32 * r.val))) a + S32x512.size a ≤ S2048x512.size a
  k0_off2_inb : ∀ d0 : Dev nD, ∀ (r : Fin 16), ∀ a, (k0_off2 d0 (BitVec.ofNat 32 (32 * r.val))) a + S32x512.size a ≤ S1024x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ a, (k0_off3 d0) a + S1024x512.size a ≤ S2048x512.size a
  k0_off4_inb : ∀ d0 : Dev nD, ∀ (r : Fin 16), ∀ a, (k0_off4 d0 (BitVec.ofNat 32 (32 * r.val))) a + S32x512.size a ≤ S2048x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  hstage0_0 : ∀ j, (stage0_0 j).IsWhole
  hstage0_1 : ∀ j, (stage0_1 j).IsWhole

variable [Facts₀]

abbrev cc0_scratch0 : DmaSems sig S16 := SemArray.consecutive 2 S16 hcc0_scratch0
abbrev cc0_scratch1 : DmaSems sig S16 := SemArray.consecutive 18 S16 hcc0_scratch1
abbrev cc0_scratch2 : DmaSems sig S16 := SemArray.consecutive 34 S16 hcc0_scratch2
abbrev cc0_scratch3 : DmaSems sig S16 := SemArray.consecutive 50 S16 hcc0_scratch3
abbrev cc0_scratch4 : DmaSems sig S_ := SemArray.consecutive 66 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
/-
  The mesh of the all-gather: four devices in a 2 × 2 grid, device `2 i + j` at row `i`, column `j`.
  Each device holds rows `[1024 i, 1024 i + 1024)` of a 2048 × 512 array (both devices of a row hold the same
  block) and must end holding all 2048 rows. Device `(i, j)` sends half `j` of its block (512 rows, in 16
  chunks of 32 rows) to the other row's device of its column, copies its own block into place, and passes each
  chunk it receives on to the other device of its own row. Here: the two neighbours, the semaphores by number,
  and the row slices each copy reads or writes.
-/
import proofs.«900077_g7700000000000078_dist_ag_v7x_xy2x2_x_m1024_n512_f32_1_alg».proof.Proof.Gen.KernelIdeal
import proofs.«900077_g7700000000000078_dist_ag_v7x_xy2x2_x_m1024_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two neighbours -/

/-- The device of the other row in the same column: `(i, j) ↦ (1 - i, j)`. -/
def xn (c : Dev nD) : Dev nD := ⟨(c.val + 2) % 4, Nat.mod_lt _ (by decide)⟩
/-- The device of the same row in the other column: `(i, j) ↦ (i, 1 - j)`. -/
def yn (c : Dev nD) : Dev nD := ⟨2 * (c.val / 2) + (c.val + 1) % 2, by have h : c.val < 4 := c.isLt; show _ < 4; omega⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide

def xSwap : Dev nD ≃ Dev nD := ⟨xn, xn, xn_xn, xn_xn⟩
def ySwap : Dev nD ≃ Dev nD := ⟨yn, yn, yn_yn, yn_yn⟩

/-- The printed device chains in closed form: the column mate across rows, and the row mate. -/
theorem xdev_val (c : Dev nD) : ((c.val % 2) + 2) - 2 * (c.val / 2) = (xn c).val := by revert c; decide
theorem ydev_val (c : Dev nD) : (2 * (c.val / 2) + 1) - (c.val % 2) = (yn c).val := by revert c; decide

/-! ## Semaphores and cells -/

/-- The runtime's barrier semaphore of collective id 0. -/
abbrev barS : Sem sig := (SemArray.scalar (sig.barrier 0 rfl) : Sems sig S_).sem

/-- Chunk `k`'s semaphores: the send and receive sides of the transfer across rows, then of the one along the row;
    and the local copy's. -/
def sxS (k : Fin 16) : DmaSem sig := ⟨2 + k.val, by have := k.isLt; show _ < 67; omega⟩
def rxS (k : Fin 16) : DmaSem sig := ⟨18 + k.val, by have := k.isLt; show _ < 67; omega⟩
def syS (k : Fin 16) : DmaSem sig := ⟨34 + k.val, by have := k.isLt; show _ < 67; omega⟩
def ryS (k : Fin 16) : DmaSem sig := ⟨50 + k.val, by have := k.isLt; show _ < 67; omega⟩
def cpS : DmaSem sig := ⟨66, by show 66 < 67; decide⟩

abbrev barCell (c : Dev nD) : GSem nD τ sig := ((c : Thread nD τ), .reg barS)
abbrev sxCell (c : Dev nD) (k : Fin 16) : GSem nD τ sig := ((c : Thread nD τ), .dma (sxS k))
abbrev rxCell (c : Dev nD) (k : Fin 16) : GSem nD τ sig := ((c : Thread nD τ), .dma (rxS k))
abbrev syCell (c : Dev nD) (k : Fin 16) : GSem nD τ sig := ((c : Thread nD τ), .dma (syS k))
abbrev ryCell (c : Dev nD) (k : Fin 16) : GSem nD τ sig := ((c : Thread nD τ), .dma (ryS k))
abbrev cpCell (c : Dev nD) : GSem nD τ sig := ((c : Thread nD τ), .dma cpS)

/-! ## The buffers and the row slices -/

/-- The staged block of `x` and the staged result. -/
abbrev xM : Memref sig .tc .vmem S1024x512 .f32 := Memref.whole cc0_stg0_0
abbrev oM : Memref sig .tc .vmem S2048x512 .f32 := Memref.whole cc0_stg1_0

/-- The word the kernel adds for chunk `k`: `32 k`. -/
abbrev chw (k : Fin 16) : BitVec 32 := BitVec.ofNat 32 (32 * k.val)

/-- Chunk `k` of the half of its block device `c` sends across rows. -/
abbrev xSl (c : Dev nD) (k : Fin 16) : Memref sig .tc .vmem S32x512 .f32 :=
  xM.slice (Rect.unit (s := S1024x512) (k0_off2 c (chw k)) S32x512.size (k0_off2_inb c k)) (fun _ => rfl)
/-- Where that chunk lands in a result buffer: rows `1024 i + 512 j + 32 k` for the sender `c = (i, j)`. -/
abbrev oSlA (c : Dev nD) (k : Fin 16) : Memref sig .tc .vmem S32x512 .f32 :=
  oM.slice (Rect.unit (s := S2048x512) (k0_off1 c (chw k)) S32x512.size (k0_off1_inb c k)) (fun _ => rfl)
/-- The chunk device `c` passes on along its row, the same rows in both result buffers:
    `1024 (1 - i) + 512 j + 32 k`. -/
abbrev oSlB (c : Dev nD) (k : Fin 16) : Memref sig .tc .vmem S32x512 .f32 :=
  oM.slice (Rect.unit (s := S2048x512) (k0_off4 c (chw k)) S32x512.size (k0_off4_inb c k)) (fun _ => rfl)
/-- Where device `c`'s own block goes: rows `[1024 i, 1024 i + 1024)`. -/
abbrev oSlL (c : Dev nD) : Memref sig .tc .vmem S1024x512 .f32 :=
  oM.slice (Rect.unit (s := S2048x512) (k0_off3 c) S1024x512.size (k0_off3_inb c)) (fun _ => rfl)

/-- One chunk's credit on a DMA semaphore, and the own block's. -/
abbrev N : ℕ := (oSlA 0 0).view.dmaCredit
abbrev NL : ℕ := (oSlL 0).view.dmaCredit

end Cert.KernelIdeal.AG

end
-- ==== Proof.Sched.lean ====
/-
  What every copy of the all-gather moves, and the protocol's schedule.

  Device `c = (i, j)` ends with the whole array in its result buffer: rows `[1024 i, 1024 i + 1024)` are its own
  block; rows `1024 (1 - i) + 512 j + …` came straight from the device across rows, `(1 - i, j)`, which sends half `j`
  of its block; rows `1024 (1 - i) + 512 (1 - j) + …` came from `(1 - i, 1 - j)` by way of the row mate `(i, 1 - j)`,
  which passes on what it receives. `Fo c` is that buffer, row by row from the block of the device it came from.

  One round per semaphore. A barrier semaphore has two duties of one unit: `false`, the signal of the device across
  rows, which hands over the 16 row slices of its own result buffer that this device's direct copies fill, and `true`,
  the row mate's signal, which hands over the 16 slices the passed-on copies fill. Every DMA semaphore has one duty of
  one slice's credit: a receive side hands its owner the slice that landed, holding `Fo`'s rows; a send side hands the
  source back.
-/
import proofs.«900077_g7700000000000078_dist_ag_v7x_xy2x2_x_m1024_n512_f32_1_alg».proof.Proof.Mesh
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The device whose block holds row `r` of device `c`'s result. -/
def srcDev (c : Dev nD) (r : ℕ) : Dev nD :=
  if r / 1024 = c.val / 2 then c else if (r % 1024) / 512 = c.val % 2 then xn c else xn (yn c)

/-- Device `c`'s result buffer when the kernel is done. -/
def Fo (c : Dev nD) : (cc0_stg1_0 : Ref sig .tc).ty.Contents (Elt F) :=
  fun i => xstg m ρ (srcDev c (i 0).val)
    (ValueIdx.ix2 (n0 := 1024) (n1 := 512) ⟨(i 0).val % 1024, Nat.mod_lt _ (by decide)⟩ ⟨(i 1).val, (i 1).isLt⟩)

/-- The two shares of the staged block: the local copy reads through the left one, the 16 direct copies through
    the right one. -/
abbrev qL : PosShare TreeShare := fullShare.left
abbrev qA : PosShare TreeShare := fullShare.right

/-! ## Payloads -/

/-- The 32 rows of a result buffer from row `off 0`. -/
abbrev oSl (off : Fin 2 → ℕ) (h : ∀ a, off a + S32x512.size a ≤ S2048x512.size a) : Memref sig .tc .vmem S32x512 .f32 :=
  oM.slice (Rect.unit (s := S2048x512) off S32x512.size h) (fun _ => rfl)
/-- A row slice of device `d`'s result buffer, at some contents. -/
def oAny (d : Dev nD) (off : Fin 2 → ℕ) (h : ∀ a, off a + S32x512.size a ≤ S2048x512.size a) : sProp 𝕄 :=
  iprop(∃ f : Buf (Elt F) ((oSl off h).view.loc (d : Thread nD τ)), (oSl off h).view.loc (d : Thread nD τ) ↦[(oSl off h).view.set]{fullShare} f)
/-- The same holding `Fo d`'s rows. -/
def oAt (d : Dev nD) (off : Fin 2 → ℕ) (h : ∀ a, off a + S32x512.size a ≤ S2048x512.size a) : sProp 𝕄 :=
  (oSl off h).view.loc (d : Thread nD τ) ↦[(oSl off h).view.set]{fullShare} Fo m ρ d

/-- What the device across rows hands `c` with its barrier signal: the slices `c`'s direct copies fill. -/
def barPayX (c : Dev nD) : sProp 𝕄 :=
  bigSep Finset.univ fun k : Fin 16 => oAny (xn c) (k0_off1 c (chw k)) (k0_off1_inb c k)
/-- What the row mate hands `c`: the slices `c`'s passed-on copies fill. -/
def barPayY (c : Dev nD) : sProp 𝕄 :=
  bigSep Finset.univ fun k : Fin 16 => oAny (yn c) (k0_off4 c (chw k)) (k0_off4_inb c k)

def sxPay (c : Dev nD) (k : Fin 16) : sProp 𝕄 :=
  (xSl c k).view.loc (c : Thread nD τ) ↦[(xSl c k).view.set]{qA} xstg m ρ c
def rxPay (c : Dev nD) (k : Fin 16) : sProp 𝕄 := oAt m ρ c (k0_off4 c (chw k)) (k0_off4_inb c k)
def syPay (c : Dev nD) (k : Fin 16) : sProp 𝕄 := oAt m ρ c (k0_off4 c (chw k)) (k0_off4_inb c k)
def ryPay (c : Dev nD) (k : Fin 16) : sProp 𝕄 := oAt m ρ c (k0_off4 (yn c) (chw k)) (k0_off4_inb (yn c) k)
def cpPay (c : Dev nD) : sProp 𝕄 :=
  iprop(((oSlL c).view.loc (c : Thread nD τ) ↦[(oSlL c).view.set]{fullShare} Fo m ρ c)
    ∗ (xM.view.loc (c : Thread nD τ) ↦[xM.view.set]{qL} xstg m ρ c))

/-- Chunk index of a DMA semaphore of a 16-array based at `b`. -/
def chunkOf (b : ℕ) (q : DmaSem sig) : Fin 16 := ⟨(q.val - b) % 16, Nat.mod_lt _ (by decide)⟩

theorem chunkOf_sx (k : Fin 16) : chunkOf 2 (sxS k) = k := Fin.ext (by have := k.isLt; show (2 + k.val - 2) % 16 = k.val; omega)
theorem chunkOf_rx (k : Fin 16) : chunkOf 18 (rxS k) = k := Fin.ext (by have := k.isLt; show (18 + k.val - 18) % 16 = k.val; omega)
theorem chunkOf_sy (k : Fin 16) : chunkOf 34 (syS k) = k := Fin.ext (by have := k.isLt; show (34 + k.val - 34) % 16 = k.val; omega)
theorem chunkOf_ry (k : Fin 16) : chunkOf 50 (ryS k) = k := Fin.ext (by have := k.isLt; show (50 + k.val - 50) % 16 = k.val; omega)

/-- The payload of a DMA semaphore's one duty, by the semaphore's number. -/
def dmaPay (c : Dev nD) (q : DmaSem sig) : sProp 𝕄 :=
  if q.val < 2 then iprop(emp)
  else if q.val < 18 then sxPay m ρ c (chunkOf 2 q)
  else if q.val < 34 then rxPay m ρ c (chunkOf 18 q)
  else if q.val < 50 then syPay m ρ c (chunkOf 34 q)
  else if q.val < 66 then ryPay m ρ c (chunkOf 50 q)
  else cpPay m ρ c

/-! ## The schedule -/

def agRd : Rounds.Schedule (GSem nD τ sig) Bool 𝕄 where
  duties g r :=
    if r = 0 ∧ g.1.2 = .tc then
      match g.2 with
      | .reg s => if s = barS then Finset.univ else ∅
      | .dma q => if 2 ≤ q.val then {false} else ∅
    else ∅
  unitless _ := False
  amount g _ _ := match g.2 with
    | .reg _ => 1
    | .dma q => if q = cpS then NL else N
  payload g _ d := match g.2 with
    | .reg _ => if d then barPayY g.1.1 else barPayX g.1.1
    | .dma q => dmaPay m ρ g.1.1 q
  amount_pos g _ _ _ := by
    rcases g with ⟨t, sm⟩
    cases sm with
    | reg s => exact Nat.one_pos
    | dma q =>
      show 0 < (if q = cpS then NL else N)
      split
      · exact View.dmaCredit_pos _ (by decide)
      · exact View.dmaCredit_pos _ (by decide)

instance agRd_payload_storable (g : GSem nD τ sig) (r : ℕ) (d : Bool) :
    BI.Storable (upEmb : UEmb _ 𝕄) ((agRd (F := F) m ρ).payload g r d) := by
  rcases g with ⟨t, sm⟩
  cases sm with
  | reg s =>
    show BI.Storable upEmb (if d then barPayY t.1 else barPayX t.1)
    unfold barPayY barPayX oAny
    split <;> infer_instance
  | dma q =>
    show BI.Storable upEmb (dmaPay m ρ t.1 q)
    unfold dmaPay sxPay rxPay syPay ryPay cpPay oAt
    (repeat' split) <;> infer_instance

section Tables
variable (c : Dev nD) (k : Fin 16)

omit [FloatOps F] in
theorem duties_bar : (agRd (F := F) m ρ).duties (barCell c) 0 = Finset.univ := by
  dsimp only [agRd]; rw [if_pos ⟨rfl, rfl⟩]; exact if_pos rfl
omit [FloatOps F] in
theorem duties_dma (q : DmaSem sig) (hq : 2 ≤ q.val) : (agRd (F := F) m ρ).duties ((c : Thread nD τ), .dma q) 0 = {false} := by
  dsimp only [agRd]; rw [if_pos ⟨rfl, rfl⟩]; exact if_pos hq
omit [FloatOps F] in
theorem duties_sx : (agRd (F := F) m ρ).duties (sxCell c k) 0 = {false} := duties_dma m ρ c _ (Nat.le_add_right _ _)
omit [FloatOps F] in
theorem duties_rx : (agRd (F := F) m ρ).duties (rxCell c k) 0 = {false} := duties_dma m ρ c _ (by show 2 ≤ 18 + k.val; omega)
omit [FloatOps F] in
theorem duties_sy : (agRd (F := F) m ρ).duties (syCell c k) 0 = {false} := duties_dma m ρ c _ (by show 2 ≤ 34 + k.val; omega)
omit [FloatOps F] in
theorem duties_ry : (agRd (F := F) m ρ).duties (ryCell c k) 0 = {false} := duties_dma m ρ c _ (by show 2 ≤ 50 + k.val; omega)
omit [FloatOps F] in
theorem duties_cp : (agRd (F := F) m ρ).duties (cpCell c) 0 = {false} := duties_dma m ρ c _ (by show 2 ≤ 66; omega)
omit [FloatOps F] in
theorem duties_later (g : GSem nD τ sig) : ∀ r, 1 ≤ r → (agRd (F := F) m ρ).duties g r = ∅ :=
  fun r hr => by dsimp only [agRd]; rw [if_neg fun h => by omega]

omit [FloatOps F] in
theorem amount_bar (d : Bool) : (agRd (F := F) m ρ).amount (barCell c) 0 d = 1 := rfl
omit [FloatOps F] in
theorem amount_dma (q : DmaSem sig) (hq : q ≠ cpS) (d : Bool) : (agRd (F := F) m ρ).amount ((c : Thread nD τ), .dma q) 0 d = N := by
  dsimp only [agRd]; exact if_neg hq
theorem sx_ne_cp : sxS k ≠ cpS := fun h => by have := congrArg Fin.val h; have := k.isLt; simp only [sxS, cpS] at *; omega
theorem rx_ne_cp : rxS k ≠ cpS := fun h => by have := congrArg Fin.val h; have := k.isLt; simp only [rxS, cpS] at *; omega
theorem sy_ne_cp : syS k ≠ cpS := fun h => by have := congrArg Fin.val h; have := k.isLt; simp only [syS, cpS] at *; omega
theorem ry_ne_cp : ryS k ≠ cpS := fun h => by have := congrArg Fin.val h; have := k.isLt; simp only [ryS, cpS] at *; omega
omit [FloatOps F] in
theorem amount_sx (d : Bool) : (agRd (F := F) m ρ).amount (sxCell c k) 0 d = N := amount_dma m ρ c _ (sx_ne_cp k) d
omit [FloatOps F] in
theorem amount_rx (d : Bool) : (agRd (F := F) m ρ).amount (rxCell c k) 0 d = N := amount_dma m ρ c _ (rx_ne_cp k) d
omit [FloatOps F] in
theorem amount_sy (d : Bool) : (agRd (F := F) m ρ).amount (syCell c k) 0 d = N := amount_dma m ρ c _ (sy_ne_cp k) d
omit [FloatOps F] in
theorem amount_ry (d : Bool) : (agRd (F := F) m ρ).amount (ryCell c k) 0 d = N := amount_dma m ρ c _ (ry_ne_cp k) d
omit [FloatOps F] in
theorem amount_cp (d : Bool) : (agRd (F := F) m ρ).amount (cpCell c) 0 d = NL := by dsimp only [agRd]; exact if_pos rfl

omit [FloatOps F] in
/-- A round's expected units, as the sum over its duties: stated over any schedule and cell, then only instantiated. -/
theorem expect_sum (Rd : Rounds.Schedule (GSem nD τ sig) Bool 𝕄) (g : GSem nD τ sig) (r : ℕ) :
    Rd.expect g r = ∑ d ∈ Rd.duties g r, Rd.amount g r d := rfl

omit [FloatOps F] in
theorem expect_bar : (agRd (F := F) m ρ).expect (barCell c) 0 = 2 := by
  rw [expect_sum, duties_bar, Finset.sum_congr rfl fun d _ => amount_bar m ρ c d, Finset.sum_const, Finset.card_univ, Fintype.card_bool, smul_eq_mul]
omit [FloatOps F] in
theorem expect_sx : (agRd (F := F) m ρ).expect (sxCell c k) 0 = N := by
  rw [expect_sum, duties_sx, Finset.sum_singleton, amount_sx]
omit [FloatOps F] in
theorem expect_rx : (agRd (F := F) m ρ).expect (rxCell c k) 0 = N := by
  rw [expect_sum, duties_rx, Finset.sum_singleton, amount_rx]
omit [FloatOps F] in
theorem expect_sy : (agRd (F := F) m ρ).expect (syCell c k) 0 = N := by
  rw [expect_sum, duties_sy, Finset.sum_singleton, amount_sy]
omit [FloatOps F] in
theorem expect_ry : (agRd (F := F) m ρ).expect (ryCell c k) 0 = N := by
  rw [expect_sum, duties_ry, Finset.sum_singleton, amount_ry]
omit [FloatOps F] in
theorem expect_cp : (agRd (F := F) m ρ).expect (cpCell c) 0 = NL := by
  rw [expect_sum, duties_cp, Finset.sum_singleton, amount_cp]

omit [FloatOps F] in
theorem payload_bar_false : (agRd (F := F) m ρ).payload (barCell c) 0 false = barPayX c := by
  dsimp only [agRd]; exact if_neg Bool.false_ne_true
omit [FloatOps F] in
theorem payload_bar_true : (agRd (F := F) m ρ).payload (barCell c) 0 true = barPayY c := by
  dsimp only [agRd]; exact if_pos rfl
omit [FloatOps F] in
theorem payload_sx (d : Bool) : (agRd (F := F) m ρ).payload (sxCell c k) 0 d = sxPay m ρ c k := by
  have := k.isLt
  show dmaPay m ρ c (sxS k) = _
  unfold dmaPay
  rw [if_neg (by show ¬ 2 + k.val < 2; omega), if_pos (by show 2 + k.val < 18; omega), chunkOf_sx]
omit [FloatOps F] in
theorem payload_rx (d : Bool) : (agRd (F := F) m ρ).payload (rxCell c k) 0 d = rxPay m ρ c k := by
  have := k.isLt
  show dmaPay m ρ c (rxS k) = _
  unfold dmaPay
  rw [if_neg (by show ¬ 18 + k.val < 2; omega), if_neg (by show ¬ 18 + k.val < 18; omega), if_pos (by show 18 + k.val < 34; omega), chunkOf_rx]
omit [FloatOps F] in
theorem payload_sy (d : Bool) : (agRd (F := F) m ρ).payload (syCell c k) 0 d = syPay m ρ c k := by
  have := k.isLt
  show dmaPay m ρ c (syS k) = _
  unfold dmaPay
  rw [if_neg (by show ¬ 34 + k.val < 2; omega), if_neg (by show ¬ 34 + k.val < 18; omega), if_neg (by show ¬ 34 + k.val < 34; omega),
    if_pos (by show 34 + k.val < 50; omega), chunkOf_sy]
omit [FloatOps F] in
theorem payload_ry (d : Bool) : (agRd (F := F) m ρ).payload (ryCell c k) 0 d = ryPay m ρ c k := by
  have := k.isLt
  show dmaPay m ρ c (ryS k) = _
  unfold dmaPay
  rw [if_neg (by show ¬ 50 + k.val < 2; omega), if_neg (by show ¬ 50 + k.val < 18; omega), if_neg (by show ¬ 50 + k.val < 34; omega),
    if_neg (by show ¬ 50 + k.val < 50; omega), if_pos (by show 50 + k.val < 66; omega), chunkOf_ry]
omit [FloatOps F] in
theorem payload_cp (d : Bool) : (agRd (F := F) m ρ).payload (cpCell c) 0 d = cpPay m ρ c := by
  show dmaPay m ρ c cpS = _
  unfold dmaPay
  rw [if_neg (by show ¬ 66 < 2; omega), if_neg (by show ¬ 66 < 18; omega), if_neg (by show ¬ 66 < 34; omega),
    if_neg (by show ¬ 66 < 50; omega), if_neg (by show ¬ 66 < 66; omega)]

omit [FloatOps F] in
/-- The rest of the barrier's round, no duty taken: both neighbours' payloads. -/
theorem rest_bar : bigSep ((agRd (F := F) m ρ).duties (barCell c) 0 \ ∅) (fun d => (agRd (F := F) m ρ).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
omit [FloatOps F] in
theorem rest_sx : bigSep ((agRd (F := F) m ρ).duties (sxCell c k) 0 \ ∅) (fun d => (agRd (F := F) m ρ).payload (sxCell c k) 0 d) = sxPay m ρ c k := by
  rw [Finset.sdiff_empty, duties_sx, bigSep_singleton, payload_sx]
omit [FloatOps F] in
theorem rest_rx : bigSep ((agRd (F := F) m ρ).duties (rxCell c k) 0 \ ∅) (fun d => (agRd (F := F) m ρ).payload (rxCell c k) 0 d) = rxPay m ρ c k := by
  rw [Finset.sdiff_empty, duties_rx, bigSep_singleton, payload_rx]
omit [FloatOps F] in
theorem rest_sy : bigSep ((agRd (F := F) m ρ).duties (syCell c k) 0 \ ∅) (fun d => (agRd (F := F) m ρ).payload (syCell c k) 0 d) = syPay m ρ c k := by
  rw [Finset.sdiff_empty, duties_sy, bigSep_singleton, payload_sy]
omit [FloatOps F] in
theorem rest_ry : bigSep ((agRd (F := F) m ρ).duties (ryCell c k) 0 \ ∅) (fun d => (agRd (F := F) m ρ).payload (ryCell c k) 0 d) = ryPay m ρ c k := by
  rw [Finset.sdiff_empty, duties_ry, bigSep_singleton, payload_ry]
omit [FloatOps F] in
theorem rest_cp : bigSep ((agRd (F := F) m ρ).duties (cpCell c) 0 \ ∅) (fun d => (agRd (F := F) m ρ).payload (cpCell c) 0 d) = cpPay m ρ c := by
  rw [Finset.sdiff_empty, duties_cp, bigSep_singleton, payload_cp]

end Tables

end Cert.KernelIdeal.AG

end
-- ==== Proof.Pieces.lean ====
/-
  The row geometry of the all-gather: that each copy lands the rows `Fo` names, and how a result buffer and a staged
  block are cut into the pieces the copies hold.
-/
import proofs.«900077_g7700000000000078_dist_ag_v7x_xy2x2_x_m1024_n512_f32_1_alg».proof.Proof.Sched
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Which rows -/

/-- The rows a device's direct copy fills on the device across are the rows that device passes on. -/
theorem offA_xn (c : Dev nD) (k : Fin 16) : k0_off1 (xn c) (chw k) = k0_off4 c (chw k) := by
  rw [k0_off1_eq, k0_off4_eq]; revert c k; decide

/-- Row and column of the two neighbours. -/
private theorem xn_div (c : Dev nD) : (xn c).val / 2 = 1 - c.val / 2 := by revert c; decide
private theorem xn_mod (c : Dev nD) : (xn c).val % 2 = c.val % 2 := by revert c; decide
private theorem yn_div (c : Dev nD) : (yn c).val / 2 = c.val / 2 := by revert c; decide
private theorem yn_mod (c : Dev nD) : (yn c).val % 2 = 1 - c.val % 2 := by revert c; decide

/-- The printed offsets, coordinate by coordinate. -/
private theorem off1_0 (d : Dev nD) (k : Fin 16) : k0_off1 d (chw k) 0 = 1024 * (d.val / 2) + 512 * (d.val % 2) + 32 * k.val := by
  rw [k0_off1_eq]; rfl
private theorem off1_1 (d : Dev nD) (k : Fin 16) : k0_off1 d (chw k) 1 = 0 := by rw [k0_off1_eq]; rfl
private theorem off2_0 (d : Dev nD) (k : Fin 16) : k0_off2 d (chw k) 0 = 512 * (d.val % 2) + 32 * k.val := by rw [k0_off2_eq]; rfl
private theorem off2_1 (d : Dev nD) (k : Fin 16) : k0_off2 d (chw k) 1 = 0 := by rw [k0_off2_eq]; rfl
private theorem off3_0 (d : Dev nD) : k0_off3 d 0 = 1024 * (d.val / 2) := by rw [k0_off3_eq]; rfl
private theorem off3_1 (d : Dev nD) : k0_off3 d 1 = 0 := by rw [k0_off3_eq]; rfl
private theorem off4_0 (d : Dev nD) (k : Fin 16) : k0_off4 d (chw k) 0 = (512 * (d.val % 2) + 32 * k.val + 1024) - 1024 * (d.val / 2) := by
  rw [k0_off4_eq]; rfl
private theorem off4_1 (d : Dev nD) (k : Fin 16) : k0_off4 d (chw k) 1 = 0 := by rw [k0_off4_eq]; rfl

/-- Which device a row of a result comes from, by the row's place. -/
private theorem srcDev_own (c : Dev nD) (r : ℕ) (h : r / 1024 = c.val / 2) : srcDev c r = c := if_pos h
private theorem srcDev_x (c : Dev nD) (r : ℕ) (h : r / 1024 ≠ c.val / 2) (h' : (r % 1024) / 512 = c.val % 2) : srcDev c r = xn c := by
  unfold srcDev; rw [if_neg h, if_pos h']
private theorem srcDev_xy (c : Dev nD) (r : ℕ) (h : r / 1024 ≠ c.val / 2) (h' : (r % 1024) / 512 ≠ c.val % 2) :
    srcDev c r = xn (yn c) := by
  unfold srcDev; rw [if_neg h, if_neg h']

omit [FloatOps F] in
/-- An element of `Fo c` is the element of the source device's block at the row modulo 1024. -/
private theorem Fo_at (c d : Dev nD) (i : (cc0_stg1_0 : Ref sig .tc).ty.Idx) (j : (cc0_stg0_0 : Ref sig .tc).ty.Idx)
    (hd : srcDev c (i 0).val = d) (h0 : (j 0).val = (i 0).val % 1024) (h1 : (j 1).val = (i 1).val) :
    Fo m ρ c i = xstg m ρ d j := by
  show xstg m ρ (srcDev c (i 0).val) _ = xstg m ρ d j
  rw [hd]
  congr 1
  funext a
  match a with
  | ⟨0, _⟩ => exact Fin.ext h0.symm
  | ⟨1, _⟩ => exact Fin.ext h1.symm

/-- A coordinate of a row slice's element in its buffer: the offset plus the local coordinate. -/
private theorem oSl_emb_val (off : Fin 2 → ℕ) (h : ∀ a, off a + S32x512.size a ≤ S2048x512.size a) (y : S32x512.Idx) (a : Fin 2) :
    (((oSl off h).view.emb y) a).val = off a + (y a).val := by
  show off a + 1 * (y a).val = _
  rw [Nat.one_mul]
private theorem xSl_emb_val (c : Dev nD) (k : Fin 16) (y : S32x512.Idx) (a : Fin 2) :
    (((xSl c k).view.emb y) a).val = k0_off2 c (chw k) a + (y a).val := by
  show k0_off2 c (chw k) a + 1 * (y a).val = _
  rw [Nat.one_mul]
private theorem oSlL_emb_val (c : Dev nD) (y : S1024x512.Idx) (a : Fin 2) :
    (((oSlL c).view.emb y) a).val = k0_off3 c a + (y a).val := by
  show k0_off3 c a + 1 * (y a).val = _
  rw [Nat.one_mul]

/-! ## What lands -/

omit [FloatOps F] in
/-- A row slice written whole with a payload that is `Fo d` there holds `Fo d`'s rows, at whichever spelling of
    the offsets. -/
private theorem land_gen (d : Dev nD) (off off' : Fin 2 → ℕ) (h : ∀ a, off a + S32x512.size a ≤ S2048x512.size a)
    (h' : ∀ a, off' a + S32x512.size a ≤ S2048x512.size a) (e : off = off')
    (fd : Buf (Elt F) ((oSl off h).view.loc ((d : Dev nD) : Thread nD τ))) (w : S32x512.Idx → Elt F .f32)
    (hw : ∀ y, w y = Fo m ρ d ((oSl off h).view.emb y)) :
    ((oSl off h).view.loc ((d : Dev nD) : Thread nD τ) ↦[(oSl off h).view.set]{fullShare}
        (oSl off h).view.write (Elt F) fd w Finset.univ : sProp 𝕄)
      ⊢ oAt m ρ d off' h' := by
  subst e
  unfold oAt
  refine Entails.of_eq (pointsTo_congr fun i hi => ?_)
  obtain ⟨y, rfl⟩ := View.exists_emb_of_mem_set _ hi
  rw [View.write_emb_of_mem _ _ (Finset.mem_univ y), hw y]
  rfl

omit [FloatOps F] in
/-- The direct copy of chunk `k` from `c` lands, on the device across rows, the rows `Fo` names there. -/
theorem landA (c : Dev nD) (k : Fin 16) (fd : Buf (Elt F) ((oSlA c k).view.loc ((xn c : Dev nD) : Thread nD τ))) :
    ((oSlA c k).view.loc ((xn c : Dev nD) : Thread nD τ) ↦[(oSlA c k).view.set]{fullShare}
        (oSlA c k).view.write (Elt F) fd ((xSl c k).view.read (Elt F) (xstg m ρ c)) Finset.univ : sProp 𝕄)
      ⊢ rxPay m ρ (xn c) k := by
  have hoff : k0_off1 c (chw k) = k0_off4 (xn c) (chw k) := by
    have := offA_xn (xn c) k; rwa [xn_xn] at this
  refine land_gen m ρ (xn c) (k0_off1 c (chw k)) (k0_off4 (xn c) (chw k)) (k0_off1_inb c k) (k0_off4_inb (xn c) k) hoff fd _ fun y => ?_
  have hc : c.val < 4 := c.isLt
  have hk := k.isLt
  have hy0 : (y 0).val < 32 := (y 0).isLt
  have hy1 : (y 1).val < 512 := (y 1).isLt
  have e0 := oSl_emb_val (k0_off1 c (chw k)) (k0_off1_inb c k) y 0
  have e1 := oSl_emb_val (k0_off1 c (chw k)) (k0_off1_inb c k) y 1
  have x0 := xSl_emb_val c k y 0
  have x1 := xSl_emb_val c k y 1
  rw [off1_0] at e0; rw [off1_1] at e1; rw [off2_0] at x0; rw [off2_1] at x1
  have hxd := xn_div c
  have hxm := xn_mod c
  rw [Fo_at m ρ (xn c) c _ ((xSl c k).view.emb y) ?_ ?_ ?_]
  · rfl
  · rw [srcDev_x (xn c) _ (by rw [e0, hxd]; omega) (by rw [e0, hxm]; omega), xn_xn]
  · rw [x0, e0]; omega
  · rw [x1, e1]

omit [FloatOps F] in
/-- Two devices whose source for a row is the same hold the same element there. -/
private theorem Fo_congr (c c' : Dev nD) (i : (cc0_stg1_0 : Ref sig .tc).ty.Idx)
    (h : srcDev c (i 0).val = srcDev c' (i 0).val) : Fo m ρ c i = Fo m ρ c' i := by
  show xstg m ρ (srcDev c (i 0).val) _ = xstg m ρ (srcDev c' (i 0).val) _
  rw [h]

omit [FloatOps F] in
/-- The chunk `c` passes on lands, on its row mate, the rows `Fo` names there. -/
theorem landB (c : Dev nD) (k : Fin 16) (fd : Buf (Elt F) ((oSlB c k).view.loc ((yn c : Dev nD) : Thread nD τ))) :
    ((oSlB c k).view.loc ((yn c : Dev nD) : Thread nD τ) ↦[(oSlB c k).view.set]{fullShare}
        (oSlB c k).view.write (Elt F) fd ((oSlB c k).view.read (Elt F) (Fo m ρ c)) Finset.univ : sProp 𝕄)
      ⊢ ryPay m ρ (yn c) k := by
  have hoff : k0_off4 c (chw k) = k0_off4 (yn (yn c)) (chw k) := by rw [yn_yn]
  refine land_gen m ρ (yn c) (k0_off4 c (chw k)) (k0_off4 (yn (yn c)) (chw k)) (k0_off4_inb c k) (k0_off4_inb (yn (yn c)) k) hoff fd _ fun y => ?_
  have hc : c.val < 4 := c.isLt
  have hk := k.isLt
  have hy0 : (y 0).val < 32 := (y 0).isLt
  have e0 := oSl_emb_val (k0_off4 c (chw k)) (k0_off4_inb c k) y 0
  rw [off4_0] at e0
  have hyd := yn_div c
  have hym := yn_mod c
  refine (Fo_congr m ρ c (yn c) _ ?_ : _)
  rw [srcDev_x c _ (by rw [e0]; omega) (by rw [e0]; omega),
    srcDev_xy (yn c) _ (by rw [e0, hyd]; omega) (by rw [e0, hym]; omega), yn_yn]

omit [FloatOps F] in
/-- The local copy lands the device's own block where `Fo` has it, and hands the block's share back. -/
theorem landL (c : Dev nD) (fd : Buf (Elt F) ((oSlL c).view.loc (c : Thread nD τ))) :
    iprop(((oSlL c).view.loc (c : Thread nD τ) ↦[(oSlL c).view.set]{fullShare}
          (oSlL c).view.write (Elt F) fd (xM.view.read (Elt F) (xstg m ρ c)) Finset.univ)
        ∗ (xM.view.loc (c : Thread nD τ) ↦[xM.view.set]{qL} xstg m ρ c) : sProp 𝕄)
      ⊢ cpPay m ρ c := by
  unfold cpPay
  refine sep_mono_l (Entails.of_eq (pointsTo_congr fun i hi => ?_))
  obtain ⟨y, rfl⟩ := View.exists_emb_of_mem_set _ hi
  rw [View.write_emb_of_mem _ _ (Finset.mem_univ y)]
  have hc : c.val < 4 := c.isLt
  have hy0 : (y 0).val < 1024 := (y 0).isLt
  have e0 := oSlL_emb_val c y 0
  have e1 := oSlL_emb_val c y 1
  rw [off3_0] at e0; rw [off3_1] at e1
  rw [Fo_at m ρ c c _ y ?_ ?_ ?_]
  · rfl
  · exact srcDev_own c _ (by rw [e0]; omega)
  · rw [e0]; omega
  · rw [e1]; omega

/-! ## Cutting the buffers -/

omit [FloatOps F] in
private theorem eq_of_bi {P Q : sProp 𝕄} (h : P ⊣⊢ Q) : P = Q := BI.equiv_iff.mp ⟨h.1, h.2⟩

/-- In a buffer of 512 columns, a band of whole rows is told by the row alone. -/
private theorem mem_rows {n : ℕ} (off sz : Fin 2 → ℕ) (h : ∀ a, off a + sz a ≤ (⟨2, ![n, 512]⟩ : Shape).size a)
    (h1 : off 1 = 0) (hs : sz 1 = 512) (i : (⟨2, ![n, 512]⟩ : Shape).Idx) :
    i ∈ (Rect.unit (s := ⟨2, ![n, 512]⟩) off sz h).set ↔ off 0 ≤ (i 0).val ∧ (i 0).val < off 0 + sz 0 := by
  rw [Rect.mem_set_unit]
  have hi1 : (i 1).val < 512 := (i 1).isLt
  constructor
  · intro H; exact H 0
  · intro H
    refine Fin.forall_fin_two.mpr ⟨H, ?_, ?_⟩
    · rw [h1]; exact Nat.zero_le _
    · rw [h1, hs]; omega

private theorem mem_oSl (off : Fin 2 → ℕ) (h : ∀ a, off a + S32x512.size a ≤ S2048x512.size a) (h1 : off 1 = 0)
    (i : (cc0_stg1_0 : Ref sig .tc).ty.Idx) :
    i ∈ (oSl off h).view.set ↔ off 0 ≤ (i 0).val ∧ (i 0).val < off 0 + 32 := by
  rw [show (oSl off h).view.set = (Rect.unit (s := S2048x512) off S32x512.size h).set from View.set_slice_whole _ _]
  exact mem_rows off S32x512.size h h1 rfl i

private theorem mem_oSlL (c : Dev nD) (i : (cc0_stg1_0 : Ref sig .tc).ty.Idx) :
    i ∈ (oSlL c).view.set ↔ 1024 * (c.val / 2) ≤ (i 0).val ∧ (i 0).val < 1024 * (c.val / 2) + 1024 := by
  rw [show (oSlL c).view.set = (Rect.unit (s := S2048x512) (k0_off3 c) S1024x512.size (k0_off3_inb c)).set from View.set_slice_whole _ _,
    mem_rows _ _ _ (off3_1 c) rfl, off3_0]
  rfl

private theorem mem_xSl (c : Dev nD) (k : Fin 16) (i : (cc0_stg0_0 : Ref sig .tc).ty.Idx) :
    i ∈ (xSl c k).view.set ↔ 512 * (c.val % 2) + 32 * k.val ≤ (i 0).val ∧ (i 0).val < 512 * (c.val % 2) + 32 * k.val + 32 := by
  rw [show (xSl c k).view.set = (Rect.unit (s := S1024x512) (k0_off2 c (chw k)) S32x512.size (k0_off2_inb c k)).set from View.set_slice_whole _ _,
    mem_rows _ _ _ (off2_1 c k) rfl, off2_0]
  rfl

/-- Two row slices of a result buffer whose rows do not meet are disjoint. -/
private theorem oSl_disj (off off' : Fin 2 → ℕ) (h : ∀ a, off a + S32x512.size a ≤ S2048x512.size a)
    (h' : ∀ a, off' a + S32x512.size a ≤ S2048x512.size a) (h1 : off 1 = 0) (h1' : off' 1 = 0)
    (hsep : off 0 + 32 ≤ off' 0 ∨ off' 0 + 32 ≤ off 0) : Disjoint (oSl off h).view.set (oSl off' h').view.set := by
  rw [Finset.disjoint_left]
  intro i hi hi'
  rw [mem_oSl _ _ h1] at hi
  rw [mem_oSl _ _ h1'] at hi'
  omega

/-- A row slice away from the own block's rows is disjoint from the own block. -/
private theorem oSl_disj_L (c : Dev nD) (off : Fin 2 → ℕ) (h : ∀ a, off a + S32x512.size a ≤ S2048x512.size a) (h1 : off 1 = 0)
    (hsep : off 0 + 32 ≤ 1024 * (c.val / 2) ∨ 1024 * (c.val / 2) + 1024 ≤ off 0) :
    Disjoint (oSl off h).view.set (oSlL c).view.set := by
  rw [Finset.disjoint_left]
  intro i hi hi'
  rw [mem_oSl _ _ h1] at hi
  rw [mem_oSlL] at hi'
  omega

/-- The chunks one device passes on are pairwise disjoint. -/
private theorem off4_disj (d : Dev nD) (k k' : Fin 16) (hne : k ≠ k') :
    Disjoint (oSl (k0_off4 d (chw k)) (k0_off4_inb d k)).view.set (oSl (k0_off4 d (chw k')) (k0_off4_inb d k')).view.set := by
  refine oSl_disj _ _ _ _ (off4_1 d k) (off4_1 d k') ?_
  rw [off4_0, off4_0]
  have hd : d.val < 4 := d.isLt
  have : k.val ≠ k'.val := fun e => hne (Fin.ext e)
  omega

/-- The 33 pieces cover a result buffer: a row is in the own block, or in the half the device across rows fills, or
    in the half the row mate fills. -/
private theorem out_cover (c : Dev nD) :
    (Finset.univ : Finset ((cc0_stg1_0 : Ref sig .tc).ty.Idx)) =
      ((Finset.univ.biUnion fun k : Fin 16 => (oSl (k0_off4 c (chw k)) (k0_off4_inb c k)).view.set)
        ∪ (Finset.univ.biUnion fun k : Fin 16 => (oSl (k0_off4 (yn c) (chw k)) (k0_off4_inb (yn c) k)).view.set))
        ∪ (oSlL c).view.set := by
  ext i
  simp only [Finset.mem_univ, true_iff, Finset.mem_union, Finset.mem_biUnion, true_and]
  have hc : c.val < 4 := c.isLt
  have hi : (i 0).val < 2048 := (i 0).isLt
  have hyd := yn_div c
  have hym := yn_mod c
  have hk : ((i 0).val % 512) / 32 < 16 := by omega
  by_cases h1 : (i 0).val / 1024 = c.val / 2
  · right; rw [mem_oSlL]; omega
  · left
    by_cases h2 : ((i 0).val % 1024) / 512 = c.val % 2
    · left
      refine ⟨⟨_, hk⟩, ?_⟩
      rw [mem_oSl _ _ (off4_1 _ _), off4_0]
      simp only []
      omega
    · right
      refine ⟨⟨_, hk⟩, ?_⟩
      rw [mem_oSl _ _ (off4_1 _ _), off4_0, hyd, hym]
      simp only []
      omega

private theorem out_disj_AB (c : Dev nD) :
    Disjoint (α := Finset ((cc0_stg1_0 : Ref sig .tc).ty.Idx))
      (Finset.univ.biUnion fun k : Fin 16 => (oSl (k0_off4 c (chw k)) (k0_off4_inb c k)).view.set)
      (Finset.univ.biUnion fun k : Fin 16 => (oSl (k0_off4 (yn c) (chw k)) (k0_off4_inb (yn c) k)).view.set) := by
  refine (Finset.disjoint_biUnion_left _ _ _).mpr fun k _ => (Finset.disjoint_biUnion_right _ _ _).mpr fun k' _ => ?_
  refine oSl_disj _ _ _ _ (off4_1 c k) (off4_1 (yn c) k') ?_
  rw [off4_0, off4_0, yn_div, yn_mod]
  have hc : c.val < 4 := c.isLt
  have := k.isLt
  have := k'.isLt
  omega

private theorem out_disj_ABL (c : Dev nD) :
    Disjoint (α := Finset ((cc0_stg1_0 : Ref sig .tc).ty.Idx)) ((Finset.univ.biUnion fun k : Fin 16 => (oSl (k0_off4 c (chw k)) (k0_off4_inb c k)).view.set)
        ∪ (Finset.univ.biUnion fun k : Fin 16 => (oSl (k0_off4 (yn c) (chw k)) (k0_off4_inb (yn c) k)).view.set))
      (oSlL c).view.set := by
  have hc : c.val < 4 := c.isLt
  refine Finset.disjoint_union_left.mpr ⟨(Finset.disjoint_biUnion_left _ _ _).mpr fun k _ => ?_,
    (Finset.disjoint_biUnion_left _ _ _).mpr fun k _ => ?_⟩
  · refine oSl_disj_L c _ _ (off4_1 c k) ?_
    rw [off4_0]; have := k.isLt; omega
  · refine oSl_disj_L c _ _ (off4_1 (yn c) k) ?_
    rw [off4_0, yn_div, yn_mod]; have := k.isLt; omega

omit [FloatOps F] in
/-- A result buffer at contents `f` is its 33 pieces at `f`. -/
private theorem out_pieces (c : Dev nD) (f : Buf (Elt F) ((c : Thread nD τ).loc cc0_stg1_0)) :
    (((c : Thread nD τ).loc cc0_stg1_0) ↦{fullShare} f : sProp 𝕄)
      = iprop((bigSep Finset.univ fun k : Fin 16 =>
            (oSl (k0_off4 c (chw k)) (k0_off4_inb c k)).view.loc (c : Thread nD τ) ↦[(oSl (k0_off4 c (chw k)) (k0_off4_inb c k)).view.set]{fullShare} f)
          ∗ (bigSep Finset.univ fun k : Fin 16 =>
            (oSl (k0_off4 (yn c) (chw k)) (k0_off4_inb (yn c) k)).view.loc (c : Thread nD τ) ↦[(oSl (k0_off4 (yn c) (chw k)) (k0_off4_inb (yn c) k)).view.set]{fullShare} f)
          ∗ ((oSlL c).view.loc (c : Thread nD τ) ↦[(oSlL c).view.set]{fullShare} f)) := by
  have e0 : (((c : Thread nD τ).loc cc0_stg1_0) ↦{fullShare} f : sProp 𝕄)
      = (((c : Thread nD τ).loc cc0_stg1_0) ↦[((Finset.univ.biUnion fun k : Fin 16 => (oSl (k0_off4 c (chw k)) (k0_off4_inb c k)).view.set)
        ∪ (Finset.univ.biUnion fun k : Fin 16 => (oSl (k0_off4 (yn c) (chw k)) (k0_off4_inb (yn c) k)).view.set))
        ∪ (oSlL c).view.set]{fullShare} f) := by
    rw [← out_cover c]
  rw [e0, eq_of_bi (pointsTo_union (out_disj_ABL c)), eq_of_bi (pointsTo_union (out_disj_AB c)),
    pointsTo_biUnion _ _ (fun k _ k' _ hne => off4_disj c k k' hne),
    pointsTo_biUnion _ _ (fun k _ k' _ hne => off4_disj (yn c) k k' hne)]
  exact eq_of_bi sep_assoc

omit [FloatOps F] in
private theorem oAny_intro (d : Dev nD) (off off' : Fin 2 → ℕ) (h : ∀ a, off a + S32x512.size a ≤ S2048x512.size a)
    (h' : ∀ a, off' a + S32x512.size a ≤ S2048x512.size a) (e : off = off')
    (f : Buf (Elt F) ((oSl off h).view.loc ((d : Dev nD) : Thread nD τ))) :
    ((oSl off h).view.loc ((d : Dev nD) : Thread nD τ) ↦[(oSl off h).view.set]{fullShare} f : sProp 𝕄) ⊢ oAny d off' h' := by
  subst e
  unfold oAny
  iintro H
  iexists f
  iexact H

omit [FloatOps F] in
/-- A result buffer, at any contents, is the 16 slices the device across rows fills, the 16 the row mate fills,
    and the device's own block. -/
theorem out_cut (c : Dev nD) (f : Buf (Elt F) ((c : Thread nD τ).loc cc0_stg1_0)) :
    (((c : Thread nD τ).loc cc0_stg1_0) ↦{fullShare} f : sProp 𝕄)
      ⊢ iprop((bigSep Finset.univ fun k : Fin 16 => oAny (F := F) c (k0_off1 (xn c) (chw k)) (k0_off1_inb (xn c) k))
          ∗ (bigSep Finset.univ fun k : Fin 16 => oAny (F := F) c (k0_off4 (yn c) (chw k)) (k0_off4_inb (yn c) k))
          ∗ ∃ g : Buf (Elt F) ((oSlL c).view.loc (c : Thread nD τ)), (oSlL c).view.loc (c : Thread nD τ) ↦[(oSlL c).view.set]{fullShare} g) := by
  have hA : ∀ k : Fin 16, ((oSl (k0_off4 c (chw k)) (k0_off4_inb c k)).view.loc (c : Thread nD τ) ↦[(oSl (k0_off4 c (chw k)) (k0_off4_inb c k)).view.set]{fullShare} f : sProp 𝕄)
      ⊢ oAny c (k0_off1 (xn c) (chw k)) (k0_off1_inb (xn c) k) :=
    fun k => oAny_intro c (k0_off4 c (chw k)) (k0_off1 (xn c) (chw k)) (k0_off4_inb c k) (k0_off1_inb (xn c) k) (offA_xn c k).symm f
  have hB : ∀ k : Fin 16, ((oSl (k0_off4 (yn c) (chw k)) (k0_off4_inb (yn c) k)).view.loc (c : Thread nD τ) ↦[(oSl (k0_off4 (yn c) (chw k)) (k0_off4_inb (yn c) k)).view.set]{fullShare} f : sProp 𝕄)
      ⊢ oAny c (k0_off4 (yn c) (chw k)) (k0_off4_inb (yn c) k) :=
    fun k => oAny_intro c (k0_off4 (yn c) (chw k)) (k0_off4 (yn c) (chw k)) (k0_off4_inb (yn c) k) (k0_off4_inb (yn c) k) rfl f
  have hL : ((oSlL c).view.loc (c : Thread nD τ) ↦[(oSlL c).view.set]{fullShare} f : sProp 𝕄)
      ⊢ iprop(∃ g : Buf (Elt F) ((oSlL c).view.loc (c : Thread nD τ)), (oSlL c).view.loc (c : Thread nD τ) ↦[(oSlL c).view.set]{fullShare} g) := by
    iintro H
    iexists f
    iexact H
  rw [out_pieces c f]
  exact BIClass.sep_mono (bigSep_mono fun k _ => hA k) (BIClass.sep_mono (bigSep_mono fun k _ => hB k) hL)

omit [FloatOps F] in
/-- The pieces, each holding `Fo c`'s rows, are the result buffer holding `Fo c`. -/
theorem out_join (c : Dev nD) :
    iprop((bigSep Finset.univ fun k : Fin 16 => syPay m ρ c k) ∗ (bigSep Finset.univ fun k : Fin 16 => ryPay m ρ c k)
        ∗ ((oSlL c).view.loc (c : Thread nD τ) ↦[(oSlL c).view.set]{fullShare} Fo m ρ c))
      ⊢ (((c : Thread nD τ).loc cc0_stg1_0) ↦{fullShare} Fo m ρ c : sProp 𝕄) := by
  unfold syPay ryPay oAt
  exact Entails.of_eq (out_pieces c (Fo m ρ c)).symm

/-- The chunks a device sends are pairwise disjoint in its staged block. -/
private theorem xSl_disj (c : Dev nD) (k k' : Fin 16) (hne : k ≠ k') : Disjoint (xSl c k).view.set (xSl c k').view.set := by
  rw [Finset.disjoint_left]
  intro i hi hi'
  rw [mem_xSl] at hi hi'
  have : k.val ≠ k'.val := fun e => hne (Fin.ext e)
  omega

omit [FloatOps F] in
/-- The staged block, cut by share and by chunk: the left share whole, the right share's 16 chunks of the half the
    device sends, and the right share of the other half. -/
def xRest (c : Dev nD) (f : Buf (Elt F) ((c : Thread nD τ).loc cc0_stg0_0)) : sProp 𝕄 :=
  ((c : Thread nD τ).loc cc0_stg0_0) ↦[Finset.univ \ (Finset.univ.biUnion fun k : Fin 16 => (xSl c k).view.set)]{qA} f

omit [FloatOps F] in
theorem x_cut (c : Dev nD) (f : Buf (Elt F) ((c : Thread nD τ).loc cc0_stg0_0)) :
    (((c : Thread nD τ).loc cc0_stg0_0) ↦{fullShare} f : sProp 𝕄)
      ⊣⊢ iprop((xM.view.loc (c : Thread nD τ) ↦[xM.view.set]{qL} f)
          ∗ (bigSep Finset.univ fun k : Fin 16 => ((xSl c k).view.loc (c : Thread nD τ) ↦[(xSl c k).view.set]{qA} f))
          ∗ xRest c f) := by
  have e : (((c : Thread nD τ).loc cc0_stg0_0) ↦{fullShare} f : sProp 𝕄)
      = iprop((xM.view.loc (c : Thread nD τ) ↦[xM.view.set]{qL} f)
          ∗ (bigSep Finset.univ fun k : Fin 16 => ((xSl c k).view.loc (c : Thread nD τ) ↦[(xSl c k).view.set]{qA} f))
          ∗ xRest c f) := by
    unfold xRest
    rw [show xM.view.set = Finset.univ from View.set_whole _,
      eq_of_bi (pointsTo_share (PosShare.mem_left_op_right fullShare)),
      eq_of_bi (pointsTo_split_subset (q := qA) (I := Finset.univ.biUnion fun k : Fin 16 => (xSl c k).view.set) (Finset.subset_univ _)),
      pointsTo_biUnion _ _ (fun k _ k' _ hne => xSl_disj c k k' hne)]
  exact ⟨Entails.of_eq e, Entails.of_eq e.symm⟩

end Cert.KernelIdeal.AG

end
-- ==== Proof.Steps.lean ====
/-
  One thread's steps of the all-gather, each once for a symbolic device `c` and chunk `k`: the two barrier signals
  and the barrier wait, a direct copy across rows, the local copy, a receive wait followed by passing the chunk on, a
  second receive wait, and the waits for the send sides.

  Levels, for the deadlock argument: a barrier semaphore sits at 1, the receive side of a direct copy at 2, the receive
  side of a passed-on copy at 3, everything else at 0. A device waits on its barrier owing only receive credit (levels
  2 and 3), on a first receive owing only second receives (level 3), and on everything else owing nothing.
-/
import proofs.«900077_g7700000000000078_dist_ag_v7x_xy2x2_x_m1024_n512_f32_1_alg».proof.Proof.Pieces

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Levels -/

def L (g : GSem nD τ sig) : Finset Unit := if g.1.2 = .tc then {()} else ∅
def lv (g : GSem nD τ sig) (_ : Unit) : ℕ := match g.2 with
  | .reg _ => 1
  | .dma q => if 18 ≤ q.val ∧ q.val < 34 then 2 else if 50 ≤ q.val ∧ q.val < 66 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_rx (c : Dev nD) (k : Fin 16) (u : Unit) : lv (rxCell c k) u = 2 := by
  have := k.isLt; show (if 18 ≤ 18 + k.val ∧ 18 + k.val < 34 then 2 else _) = 2; rw [if_pos ⟨by omega, by omega⟩]
theorem lv_ry (c : Dev nD) (k : Fin 16) (u : Unit) : lv (ryCell c k) u = 3 := by
  have := k.isLt
  show (if 18 ≤ 50 + k.val ∧ 50 + k.val < 34 then 2 else if 50 ≤ 50 + k.val ∧ 50 + k.val < 66 then 3 else 0) = 3
  rw [if_neg (by omega), if_pos ⟨by omega, by omega⟩]
theorem lv_bar (c : Dev nD) (u : Unit) : lv (barCell c) u = 1 := rfl

/-! ## What a device still owes -/

/-- The receive credit of the direct copies from chunk `a` on, and of the passed-on copies from chunk `b` on. -/
def OA (c : Dev nD) (a : ℕ) : CellTallies nD τ sig Unit :=
  ∑ k : Fin 16, if a ≤ k.val then tallyAt (rxCell (xn c) k) () N else 0
def OB (c : Dev nD) (b : ℕ) : CellTallies nD τ sig Unit :=
  ∑ k : Fin 16, if b ≤ k.val then tallyAt (ryCell (yn c) k) () N else 0

theorem OA_step (c : Dev nD) (k : Fin 16) : OA c k.val = OA c (k.val + 1) + tallyAt (rxCell (xn c) k) () N := by
  unfold OA
  rw [← Finset.sum_erase_add _ _ (Finset.mem_univ k), ← Finset.sum_erase_add (a := k) (s := Finset.univ) (f := fun j : Fin 16 => if k.val + 1 ≤ j.val then tallyAt (rxCell (xn c) j) () N else 0) (Finset.mem_univ k),
    if_pos (le_refl _), if_neg (by omega), add_zero]
  congr 1
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]
theorem OB_step (c : Dev nD) (k : Fin 16) : OB c k.val = OB c (k.val + 1) + tallyAt (ryCell (yn c) k) () N := by
  unfold OB
  rw [← Finset.sum_erase_add _ _ (Finset.mem_univ k), ← Finset.sum_erase_add (a := k) (s := Finset.univ) (f := fun j : Fin 16 => if k.val + 1 ≤ j.val then tallyAt (ryCell (yn c) j) () N else 0) (Finset.mem_univ k),
    if_pos (le_refl _), if_neg (by omega), add_zero]
  congr 1
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]
theorem OA_done (c : Dev nD) : OA c 16 = 0 := by
  unfold OA; exact Finset.sum_eq_zero fun k _ => if_neg (by have := k.isLt; omega)
theorem OB_done (c : Dev nD) : OB c 16 = 0 := by
  unfold OB; exact Finset.sum_eq_zero fun k _ => if_neg (by have := k.isLt; omega)

theorem OA_pos {c : Dev nD} {a : ℕ} {g : GSem nD τ sig} {u : Unit} (h : 0 < OA c a g u) : ∃ k : Fin 16, g = rxCell (xn c) k := by
  by_contra hn
  rw [not_exists] at hn
  have : OA c a g u = 0 := by
    unfold OA
    rw [Finset.sum_apply, Finsupp.finset_sum_apply]
    refine Finset.sum_eq_zero fun k _ => ?_
    split
    · rw [tallyAt_ne_cell (hn k)]; rfl
    · rfl
  omega
theorem OB_pos {c : Dev nD} {b : ℕ} {g : GSem nD τ sig} {u : Unit} (h : 0 < OB c b g u) : ∃ k : Fin 16, g = ryCell (yn c) k := by
  by_contra hn
  rw [not_exists] at hn
  have : OB c b g u = 0 := by
    unfold OB
    rw [Finset.sum_apply, Finsupp.finset_sum_apply]
    refine Finset.sum_eq_zero fun k _ => ?_
    split
    · rw [tallyAt_ne_cell (hn k)]; rfl
    · rfl
  omega

theorem OAB_pos {c : Dev nD} {a b : ℕ} {g : GSem nD τ sig} {u : Unit} (h : 0 < (OA c a + OB c b) g u) :
    (∃ k : Fin 16, g = rxCell (xn c) k) ∨ ∃ k : Fin 16, g = ryCell (yn c) k := by
  rw [Pi.add_apply, Finsupp.add_apply] at h
  rcases Nat.add_pos_iff_pos_or_pos.mp h with h | h
  · exact .inl (OA_pos h)
  · exact .inr (OB_pos h)

omit [FloatOps F] in
/-- At its barrier wait a device owes receive credit only. -/
theorem mayWait_bar (c : Dev nD) (a b : ℕ) :
    (levAts L lv : sProp 𝕄) ⊢ MayWait (c : Thread nD τ) (.reg barS) () (OA c a + OB c b) :=
  MayOwe.of_cut (L := L) (lev := lv) 1 (fun p hp => by rw [Finset.mem_singleton.mp hp, L_tc]; exact Finset.mem_singleton_self _)
    (fun g u hg => by rcases OAB_pos hg with ⟨k, rfl⟩ | ⟨k, rfl⟩ <;> (rw [L_tc]; exact Finset.mem_singleton_self _))
    (fun p hp => by rw [Finset.mem_singleton.mp hp]; exact le_refl _)
    (fun g u hg => by
      rcases OAB_pos hg with ⟨k, rfl⟩ | ⟨k, rfl⟩
      · rw [lv_rx]; decide
      · rw [lv_ry]; decide)

omit [FloatOps F] in
/-- At a first receive wait it owes second receives only. -/
theorem mayWait_rx (c : Dev nD) (k : Fin 16) (b : ℕ) :
    (levAts L lv : sProp 𝕄) ⊢ MayWait (c : Thread nD τ) (.dma (rxS k)) () (OB c b) :=
  MayOwe.of_cut (L := L) (lev := lv) 2 (fun p hp => by rw [Finset.mem_singleton.mp hp, L_tc]; exact Finset.mem_singleton_self _)
    (fun g u hg => by obtain ⟨j, rfl⟩ := OB_pos hg; rw [L_tc]; exact Finset.mem_singleton_self _)
    (fun p hp => by rw [Finset.mem_singleton.mp hp]; exact le_of_eq (lv_rx c k ()))
    (fun g u hg => by obtain ⟨j, rfl⟩ := OB_pos hg; rw [lv_ry]; decide)

/-! ## A cell's invariant, at some name -/

def inv (g : GSem nD τ sig) : sProp 𝕄 := iprop(∃ κ : ℕ, cellInv ER (agRd m ρ) κ g)
instance inv_persistent (g : GSem nD τ sig) : BI.Persistent (inv m ρ g) := by unfold inv; infer_instance

/-- What a device owes, the waits it has recorded left open. -/
def owesE (c : Dev nD) (O : CellTallies nD τ sig Unit) : sProp 𝕄 := iprop(∃ W : Waits sig Unit, owes (c : Thread nD τ) O W)

/-! ## The direct copy of chunk `k` -/

/-- Device `c` sends chunk `k` of its half across rows: from its share of the chunk and the slice it fills on the device
    across, it gets the send side's credit, and the receive side's is off what it owes. -/
theorem stepA (c n : Dev nD) (hn : n = xn c) (k : Fin 16) {hsc : (oSlA c k : Memref sig (Dev.tc n : Thread nD τ).2.kind .vmem S32x512 .f32).view.ref.isScScratch = false}
    {hsrc : (xSl c k).view.WordExact} {hdst : (oSlA c k).view.WordExact}
    {hsem : DmaTarget.Typed .vmem (.dma (rxS k)) (.remote (Dev.tc n : Thread nD τ) (oSlA c k) (.dma (sxS k)) hsc)}
    {α : Type} {Q : α → sProp 𝕄} {kont : PUnit → Prog (TpuEff nD τ sig (Elt F) Λ₀ .tc) α}
    (κ₁ κ₂ : ℕ) (fd : Buf (Elt F) ((oSlA c k).view.loc ((xn c : Dev nD) : Thread nD τ))) (O : CellTallies nD τ sig Unit) (W : Waits sig Unit) :
    iprop(cellInv ER (agRd m ρ) κ₁ (sxCell c k) ∗ cellInv ER (agRd m ρ) κ₂ (rxCell (xn c) k)
        ∗ ((xSl c k).view.loc (c : Thread nD τ) ↦[(xSl c k).view.set]{qA} xstg m ρ c)
        ∗ ((oSlA c k).view.loc ((xn c : Dev nD) : Thread nD τ) ↦[(oSlA c k).view.set]{fullShare} fd)
        ∗ owes (c : Thread nD τ) (O + tallyAt (rxCell (xn c) k) () N) W
        ∗ dutyTok ER (sxCell c k) 0 false ∗ reached ER (sxCell c k) 0
        ∗ dutyTok ER (rxCell (xn c) k) 0 false ∗ reached ER (rxCell (xn c) k) 0)
      ⊢ iprop(((cred (tallyAt (sxCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc n : Thread nD τ) (oSlA c k) (.dma (sxS k)) hsc) (.dma (rxS k)) hsrc hdst hsem) kont) Q) := by
  subst hn
  exact Rounds.wp_send_pointsTo 𝒱₀ ER (agRd m ρ) (c : Thread nD τ) none (κ₁ := κ₁) (κ₂ := κ₂)
    (r₁ := 0) (r₂ := 0) (d₁ := false) (d₂ := false) (fd := fd)
    (by rw [duties_sx]; exact Finset.mem_singleton_self _) (by rw [duties_rx]; exact Finset.mem_singleton_self _)
    () () N rfl (amount_sx m ρ c k false) (amount_rx m ρ (xn c) k false) O rfl (W := W)
    (by rw [payload_sx]; exact BI.Entails.refl _)
    (by rw [payload_rx]; exact landA m ρ c k fd)

end Cert.KernelIdeal.AG

end
-- ==== Proof.Chunk.lean ====
/-
  One chunk's way through a device, as four steps over what the device holds for that chunk.

  For chunk `k` device `c` holds, to begin with: the tokens of the four duties it pays (its two send sides, the receive
  side on the device across rows, the receive side on its row mate), its places on its own four semaphores of the
  chunk, the receive credit dealt at launch, its share of the chunk of its block, and the two slices it will fill on
  its neighbours. Sending the chunk across trades the first for send credit; receiving the chunk from across and
  passing it on trades receive credit for the slice and the slice for more send credit; the second receive brings
  the row mate's slice; the two send waits bring back the block's chunk and the passed-on slice.
-/
import proofs.«900077_g7700000000000078_dist_ag_v7x_xy2x2_x_m1024_n512_f32_1_alg».proof.Proof.Steps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The neighbours, as the kernel computes them -/

theorem xdev_of {c n : Dev nD} (h : n.val = ((c.val % 2) + 2) - 2 * (c.val / 2)) : n = xn c := Fin.ext (h.trans (xdev_val c))
theorem ydev_of {c n : Dev nD} (h : n.val = (2 * (c.val / 2) + 1) - (c.val % 2)) : n = yn c := Fin.ext (h.trans (ydev_val c))

/-- Closes `⟨k0_devN c, _⟩ = xn c` for the chains that name the device across rows. -/
macro "dev_x" : tactic => `(tactic| (apply xdev_of; first
  | exact k0_dev1_eq _ | exact k0_dev3_eq _ | exact k0_dev4_eq _ | exact k0_dev5_eq _ | exact k0_dev6_eq _ | exact k0_dev7_eq _
  | exact k0_dev8_eq _ | exact k0_dev9_eq _ | exact k0_dev10_eq _ | exact k0_dev11_eq _ | exact k0_dev12_eq _ | exact k0_dev13_eq _
  | exact k0_dev14_eq _ | exact k0_dev15_eq _ | exact k0_dev16_eq _ | exact k0_dev17_eq _ | exact k0_dev18_eq _))
/-- Closes `⟨k0_devN c, _⟩ = yn c` for the chains that name the row mate. -/
macro "dev_y" : tactic => `(tactic| (apply ydev_of; first
  | exact k0_dev2_eq _ | exact k0_dev19_eq _ | exact k0_dev20_eq _ | exact k0_dev21_eq _ | exact k0_dev22_eq _ | exact k0_dev23_eq _
  | exact k0_dev24_eq _ | exact k0_dev25_eq _ | exact k0_dev26_eq _ | exact k0_dev27_eq _ | exact k0_dev28_eq _ | exact k0_dev29_eq _
  | exact k0_dev30_eq _ | exact k0_dev31_eq _ | exact k0_dev32_eq _ | exact k0_dev33_eq _ | exact k0_dev34_eq _))

/-! ## What a device holds for chunk `k` -/

/-- The chunk's lasting facts: the invariants of the six semaphores the device touches for it, and that the four it
    pays are at round 0. -/
def cfacts (c : Dev nD) (k : Fin 16) : sProp 𝕄 :=
  iprop(inv m ρ (sxCell c k) ∗ inv m ρ (rxCell c k) ∗ inv m ρ (syCell c k) ∗ inv m ρ (ryCell c k)
    ∗ inv m ρ (rxCell (xn c) k) ∗ inv m ρ (ryCell (yn c) k)
    ∗ reached ER (sxCell c k) 0 ∗ reached ER (syCell c k) 0 ∗ reached ER (rxCell (xn c) k) 0 ∗ reached ER (ryCell (yn c) k) 0)
instance cfacts_persistent (c : Dev nD) (k : Fin 16) : BI.Persistent (cfacts m ρ c k) := by unfold cfacts; infer_instance

/-- What the launch deals the device for chunk `k`: the four tokens, the four places, the two receive credits. -/
def K0 (c : Dev nD) (k : Fin 16) : sProp 𝕄 :=
  iprop(dutyTok ER (sxCell c k) 0 false ∗ dutyTok ER (rxCell (xn c) k) 0 false ∗ dutyTok ER (syCell c k) 0 false ∗ dutyTok ER (ryCell (yn c) k) 0 false
    ∗ atPos ER (sxCell c k) 0 ∅ 0 ∗ atPos ER (rxCell c k) 0 ∅ 0 ∗ atPos ER (syCell c k) 0 ∅ 0 ∗ atPos ER (ryCell c k) 0 ∅ 0
    ∗ cred (tallyAt (rxCell c k) () N) ∗ cred (tallyAt (ryCell c k) () N))
/-- Before anything of chunk `k` has moved: that, its share of the chunk of its block, and the two slices it fills. -/
def S0 (c : Dev nD) (k : Fin 16) : sProp 𝕄 :=
  iprop(K0 c k ∗ sxPay m ρ c k ∗ oAny (xn c) (k0_off1 c (chw k)) (k0_off1_inb c k) ∗ oAny (yn c) (k0_off4 c (chw k)) (k0_off4_inb c k))
/-- After the chunk is on its way across rows. -/
def S1 (c : Dev nD) (k : Fin 16) : sProp 𝕄 :=
  iprop(dutyTok ER (syCell c k) 0 false ∗ dutyTok ER (ryCell (yn c) k) 0 false
    ∗ atPos ER (sxCell c k) 0 ∅ 0 ∗ atPos ER (rxCell c k) 0 ∅ 0 ∗ atPos ER (syCell c k) 0 ∅ 0 ∗ atPos ER (ryCell c k) 0 ∅ 0
    ∗ cred (tallyAt (rxCell c k) () N) ∗ cred (tallyAt (ryCell c k) () N) ∗ cred (tallyAt (sxCell c k) () N)
    ∗ oAny (yn c) (k0_off4 c (chw k)) (k0_off4_inb c k))
/-- After the chunk from across has arrived and been passed on. -/
def S2 (c : Dev nD) (k : Fin 16) : sProp 𝕄 :=
  iprop(atPos ER (sxCell c k) 0 ∅ 0 ∗ atPos ER (rxCell c k) 1 ∅ 0 ∗ atPos ER (syCell c k) 0 ∅ 0 ∗ atPos ER (ryCell c k) 0 ∅ 0
    ∗ cred (tallyAt (ryCell c k) () N) ∗ cred (tallyAt (sxCell c k) () N) ∗ cred (tallyAt (syCell c k) () N))
/-- After the row mate's chunk has arrived. -/
def S3 (c : Dev nD) (k : Fin 16) : sProp 𝕄 :=
  iprop(atPos ER (sxCell c k) 0 ∅ 0 ∗ atPos ER (rxCell c k) 1 ∅ 0 ∗ atPos ER (syCell c k) 0 ∅ 0 ∗ atPos ER (ryCell c k) 1 ∅ 0
    ∗ cred (tallyAt (sxCell c k) () N) ∗ cred (tallyAt (syCell c k) () N) ∗ ryPay m ρ c k)
/-- After both sends are known read out. -/
def S4 (c : Dev nD) (k : Fin 16) : sProp 𝕄 :=
  iprop(atPos ER (sxCell c k) 1 ∅ 0 ∗ atPos ER (rxCell c k) 1 ∅ 0 ∗ atPos ER (syCell c k) 1 ∅ 0 ∗ atPos ER (ryCell c k) 1 ∅ 0
    ∗ ryPay m ρ c k ∗ syPay m ρ c k ∗ sxPay m ρ c k)
/-- With the chunk's four semaphores closed at zero. -/
def S5 (c : Dev nD) (k : Fin 16) : sProp 𝕄 :=
  iprop((semVal (sxCell c k) 0 ∗ semVal (rxCell c k) 0 ∗ semVal (syCell c k) 0 ∗ semVal (ryCell c k) 0)
    ∗ ryPay m ρ c k ∗ syPay m ρ c k ∗ sxPay m ρ c k)

/-! ## The steps -/

/-- The chunk goes across rows. -/
theorem tA (c n : Dev nD) (hn : n = xn c) (k : Fin 16)
    {hsc : (oSlA c k : Memref sig (Dev.tc n : Thread nD τ).2.kind .vmem S32x512 .f32).view.ref.isScScratch = false}
    {hsrc : (xSl c k).view.WordExact} {hdst : (oSlA c k).view.WordExact}
    {hsem : DmaTarget.Typed .vmem (.dma (rxS k)) (.remote (Dev.tc n : Thread nD τ) (oSlA c k) (.dma (sxS k)) hsc)}
    {α : Type} {Q : α → sProp 𝕄} {kont : PUnit → Prog (TpuEff nD τ sig (Elt F) Λ₀ .tc) α} (W : Waits sig Unit) :
    iprop(cfacts m ρ c k ∗ S0 m ρ c k ∗ owes (c : Thread nD τ) (OA c k.val + OB c 0) W)
      ⊢ iprop(((S1 c k ∗ owes (c : Thread nD τ) (OA c (k.val + 1) + OB c 0) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc n : Thread nD τ) (oSlA c k) (.dma (sxS k)) hsc) (.dma (rxS k)) hsrc hdst hsem) kont) Q) := by
  unfold cfacts S0 K0 inv
  iintro ⟨⟨⟨%κ1, #HIsx⟩, -, -, -, ⟨%κ2, #HIrxn⟩, -, #Hrsx, -, #Hrrxn, -⟩, ⟨⟨Htsx, Htrxn, Htsy, Htryn, Hasx, Harx, Hasy, Hary, Hcrx, Hcry⟩, Hx, HdA, HdB⟩, HO⟩ Hk
  unfold oAny sxPay
  icases HdA with ⟨%fd, HdA⟩
  iapply (stepA m ρ c n hn k κ1 κ2 fd (OA c (k.val + 1) + OB c 0) W) $$ [Hx HdA HO Htsx Htrxn]
  · isplitr; · iexact HIsx
    isplitr; · iexact HIrxn
    isplitl [Hx]; · iexact Hx
    isplitl [HdA]; · iexact HdA
    isplitl [HO]
    · rw [show OA c (k.val + 1) + OB c 0 + tallyAt (rxCell (xn c) k) () N = OA c k.val + OB c 0 from by rw [OA_step c k]; exact add_right_comm _ _ _]
      iexact HO
    isplitl [Htsx]; · iexact Htsx
    isplitr; · iexact Hrsx
    isplitl [Htrxn]; · iexact Htrxn
    iexact Hrrxn
  iintro ⟨Hcsx, HO⟩
  iapply Hk
  unfold S1 oAny
  isplitr [HO]
  · isplitl [Htsy]; · iexact Htsy
    isplitl [Htryn]; · iexact Htryn
    isplitl [Hasx]; · iexact Hasx
    isplitl [Harx]; · iexact Harx
    isplitl [Hasy]; · iexact Hasy
    isplitl [Hary]; · iexact Hary
    isplitl [Hcrx]; · iexact Hcrx
    isplitl [Hcry]; · iexact Hcry
    isplitl [Hcsx]; · iexact Hcsx
    iexact HdB
  · iexact HO

/-- The chunk from across arrives and is passed on along the row. -/
theorem tRB (c n : Dev nD) (hn : n = yn c) (k : Fin 16)
    {hs1 : (xSl c k).view.WordExact} {hd1 : (oSlA c k).view.WordExact}
    {hsc : (oSlB c k : Memref sig (Dev.tc n : Thread nD τ).2.kind .vmem S32x512 .f32).view.ref.isScScratch = false}
    {hsrc : (oSlB c k).view.WordExact} {hdst : (oSlB c k).view.WordExact}
    {hsem : DmaTarget.Typed .vmem (.dma (ryS k)) (.remote (Dev.tc n : Thread nD τ) (oSlB c k) (.dma (syS k)) hsc)}
    {α : Type} {Q : α → sProp 𝕄} {kont : PUnit → Prog (TpuEff nD τ sig (Elt F) Λ₀ .tc) α} (W : Waits sig Unit) :
    iprop(levAts L lv ∗ cfacts m ρ c k ∗ S1 c k ∗ owes (c : Thread nD τ) (OB c k.val) W)
      ⊢ iprop(((S2 c k ∗ owesE c (OB c (k.val + 1))) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (rxS k) (xSl c k) (oSlA c k) hs1 hd1) fun _ =>
               .op (.enqueueDma (oSlB c k) (.remote (Dev.tc n : Thread nD τ) (oSlB c k) (.dma (syS k)) hsc) (.dma (ryS k)) hsrc hdst hsem) kont) Q) := by
  subst hn
  unfold cfacts S1 inv
  iintro ⟨#Hlev, ⟨-, ⟨%κ1, #HIrx⟩, ⟨%κ2, #HIsy⟩, -, -, ⟨%κ3, #HIryn⟩, -, #Hrsy, -, #Hrryn⟩, ⟨Htsy, Htryn, Hasx, Harx, Hasy, Hary, Hcrx, Hcry, Hcsx, HdB⟩, HO⟩ Hk
  -- the wait for the chunk from across: its slice comes with it, holding the rows of the final buffer
  iapply (Rounds.wp_wait_rest_token 𝒱₀ ER (agRd m ρ) (c : Thread nD τ) none (κ := κ1)
      (wpE_waitDma2_eq 𝒱₀ (c : Thread nD τ) none Set.univ) (Set.mem_univ _) () (O := OB c k.val) (W := W) (R := 0) (m := 0) (T := ∅)
      (by rw [Nat.zero_add, expect_rx])) $$ [Hcrx HO Harx]
  · isplitr; · iexact HIrx
    isplitl [Hcrx]; · iexact Hcrx
    isplitl [HO]; · iexact HO
    isplitr; · iapply (mayWait_rx c k k.val); iexact Hlev
    iexact Harx
  iintro ⟨HO, Harx, -, Hpay⟩
  ihave Hsl := (Entails.of_eq (rest_rx m ρ c k)) $$ Hpay
  unfold rxPay oAt oAny
  icases HdB with ⟨%fd, HdB⟩
  -- passing it on
  iapply (Rounds.wp_send_pointsTo 𝒱₀ ER (agRd m ρ) (c : Thread nD τ) none (κ₁ := κ2) (κ₂ := κ3)
      (r₁ := 0) (r₂ := 0) (d₁ := false) (d₂ := false) (fd := fd)
      (by rw [duties_sy]; exact Finset.mem_singleton_self _) (by rw [duties_ry]; exact Finset.mem_singleton_self _)
      () () N rfl (amount_sy m ρ c k false) (amount_ry m ρ (yn c) k false) (OB c (k.val + 1)) (OB_step c k)
      (W := insert (SemLoc.dma (rxS k), ()) W)
      (by rw [payload_sy]; exact BI.Entails.refl _)
      (by rw [payload_ry]; exact landB m ρ c k fd)) $$ [Hsl HdB HO Htsy Htryn]
  · isplitr; · iexact HIsy
    isplitr; · iexact HIryn
    isplitl [Hsl]; · iexact Hsl
    isplitl [HdB]; · iexact HdB
    isplitl [HO]; · iexact HO
    isplitl [Htsy]; · iexact Htsy
    isplitr; · iexact Hrsy
    isplitl [Htryn]; · iexact Htryn
    iexact Hrryn
  iintro ⟨Hcsy, HO⟩
  iapply Hk
  unfold S2 owesE
  isplitr [HO]
  · isplitl [Hasx]; · iexact Hasx
    isplitl [Harx]; · iexact Harx
    isplitl [Hasy]; · iexact Hasy
    isplitl [Hary]; · iexact Hary
    isplitl [Hcry]; · iexact Hcry
    isplitl [Hcsx]; · iexact Hcsx
    iexact Hcsy
  · iexists _; iexact HO

/-- The row mate's chunk arrives. -/
theorem tRy (c : Dev nD) (k : Fin 16)
    {hs1 : (oSlB c k).view.WordExact} {hd1 : (oSlB c k).view.WordExact}
    {α : Type} {Q : α → sProp 𝕄} {kont : PUnit → Prog (TpuEff nD τ sig (Elt F) Λ₀ .tc) α} (W : Waits sig Unit) :
    iprop(cfacts m ρ c k ∗ S2 c k ∗ owes (c : Thread nD τ) 0 W)
      ⊢ iprop(((S3 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ryS k) (oSlB c k) (oSlB c k) hs1 hd1) kont) Q) := by
  unfold cfacts S2 inv
  iintro ⟨⟨-, -, -, ⟨%κ1, #HIry⟩, -, -, -, -, -, -⟩, ⟨Hasx, Harx, Hasy, Hary, Hcry, Hcsx, Hcsy⟩, HO⟩ Hk
  iapply (Rounds.wp_wait_rest_token 𝒱₀ ER (agRd m ρ) (c : Thread nD τ) none (κ := κ1)
      (wpE_waitDma2_eq 𝒱₀ (c : Thread nD τ) none Set.univ) (Set.mem_univ _) () (O := 0) (W := W) (R := 0) (m := 0) (T := ∅)
      (by rw [Nat.zero_add, expect_ry])) $$ [Hcry HO Hary]
  · isplitr; · iexact HIry
    isplitl [Hcry]; · iexact Hcry
    isplitl [HO]; · iexact HO
    isplitr; · rw [MayWait_zero]; iempintro
    iexact Hary
  iintro ⟨HO, Hary, -, Hpay⟩
  ihave Hsl := (Entails.of_eq (rest_ry m ρ c k)) $$ Hpay
  iapply Hk
  unfold S3 owesE
  isplitr [HO]
  · isplitl [Hasx]; · iexact Hasx
    isplitl [Harx]; · iexact Harx
    isplitl [Hasy]; · iexact Hasy
    isplitl [Hary]; · iexact Hary
    isplitl [Hcsx]; · iexact Hcsx
    isplitl [Hcsy]; · iexact Hcsy
    iexact Hsl
  · iexists _; iexact HO

/-- Both of the chunk's sends have been read out. -/
theorem tS (c : Dev nD) (k : Fin 16)
    {hs1 : (oSlA c k).view.WordExact} {hd1 : (xSl c k).view.WordExact}
    {hs2 : (oSlB c k).view.WordExact} {hd2 : (oSlB c k).view.WordExact}
    {α : Type} {Q : α → sProp 𝕄} {kont : PUnit → Prog (TpuEff nD τ sig (Elt F) Λ₀ .tc) α} (W : Waits sig Unit) :
    iprop(cfacts m ρ c k ∗ S3 m ρ c k ∗ owes (c : Thread nD τ) 0 W)
      ⊢ iprop(((S4 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sxS k) (oSlA c k) (xSl c k) hs1 hd1) fun _ =>
               .op (.waitDma2 (syS k) (oSlB c k) (oSlB c k) hs2 hd2) kont) Q) := by
  unfold cfacts S3 inv
  iintro ⟨⟨⟨%κ1, #HIsx⟩, -, ⟨%κ2, #HIsy⟩, -, -, -, -, -, -, -⟩, ⟨Hasx, Harx, Hasy, Hary, Hcsx, Hcsy, Hry⟩, HO⟩ Hk
  iapply (Rounds.wp_wait_rest_token 𝒱₀ ER (agRd m ρ) (c : Thread nD τ) none (κ := κ1)
      (wpE_waitDma2_eq 𝒱₀ (c : Thread nD τ) none Set.univ) (Set.mem_univ _) () (O := 0) (W := W) (R := 0) (m := 0) (T := ∅)
      (by rw [Nat.zero_add, expect_sx])) $$ [Hcsx HO Hasx]
  · isplitr; · iexact HIsx
    isplitl [Hcsx]; · iexact Hcsx
    isplitl [HO]; · iexact HO
    isplitr; · rw [MayWait_zero]; iempintro
    iexact Hasx
  iintro ⟨HO, Hasx, -, Hpay⟩
  ihave Hx := (Entails.of_eq (rest_sx m ρ c k)) $$ Hpay
  iapply (Rounds.wp_wait_rest_token 𝒱₀ ER (agRd m ρ) (c : Thread nD τ) none (κ := κ2)
      (wpE_waitDma2_eq 𝒱₀ (c : Thread nD τ) none Set.univ) (Set.mem_univ _) () (O := 0) (W := insert (SemLoc.dma (sxS k), ()) W) (R := 0) (m := 0) (T := ∅)
      (by rw [Nat.zero_add, expect_sy])) $$ [Hcsy HO Hasy]
  · isplitr; · iexact HIsy
    isplitl [Hcsy]; · iexact Hcsy
    isplitl [HO]; · iexact HO
    isplitr; · rw [MayWait_zero]; iempintro
    iexact Hasy
  iintro ⟨HO, Hasy, -, Hpay⟩
  ihave Hsl := (Entails.of_eq (rest_sy m ρ c k)) $$ Hpay
  iapply Hk
  unfold S4 owesE
  isplitr [HO]
  · isplitl [Hasx]; · iexact Hasx
    isplitl [Harx]; · iexact Harx
    isplitl [Hasy]; · iexact Hasy
    isplitl [Hary]; · iexact Hary
    isplitl [Hry]; · iexact Hry
    isplitl [Hsl]; · iexact Hsl
    iexact Hx
  · iexists _; iexact HO

/-- The chunk's four semaphores, each past its one round with nothing left, close at zero. -/
theorem tClose (c : Dev nD) (k : Fin 16) :
    iprop(cfacts m ρ c k ∗ S4 m ρ c k) ⊢ |={Set.univ}=> S5 m ρ c k := by
  unfold cfacts S4 S5 inv
  iintro ⟨⟨⟨%κ1, #HIsx⟩, ⟨%κ2, #HIrx⟩, ⟨%κ3, #HIsy⟩, ⟨%κ4, #HIry⟩, -, -, -, -, -, -⟩, Hasx, Harx, Hasy, Hary, Hry, Hsy, Hx⟩
  imod (Rounds.cell_close ER (agRd m ρ) (Set.mem_univ κ1) (fun h => h) (R := 0 + 1) (duties_later m ρ (sxCell c k))) $$ [Hasx] with Hz1
  · isplitr; · iexact HIsx
    iexact Hasx
  imod (Rounds.cell_close ER (agRd m ρ) (Set.mem_univ κ2) (fun h => h) (R := 0 + 1) (duties_later m ρ (rxCell c k))) $$ [Harx] with Hz2
  · isplitr; · iexact HIrx
    iexact Harx
  imod (Rounds.cell_close ER (agRd m ρ) (Set.mem_univ κ3) (fun h => h) (R := 0 + 1) (duties_later m ρ (syCell c k))) $$ [Hasy] with Hz3
  · isplitr; · iexact HIsy
    iexact Hasy
  imod (Rounds.cell_close ER (agRd m ρ) (Set.mem_univ κ4) (fun h => h) (R := 0 + 1) (duties_later m ρ (ryCell c k))) $$ [Hary] with Hz4
  · isplitr; · iexact HIry
    iexact Hary
  imodintro
  isplitl [Hz1 Hz2 Hz3 Hz4]
  · isplitl [Hz1]; · iexact Hz1
    isplitl [Hz2]; · iexact Hz2
    isplitl [Hz3]; · iexact Hz3
    iexact Hz4
  isplitl [Hry]; · iexact Hry
  isplitl [Hsy]; · iexact Hsy
  iexact Hx

end Cert.KernelIdeal.AG

end
-- ==== Proof.Data.lean ====
/-
  The proof data of the all-gather's one pallas_call, per device.

  At launch device `c` owes: the receive credit of its 16 direct copies (on the device across rows) and of its 16
  passed-on copies (on its row mate), and one unit to each neighbour's barrier semaphore. It holds the invariants of
  every semaphore it touches, its places on its own, the tokens of the duties it pays, two units of credit on its own
  barrier semaphore and one chunk's credit on each of its receive sides. It ends with its 65 own semaphores closed at
  zero, its staged block as it was, and its result buffer holding `Fo c`.
-/
import proofs.«900077_g7700000000000078_dist_ag_v7x_xy2x2_x_m1024_n512_f32_1_alg».proof.Proof.Chunk

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` owes at launch, summed so that its first signal (to the device across rows) peels the last
    summand and its second (to its row mate) the one before. -/
def O₀ (c : Dev nD) : CellTallies nD τ sig Unit :=
  OA c 0 + OB c 0 + tallyAt (barCell (yn c)) () 1 + tallyAt (barCell (xn c)) () 1

/-- The lasting facts device `c`'s body opens: the invariants of its own barrier and copy semaphores and of both
    neighbours' barriers, that the three it pays are at round 0, and every chunk's. -/
def gfacts (c : Dev nD) : sProp 𝕄 :=
  iprop(inv m ρ (barCell c) ∗ inv m ρ (barCell (xn c)) ∗ inv m ρ (barCell (yn c)) ∗ inv m ρ (cpCell c)
    ∗ reached ER (barCell (xn c)) 0 ∗ reached ER (barCell (yn c)) 0 ∗ reached ER (cpCell c) 0
    ∗ bigSep Finset.univ (cfacts m ρ c))
instance gfacts_persistent (c : Dev nD) : BI.Persistent (gfacts m ρ c) := by unfold gfacts; infer_instance

/-- What it holds once: its places on its barrier and copy semaphores, the tokens of the two barrier duties and the
    copy duty it pays, its barrier's two units of credit, and every chunk's share. -/
def glin (c : Dev nD) : sProp 𝕄 :=
  iprop(atPos ER (barCell c) 0 ∅ 0 ∗ atPos ER (cpCell c) 0 ∅ 0
    ∗ dutyTok ER (barCell (xn c)) 0 false ∗ dutyTok ER (barCell (yn c)) 0 true ∗ dutyTok ER (cpCell c) 0 false
    ∗ cred (tallyAt (barCell c) () 2)
    ∗ bigSep Finset.univ (K0 c))

/-- What device `c`'s body starts from. -/
def start (c : Dev nD) : sProp 𝕄 := iprop(gfacts m ρ c ∗ glin c ∗ levAts L lv)

/-- What it leaves: its 65 own semaphores at zero, closed. -/
def Φ₁ (c : Dev nD) : sProp 𝕄 :=
  iprop(semVal (cpCell c) 0
    ∗ bigSep Finset.univ fun k : Fin 16 => iprop(semVal (sxCell c k) 0 ∗ semVal (rxCell c k) 0 ∗ semVal (syCell c k) 0 ∗ semVal (ryCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => Fo m ρ c
  Φ t := match t with
    | ⟨0, _⟩ => start m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- The sixteen chunks one by one. -/
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

end Cert.KernelIdeal.AG

end
-- ==== Proof.Phase.lean ====
/-
  Sixteen chunks through one stage. While the device works through a stage of the protocol, the chunks below a counter
  are past it and the others are not; a step on chunk `k`, proved for that chunk alone, moves the counter from `k` to
  `k + 1` with everything else the device holds left as it is.
-/
import proofs.«900077_g7700000000000078_dist_ag_v7x_xy2x2_x_m1024_n512_f32_1_alg».proof.Proof.Data

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A family in two stages -/

/-- The chunks below `a` at `Q`, the others at `P`. -/
def Fam2 (P Q : Fin 16 → sProp 𝕄) (a : ℕ) : sProp 𝕄 :=
  bigSep Finset.univ fun j : Fin 16 => if j.val < a then Q j else P j
/-- The same without chunk `k`, the counter at `k`. -/
def FamRest (P Q : Fin 16 → sProp 𝕄) (k : Fin 16) : sProp 𝕄 :=
  bigSep (Finset.univ.erase k) fun j : Fin 16 => if j.val < k.val then Q j else P j

omit [FloatOps F] in
theorem fam_zero (P Q : Fin 16 → sProp 𝕄) : Fam2 P Q 0 = bigSep Finset.univ P := by
  unfold Fam2; exact bigSep_congr fun j _ => if_neg (Nat.not_lt_zero _)
omit [FloatOps F] in
theorem fam_full (P Q : Fin 16 → sProp 𝕄) : Fam2 P Q 16 = bigSep Finset.univ Q := by
  unfold Fam2; exact bigSep_congr fun j _ => if_pos j.isLt
omit [FloatOps F] in
theorem fam_take (P Q : Fin 16 → sProp 𝕄) (k : Fin 16) : Fam2 P Q k.val = iprop(P k ∗ FamRest P Q k) := by
  unfold Fam2 FamRest
  rw [bigSep_erase (Finset.mem_univ k), if_neg (Nat.lt_irrefl _)]
  rfl
omit [FloatOps F] in
theorem fam_put (P Q : Fin 16 → sProp 𝕄) (k : Fin 16) : Fam2 P Q (k.val + 1) = iprop(Q k ∗ FamRest P Q k) := by
  unfold Fam2 FamRest
  rw [bigSep_erase (Finset.mem_univ k), if_pos (Nat.lt_succ_self _)]
  show BI.sep (Q k) _ = BI.sep (Q k) _
  congr 1
  refine bigSep_congr fun j hj => ?_
  have hne : j.val ≠ k.val := fun h => (Finset.mem_erase.mp hj).1 (Fin.ext h)
  by_cases h : j.val < k.val
  · rw [if_pos h, if_pos (by omega)]
  · rw [if_neg h, if_neg (by omega)]

omit [FloatOps F] in
/-- One chunk's step, with the rest of the family, what else the device holds (`R`) and the chunks' lasting facts
    carried along. -/
theorem phase_step (P Q Cf : Fin 16 → sProp 𝕄) [∀ k, BI.Persistent (Cf k)] (k : Fin 16) (X X' R Wk W : sProp 𝕄)
    (hstep : iprop(Cf k ∗ P k ∗ X) ⊢ iprop(((Q k ∗ X') -∗ Wk) -∗ W))
    (hrest : iprop(bigSep Finset.univ Cf ∗ Fam2 P Q (k.val + 1) ∗ X' ∗ R) ⊢ Wk) :
    iprop(bigSep Finset.univ Cf ∗ Fam2 P Q k.val ∗ X ∗ R) ⊢ W := by
  have hCk : (bigSep Finset.univ Cf : sProp 𝕄) ⊢ Cf k := bigSep_elim (Finset.mem_univ k)
  iintro ⟨#HC, HF, HX, HR⟩
  ihave HF' := (Entails.of_eq (fam_take P Q k)) $$ HF
  icases HF' with ⟨HP, HFr⟩
  iapply hstep $$ [HP HX]
  · isplitr; · iapply hCk; iexact HC
    isplitl [HP]; · iexact HP
    iexact HX
  iintro ⟨HQ, HX'⟩
  iapply hrest
  isplitr; · iexact HC
  isplitl [HQ HFr]
  · iapply (Entails.of_eq (fam_put P Q k).symm)
    isplitl [HQ]; · iexact HQ
    iexact HFr
  isplitl [HX']; · iexact HX'
  iexact HR

/-! ## The four steps, each over what the device owes with its recorded waits left open -/

/-- A chunk's lasting facts with the levels. -/
def cf (c : Dev nD) (k : Fin 16) : sProp 𝕄 := iprop(levAts L lv ∗ cfacts m ρ c k)
instance cf_persistent (c : Dev nD) (k : Fin 16) : BI.Persistent (cf m ρ c k) := by unfold cf; infer_instance

theorem tA' (c n : Dev nD) (hn : n = xn c) (k : Fin 16)
    {hsc : (oSlA c k : Memref sig (Dev.tc n : Thread nD τ).2.kind .vmem S32x512 .f32).view.ref.isScScratch = false}
    {hsrc : (xSl c k).view.WordExact} {hdst : (oSlA c k).view.WordExact}
    {hsem : DmaTarget.Typed .vmem (.dma (rxS k)) (.remote (Dev.tc n : Thread nD τ) (oSlA c k) (.dma (sxS k)) hsc)}
    {α : Type} {Q : α → sProp 𝕄} {kont : PUnit → Prog (TpuEff nD τ sig (Elt F) Λ₀ .tc) α} :
    iprop(cf m ρ c k ∗ S0 m ρ c k ∗ owesE c (OA c k.val + OB c 0))
      ⊢ iprop(((S1 c k ∗ owesE c (OA c (k.val + 1) + OB c 0)) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc n : Thread nD τ) (oSlA c k) (.dma (sxS k)) hsc) (.dma (rxS k)) hsrc hdst hsem) kont) Q) := by
  unfold cf owesE
  iintro ⟨⟨-, #HC⟩, HS, ⟨%W, HO⟩⟩ Hk
  iapply (tA m ρ c n hn k W) $$ [HS HO]
  · isplitr; · iexact HC
    isplitl [HS]; · iexact HS
    iexact HO
  iintro ⟨HS, HO⟩
  iapply Hk
  isplitl [HS]; · iexact HS
  iexists W; iexact HO

theorem tRB' (c n : Dev nD) (hn : n = yn c) (k : Fin 16)
    {hs1 : (xSl c k).view.WordExact} {hd1 : (oSlA c k).view.WordExact}
    {hsc : (oSlB c k : Memref sig (Dev.tc n : Thread nD τ).2.kind .vmem S32x512 .f32).view.ref.isScScratch = false}
    {hsrc : (oSlB c k).view.WordExact} {hdst : (oSlB c k).view.WordExact}
    {hsem : DmaTarget.Typed .vmem (.dma (ryS k)) (.remote (Dev.tc n : Thread nD τ) (oSlB c k) (.dma (syS k)) hsc)}
    {α : Type} {Q : α → sProp 𝕄} {kont : PUnit → Prog (TpuEff nD τ sig (Elt F) Λ₀ .tc) α} :
    iprop(cf m ρ c k ∗ S1 c k ∗ owesE c (OB c k.val))
      ⊢ iprop(((S2 c k ∗ owesE c (OB c (k.val + 1))) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (rxS k) (xSl c k) (oSlA c k) hs1 hd1) fun _ =>
               .op (.enqueueDma (oSlB c k) (.remote (Dev.tc n : Thread nD τ) (oSlB c k) (.dma (syS k)) hsc) (.dma (ryS k)) hsrc hdst hsem) kont) Q) := by
  unfold cf owesE
  iintro ⟨⟨#Hlev, #HC⟩, HS, ⟨%W, HO⟩⟩ Hk
  iapply (tRB m ρ c n hn k W) $$ [HS HO]
  · isplitr; · iexact Hlev
    isplitr; · iexact HC
    isplitl [HS]; · iexact HS
    iexact HO
  unfold owesE
  iexact Hk

theorem tRy' (c : Dev nD) (k : Fin 16)
    {hs1 : (oSlB c k).view.WordExact} {hd1 : (oSlB c k).view.WordExact}
    {α : Type} {Q : α → sProp 𝕄} {kont : PUnit → Prog (TpuEff nD τ sig (Elt F) Λ₀ .tc) α} :
    iprop(cf m ρ c k ∗ S2 c k ∗ owesE c 0)
      ⊢ iprop(((S3 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ryS k) (oSlB c k) (oSlB c k) hs1 hd1) kont) Q) := by
  unfold cf
  iintro ⟨⟨-, #HC⟩, HS, HOE⟩ Hk
  unfold owesE
  icases HOE with ⟨%W, HO⟩
  iapply (tRy m ρ c k W) $$ [HS HO]
  · isplitr; · iexact HC
    isplitl [HS]; · iexact HS
    iexact HO
  unfold owesE
  iexact Hk

theorem tS' (c : Dev nD) (k : Fin 16)
    {hs1 : (oSlA c k).view.WordExact} {hd1 : (xSl c k).view.WordExact}
    {hs2 : (oSlB c k).view.WordExact} {hd2 : (oSlB c k).view.WordExact}
    {α : Type} {Q : α → sProp 𝕄} {kont : PUnit → Prog (TpuEff nD τ sig (Elt F) Λ₀ .tc) α} :
    iprop(cf m ρ c k ∗ S3 m ρ c k ∗ owesE c 0)
      ⊢ iprop(((S4 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sxS k) (oSlA c k) (xSl c k) hs1 hd1) fun _ =>
               .op (.waitDma2 (syS k) (oSlB c k) (oSlB c k) hs2 hd2) kont) Q) := by
  unfold cf
  iintro ⟨⟨-, #HC⟩, HS, HOE⟩ Hk
  unfold owesE
  icases HOE with ⟨%W, HO⟩
  iapply (tS m ρ c k W) $$ [HS HO]
  · isplitr; · iexact HC
    isplitl [HS]; · iexact HS
    iexact HO
  unfold owesE
  iexact Hk

end Cert.KernelIdeal.AG

end
-- ==== Proof.Body.lean ====
/-
  One device's body of the all-gather, from what the launch deals it to its 65 semaphores closed and its result buffer
  holding the whole array: the barrier handshake with both neighbours, the 16 chunks sent across rows, the local copy, each
  chunk from across passed on as it arrives, the row mate's chunks received, and every send waited for.
-/
import proofs.«900077_g7700000000000078_dist_ag_v7x_xy2x2_x_m1024_n512_f32_1_alg».proof.Proof.Phase
import proofs.«900077_g7700000000000078_dist_ag_v7x_xy2x2_x_m1024_n512_f32_1_alg».proof.Proof.Gen.KernelIdeal.Skeleton

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (Fo m ρ c))

/-! ## What else the device holds, stage by stage -/

def persCp (c : Dev nD) : sProp 𝕄 := iprop(inv m ρ (cpCell c) ∗ reached ER (cpCell c) 0)
instance persCp_persistent (c : Dev nD) : BI.Persistent (persCp m ρ c) := by unfold persCp inv; infer_instance

/-- While the chunks go across: the local copy's token and place, its source share and its destination, the rest
    of the staged block, and what is owed at the end. -/
def RA (c : Dev nD) (Kt : PUnit → sProp 𝕄) : sProp 𝕄 :=
  iprop(persCp m ρ c ∗ atPos ER (cpCell c) 0 ∅ 0 ∗ dutyTok ER (cpCell c) 0 false
    ∗ (xM.view.loc (c : Thread nD τ) ↦[xM.view.set]{qL} xstg m ρ c)
    ∗ (∃ g : Buf (Elt F) ((oSlL c).view.loc (c : Thread nD τ)), (oSlL c).view.loc (c : Thread nD τ) ↦[(oSlL c).view.set]{fullShare} g)
    ∗ xRest c (xstg m ρ c)
    ∗ (bodyPost m ρ c -∗ Kt ⟨⟩))
/-- While the local copy is in flight. -/
def RB (c : Dev nD) (Kt : PUnit → sProp 𝕄) : sProp 𝕄 :=
  iprop(persCp m ρ c ∗ atPos ER (cpCell c) 0 ∅ 0 ∗ cred (tallyAt (cpCell c) () NL) ∗ xRest c (xstg m ρ c) ∗ (bodyPost m ρ c -∗ Kt ⟨⟩))
/-- After it has landed and its semaphore is closed. -/
def RS (c : Dev nD) (Kt : PUnit → sProp 𝕄) : sProp 𝕄 :=
  iprop(semVal (cpCell c) 0 ∗ cpPay m ρ c ∗ xRest c (xstg m ρ c) ∗ (bodyPost m ρ c -∗ Kt ⟨⟩))

/-! ## Families -/

omit [FloatOps F] in
theorem cf_one (c : Dev nD) (k : Fin 16) : iprop(levAts L lv ∗ cfacts m ρ c k) ⊢ (cf m ρ c k : sProp 𝕄) := by
  unfold cf; exact Entails.refl _
omit [FloatOps F] in
theorem cf_all (c : Dev nD) : iprop(levAts L lv ∗ bigSep Finset.univ (cfacts m ρ c)) ⊢ (bigSep Finset.univ (cf m ρ c) : sProp 𝕄) := by
  have h1 : (levAts L lv : sProp 𝕄) ⊢ bigSep (Finset.univ : Finset (Fin 16)) (fun _ => (levAts L lv : sProp 𝕄)) :=
    BI.bigSep_of_persistent _ _
  have h2 : iprop(bigSep (Finset.univ : Finset (Fin 16)) (fun _ => (levAts L lv : sProp 𝕄)) ∗ bigSep Finset.univ (cfacts m ρ c))
      ⊢ (bigSep Finset.univ (cf m ρ c) : sProp 𝕄) := by
    rw [← bigSep_sep']; exact bigSep_mono fun k _ => cf_one m ρ c k
  iintro ⟨#Hl, Hc⟩
  iapply h2
  isplitr; · iapply h1; iexact Hl
  iexact Hc

omit [FloatOps F] in
theorem S0_all (c : Dev nD) : (bigSep Finset.univ (S0 m ρ c) : sProp 𝕄)
    = iprop(bigSep Finset.univ (K0 c) ∗ bigSep Finset.univ (sxPay m ρ c) ∗ barPayX c ∗ barPayY c) := by
  show bigSep Finset.univ (fun k : Fin 16 => iprop(K0 c k ∗ sxPay m ρ c k ∗ oAny (xn c) (k0_off1 c (chw k)) (k0_off1_inb c k) ∗ oAny (yn c) (k0_off4 c (chw k)) (k0_off4_inb c k))) = _
  exact (bigSep_sep' _ _ _).trans (congrArg (BI.sep _) ((bigSep_sep' _ _ _).trans (congrArg (BI.sep _) (bigSep_sep' _ _ _))))

omit [FloatOps F] in
theorem S5_all (c : Dev nD) : (bigSep Finset.univ (S5 m ρ c) : sProp 𝕄)
    = iprop((bigSep Finset.univ fun k : Fin 16 => iprop(semVal (sxCell c k) 0 ∗ semVal (rxCell c k) 0 ∗ semVal (syCell c k) 0 ∗ semVal (ryCell c k) 0))
        ∗ bigSep Finset.univ (ryPay m ρ c) ∗ bigSep Finset.univ (syPay m ρ c) ∗ bigSep Finset.univ (sxPay m ρ c)) := by
  show bigSep Finset.univ (fun k : Fin 16 => iprop((semVal (sxCell c k) 0 ∗ semVal (rxCell c k) 0 ∗ semVal (syCell c k) 0 ∗ semVal (ryCell c k) 0)
    ∗ ryPay m ρ c k ∗ syPay m ρ c k ∗ sxPay m ρ c k)) = _
  exact (bigSep_sep' _ _ _).trans (congrArg (BI.sep _) ((bigSep_sep' _ _ _).trans (congrArg (BI.sep _) (bigSep_sep' _ _ _))))

theorem closeOne (c : Dev nD) (k : Fin 16) : iprop(cf m ρ c k ∗ S4 m ρ c k) ⊢ |={Set.univ}=> (S5 m ρ c k : sProp 𝕄) := by
  unfold cf
  iintro ⟨⟨-, #HC⟩, HS⟩
  iapply (tClose m ρ c k)
  isplitr; · iexact HC
  iexact HS
theorem closeAll (c : Dev nD) : iprop(bigSep Finset.univ (cf m ρ c) ∗ bigSep Finset.univ (S4 m ρ c)) ⊢ |={Set.univ}=> (bigSep Finset.univ (S5 m ρ c) : sProp 𝕄) := by
  rw [← bigSep_sep']
  exact (bigSep_mono fun k _ => closeOne m ρ c k).trans (bigSep_fupd _ _)

/-! ## The handshake -/

set_option maxHeartbeats 1000000 in
/-- Both barrier signals, each handing over the slices of this device's result buffer the neighbour fills, and the
    wait for both neighbours' signals, which brings the slices this device fills on them. -/
theorem prologue (c : Dev nD) (Kt : PUnit → sProp 𝕄) {kont : PUnit → Prog (TpuEff nD τ sig (Elt F) Λ₀ .tc) PUnit}
    (h : iprop(bigSep Finset.univ (cf m ρ c) ∗ Fam2 (S0 m ρ c) (S1 c) 0 ∗ owesE c (OA c 0 + OB c 0) ∗ RA m ρ c Kt)
      ⊢ wp frame (wpE (defs₀ (F := F)) 𝒱₀ (c : Thread nD τ) none) Set.univ (kont ⟨⟩) Kt) :
    iprop(bodyPre m ρ c ∗ (bodyPost m ρ c -∗ Kt ⟨⟩))
      ⊢ wp frame (wpE (defs₀ (F := F)) 𝒱₀ (c : Thread nD τ) none) Set.univ
          (.op (.semSignal ((xn c : Dev nD) : Thread nD τ) barS (1#32).toNat) fun _ =>
           .op (.semSignal ((yn c : Dev nD) : Thread nD τ) barS (1#32).toNat) fun _ =>
           .op (.semWait barS (2#32).toNat) kont) Kt := by
  unfold bodyPre start gfacts glin inv
  iintro ⟨⟨⟨⟨⟨%κb, #HIb⟩, ⟨%κbx, #HIbx⟩, ⟨%κby, #HIby⟩, ⟨%κcp, #HIcp⟩, #Hrbx, #Hrby, #Hrcp, #Hcf⟩, ⟨Hab, Hacp, Htbx, Htby, Htcp, Hcb, HK0⟩, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  -- the two buffers cut into the pieces the copies hold
  ihave Hxc := (x_cut c (xstg m ρ c)).1 $$ Hx
  icases Hxc with ⟨HxL, HxA, HxR⟩
  ihave Hoc := (out_cut c g1) $$ Hout
  icases Hoc with ⟨HoA, HoB, HoL⟩
  -- the signal to the device across rows: the slices it fills here
  iapply (Rounds.wp_signal 𝒱₀ ER (agRd m ρ) (c : Thread nD τ) none (dst := ((xn c : Dev nD) : Thread nD τ)) (κ := κbx)
      (d := false) (by rw [duties_bar]; exact Finset.mem_univ _) ((amount_bar m ρ (xn c) false).trans (by decide)) ()
      (OA c 0 + OB c 0 + tallyAt (barCell (yn c)) () 1) rfl) $$ [HO Htbx HoA]
  · isplitr; · iexact HIbx
    isplitl [HO]; · iexact HO
    isplitl [Htbx]; · iexact Htbx
    isplitl [HoA]
    · rw [payload_bar_false]; unfold barPayX; rw [xn_xn]; iexact HoA
    iexact Hrbx
  iintro HO
  -- the signal to the row mate: the slices it fills here
  iapply (Rounds.wp_signal 𝒱₀ ER (agRd m ρ) (c : Thread nD τ) none (dst := ((yn c : Dev nD) : Thread nD τ)) (κ := κby)
      (d := true) (by rw [duties_bar]; exact Finset.mem_univ _) ((amount_bar m ρ (yn c) true).trans (by decide)) ()
      (OA c 0 + OB c 0) rfl) $$ [HO Htby HoB]
  · isplitr; · iexact HIby
    isplitl [HO]; · iexact HO
    isplitl [Htby]; · iexact Htby
    isplitl [HoB]
    · rw [payload_bar_true]; unfold barPayY; rw [yn_yn]; iexact HoB
    iexact Hrby
  iintro HO
  -- the wait for both neighbours, owing receive credit only: the slices this device fills on them
  iapply (Rounds.wp_wait_rest_token 𝒱₀ ER (agRd m ρ) (c : Thread nD τ) none (κ := κb)
      (wpE_semWait_eq 𝒱₀ (c : Thread nD τ) none Set.univ) (Set.mem_univ _) () (O := OA c 0 + OB c 0) (W := W) (R := 0) (m := 0) (T := ∅)
      (by rw [expect_bar]; decide)) $$ [Hcb HO Hab]
  · isplitr; · iexact HIb
    isplitl [Hcb]; · iexact Hcb
    isplitl [HO]; · iexact HO
    isplitr; · iapply (mayWait_bar c 0 0); iexact Hlev
    iexact Hab
  iintro ⟨HO, Hab, -, Hpay⟩
  ihave Hp := (Entails.of_eq (rest_bar m ρ c)) $$ Hpay
  icases Hp with ⟨HdA, HdB⟩
  iapply h
  isplitr
  · iapply (cf_all m ρ c); isplitr; · iexact Hlev
    iexact Hcf
  isplitl [HK0 HxA HdA HdB]
  · rw [fam_zero, S0_all]
    isplitl [HK0]; · iexact HK0
    isplitl [HxA]; · iexact HxA
    isplitl [HdA]; · iexact HdA
    iexact HdB
  isplitl [HO]
  · unfold owesE; iexists _; iexact HO
  unfold RA persCp inv
  isplitr
  · isplitr; · iexists κcp; iexact HIcp
    iexact Hrcp
  isplitl [Hacp]; · iexact Hacp
  isplitl [Htcp]; · iexact Htcp
  isplitl [HxL]; · iexact HxL
  isplitl [HoL]; · iexact HoL
  isplitl [HxR]; · iexact HxR
  iexact Hk

/-! ## The local copy -/

/-- With all 16 chunks on their way across, the device copies its own block into place. -/
theorem localCopy (c : Dev nD) (Kt : PUnit → sProp 𝕄) {kont : PUnit → Prog (TpuEff nD τ sig (Elt F) Λ₀ .tc) PUnit}
    (h : iprop(bigSep Finset.univ (cf m ρ c) ∗ Fam2 (S1 c) (S2 c) 0 ∗ owesE c (OB c 0) ∗ RB m ρ c Kt) ⊢ wp frame (wpE (defs₀ (F := F)) 𝒱₀ (c : Thread nD τ) none) Set.univ (kont ⟨⟩) Kt) :
    iprop(bigSep Finset.univ (cf m ρ c) ∗ Fam2 (S0 m ρ c) (S1 c) 16 ∗ owesE c (OA c 16 + OB c 0) ∗ RA m ρ c Kt)
      ⊢ wp frame (wpE (defs₀ (F := F)) 𝒱₀ (c : Thread nD τ) none) Set.univ (.op (.enqueueDma xM (.here (oSlL c)) (.dma cpS) (Memref.isWhole_whole cc0_stg0_0).wordExact (View.wordExact_bits rfl) ⟨Or.inl rfl, trivial⟩) kont) Kt := by
  rw [fam_full, ← fam_zero (S1 c) (S2 c), OA_done, zero_add]
  unfold RA persCp inv
  iintro ⟨#HC, HF, HO, ⟨⟨%κcp, #HIcp⟩, #Hrcp⟩, Hacp, Htcp, HxL, ⟨%gL, HoL⟩, HxR, Hk⟩
  iapply (Rounds.wp_copy_pointsTo 𝒱₀ ER (agRd m ρ) (c : Thread nD τ) none (κ := κcp) (r := 0) (d := false) (fd := gL) (q := qL) (fs := xstg m ρ c)
      (by rw [duties_cp]; exact Finset.mem_singleton_self _) () NL rfl (amount_cp m ρ c false)
      (by rw [payload_cp]; exact landL m ρ c gL)) $$ [HxL HoL Htcp]
  · isplitr; · iexact HIcp
    isplitl [HxL]; · iexact HxL
    isplitl [HoL]; · iexact HoL
    isplitl [Htcp]; · iexact Htcp
    iexact Hrcp
  iintro Hccp
  iapply h
  isplitr; · iexact HC
  isplitl [HF]; · iexact HF
  isplitl [HO]; · iexact HO
  unfold RB persCp inv
  isplitr
  · isplitr; · iexists κcp; iexact HIcp
    iexact Hrcp
  isplitl [Hacp]; · iexact Hacp
  isplitl [Hccp]; · iexact Hccp
  isplitl [HxR]; · iexact HxR
  iexact Hk

omit [FloatOps F] in
/-- All 16 chunks passed on: nothing is owed any more. -/
theorem toR (c : Dev nD) (Kt : PUnit → sProp 𝕄) (Wp : sProp 𝕄)
    (h : iprop(bigSep Finset.univ (cf m ρ c) ∗ Fam2 (S2 c) (S3 m ρ c) 0 ∗ owesE c 0 ∗ RB m ρ c Kt) ⊢ Wp) :
    iprop(bigSep Finset.univ (cf m ρ c) ∗ Fam2 (S1 c) (S2 c) 16 ∗ owesE c (OB c 16) ∗ RB m ρ c Kt) ⊢ Wp := by
  rw [fam_full, ← fam_zero (S2 c) (S3 m ρ c), OB_done]
  exact h

/-- With every chunk received, the wait for the local copy: the own block in place, its source share back, and the
    copy's semaphore closed. -/
theorem localWait (c : Dev nD) (Kt : PUnit → sProp 𝕄) {kont : PUnit → Prog (TpuEff nD τ sig (Elt F) Λ₀ .tc) PUnit}
    {hsrc : (xM : Memref sig .tc .vmem S1024x512 .f32).view.WordExact} {hdst : (oSlL c).view.WordExact}
    (h : iprop(bigSep Finset.univ (cf m ρ c) ∗ Fam2 (S3 m ρ c) (S4 m ρ c) 0 ∗ owesE c 0 ∗ RS m ρ c Kt) ⊢ wp frame (wpE (defs₀ (F := F)) 𝒱₀ (c : Thread nD τ) none) Set.univ (kont ⟨⟩) Kt) :
    iprop(bigSep Finset.univ (cf m ρ c) ∗ Fam2 (S2 c) (S3 m ρ c) 16 ∗ owesE c 0 ∗ RB m ρ c Kt)
      ⊢ wp frame (wpE (defs₀ (F := F)) 𝒱₀ (c : Thread nD τ) none) Set.univ (.op (.waitDma2 cpS xM (oSlL c) hsrc hdst) kont) Kt := by
  rw [fam_full, ← fam_zero (S3 m ρ c) (S4 m ρ c)]
  unfold RB persCp inv owesE
  iintro ⟨#HC, HF, ⟨%W, HO⟩, ⟨⟨%κcp, #HIcp⟩, #Hrcp⟩, Hacp, Hccp, HxR, Hk⟩
  iapply (Rounds.wp_wait_rest_token 𝒱₀ ER (agRd m ρ) (c : Thread nD τ) none (κ := κcp)
      (wpE_waitDma2_eq 𝒱₀ (c : Thread nD τ) none Set.univ) (Set.mem_univ _) () (O := 0) (W := W) (R := 0) (m := 0) (T := ∅)
      (by rw [Nat.zero_add, expect_cp])) $$ [Hccp HO Hacp]
  · isplitr; · iexact HIcp
    isplitl [Hccp]; · iexact Hccp
    isplitl [HO]; · iexact HO
    isplitr; · rw [MayWait_zero]; iempintro
    iexact Hacp
  iintro ⟨HO, Hacp, -, Hpay⟩
  ihave Hcp := (Entails.of_eq (rest_cp m ρ c)) $$ Hpay
  imod (Rounds.cell_close ER (agRd m ρ) (Set.mem_univ κcp) (fun h => h) (R := 0 + 1) (duties_later m ρ (cpCell c))) $$ [Hacp] with Hzcp
  · isplitr; · iexact HIcp
    iexact Hacp
  iapply h
  isplitr; · iexact HC
  isplitl [HF]; · iexact HF
  isplitl [HO]; · unfold owesE; iexists _; iexact HO
  unfold RS
  isplitl [Hzcp]; · iexact Hzcp
  isplitl [Hcp]; · iexact Hcp
  isplitl [HxR]; · iexact HxR
  iexact Hk

/-! ## The end -/

/-- Every send waited for: the chunks' semaphores close, the pieces of the result buffer join to the whole array, and
    the staged block's shares join to the block. -/
theorem epilogue (c : Dev nD) (Kt : PUnit → sProp 𝕄) :
    iprop(bigSep Finset.univ (cf m ρ c) ∗ Fam2 (S3 m ρ c) (S4 m ρ c) 16 ∗ owesE c 0 ∗ RS m ρ c Kt)
      ⊢ wp frame (wpE (defs₀ (F := F)) 𝒱₀ (c : Thread nD τ) none) Set.univ (.ret ⟨⟩) Kt := by
  rw [fam_full]
  unfold RS owesE cpPay
  iintro ⟨#HC, HF, ⟨%W, HO⟩, Hzcp, ⟨HoL, HxL⟩, HxR, Hk⟩
  imod (closeAll m ρ c) $$ [HF] with HF5
  · isplitr; · iexact HC
    iexact HF
  ihave H5 := (Entails.of_eq (S5_all m ρ c)) $$ HF5
  icases H5 with ⟨Hz, Hry, Hsy, Hsx⟩
  ihave Ho := (out_join m ρ c) $$ [Hsy Hry HoL]
  · isplitl [Hsy]; · iexact Hsy
    isplitl [Hry]; · iexact Hry
    iexact HoL
  ihave Hx := (x_cut c (xstg m ρ c)).2 $$ [HxL Hsx HxR]
  · isplitl [HxL]; · iexact HxL
    isplitl [Hsx]; · iexact Hsx
    iexact HxR
  rw [wp_ret]; imodintro
  iapply Hk
  unfold bodyPost Φ₁ Dat.owesAt Pipeline.owesWithin
  rw [show (dats m ρ 0 c).owed t₀.succ = 0 from rfl]
  isplitl [Hzcp Hz]
  · isplitl [Hzcp]; · iexact Hzcp
    iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

omit [FloatOps F] in
/-- `phase_step` with the counter a number below 16: the chunk is then read off the family's counter. -/
theorem phase_step' (P Q Cf : Fin 16 → sProp 𝕄) [∀ k, BI.Persistent (Cf k)] (a : ℕ) (ha : a < 16) (X X' R Wk W : sProp 𝕄)
    (hstep : iprop(Cf ⟨a, ha⟩ ∗ P ⟨a, ha⟩ ∗ X) ⊢ iprop(((Q ⟨a, ha⟩ ∗ X') -∗ Wk) -∗ W))
    (hrest : iprop(bigSep Finset.univ Cf ∗ Fam2 P Q (a + 1) ∗ X' ∗ R) ⊢ Wk) :
    iprop(bigSep Finset.univ Cf ∗ Fam2 P Q a ∗ X ∗ R) ⊢ W :=
  phase_step P Q Cf ⟨a, ha⟩ X X' R Wk W hstep hrest

/-! ## The body -/

set_option maxHeartbeats 16000000 in
set_option maxRecDepth 65536 in
/-- The body, from what the launch deals the device to its semaphores closed and its result buffer full. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  have dev1_eq : (⟨k0_dev1 c, k0_dev1_lt c⟩ : Dev nD) = xn c := by dev_x
  have dev2_eq : (⟨k0_dev2 c, k0_dev2_lt c⟩ : Dev nD) = yn c := by dev_y
  simp only [dev1_eq, dev2_eq]
  refine prologue m ρ c Kt ?_
  iterate 16 (refine phase_step' (S0 m ρ c) (S1 c) (cf m ρ c) _ (by decide) _ _ _ _ _ (tA' m ρ c _ (by dev_x) _) ?_)
  refine localCopy m ρ c Kt ?_
  iterate 16 (refine phase_step' (S1 c) (S2 c) (cf m ρ c) _ (by decide) _ _ _ _ _ (tRB' m ρ c _ (by dev_y) _) ?_)
  refine toR m ρ c Kt _ ?_
  iterate 16 (refine phase_step' (S2 c) (S3 m ρ c) (cf m ρ c) _ (by decide) _ _ _ _ _ (tRy' m ρ c _) ?_)
  refine localWait m ρ c Kt ?_
  iterate 16 (refine phase_step' (S3 m ρ c) (S4 m ρ c) (cf m ρ c) _ (by decide) _ _ _ _ _ (tS' m ρ c _) ?_)
  exact epilogue m ρ c Kt

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  iintro H
  iapply (sound_body m ρ c fun _ => bodyPost m ρ c)
  isplitl [H]; · iexact H
  iintro H; iexact H

end Cert.KernelIdeal.AG

end
-- ==== Proof.Launch1.lean ====
/-
  The ghost state of the all-gather's launch: every device's cells funded and their invariants allocated under one
  update, each duty's token dealt to the device that pays it (a barrier's `false` token and a direct copy's receive
  token to the device across rows, a barrier's `true` token and a passed-on copy's receive token to the row mate, the
  send sides' and the local copy's to the device itself).
-/
import proofs.«900077_g7700000000000078_dist_ag_v7x_xy2x2_x_m1024_n512_f32_1_alg».proof.Proof.Body

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores, as the launch theorem indexes them: the 64 chunk semaphores and the local
    copy's, DMA semaphores 2 to 66. -/
abbrev osem : Fin 65 → SemLoc sig := fun j => .dma ⟨j.val + 2, by have := j.isLt; show _ < 67; omega⟩

theorem ownSemFacts : Pipeline.OwnSemFacts cfg0.spec osem := by
  decide

namespace Ghost
/-! ## The own semaphores by what they are for -/

/-- Chunk `k`'s four semaphores (send and receive side across rows, send and receive side along the row), then the
    local copy's, against their place among the 65. -/
def jix : (Fin 16 × Fin 4) ⊕ Unit → Fin 65
  | .inl (k, i) => ⟨16 * i.val + k.val, by have := k.isLt; have := i.isLt; omega⟩
  | .inr _ => ⟨64, by decide⟩
def jinv (j : Fin 65) : (Fin 16 × Fin 4) ⊕ Unit :=
  if h : j.val < 64 then .inl (⟨j.val % 16, Nat.mod_lt _ (by decide)⟩, ⟨j.val / 16, by omega⟩) else .inr ()
def jEquiv : (Fin 16 × Fin 4) ⊕ Unit ≃ Fin 65 := ⟨jix, jinv, by decide, by decide⟩

theorem osem_sx (k : Fin 16) : osem (jEquiv (.inl (k, 0))) = .dma (sxS k) :=
  congrArg SemLoc.dma (Fin.ext (by show 16 * 0 + k.val + 2 = 2 + k.val; omega))
theorem osem_rx (k : Fin 16) : osem (jEquiv (.inl (k, 1))) = .dma (rxS k) :=
  congrArg SemLoc.dma (Fin.ext (by show 16 * 1 + k.val + 2 = 18 + k.val; omega))
theorem osem_sy (k : Fin 16) : osem (jEquiv (.inl (k, 2))) = .dma (syS k) :=
  congrArg SemLoc.dma (Fin.ext (by show 16 * 2 + k.val + 2 = 34 + k.val; omega))
theorem osem_ry (k : Fin 16) : osem (jEquiv (.inl (k, 3))) = .dma (ryS k) :=
  congrArg SemLoc.dma (Fin.ext (by show 16 * 3 + k.val + 2 = 50 + k.val; omega))
theorem osem_cp : osem (jEquiv (.inr ())) = .dma cpS := rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- A family over the 65 own semaphores, regrouped: the local copy's first, then chunk by chunk. -/
theorem bigSep_own (Φ : SemLoc sig → sProp 𝕄) :
    bigSep Finset.univ (fun j : Fin 65 => Φ (osem j))
      = iprop(Φ (.dma cpS) ∗ bigSep Finset.univ fun k : Fin 16 => iprop(Φ (.dma (sxS k)) ∗ Φ (.dma (rxS k)) ∗ Φ (.dma (syS k)) ∗ Φ (.dma (ryS k)))) := by
  rw [bigSep_univ_equiv jEquiv, bigSep_univ_sum, bigSep_univ_prod, bigSep_univ_of_subsingleton ()]
  refine (equiv_iff.mp ⟨BI.sep_comm, BI.sep_comm⟩).trans ?_
  refine congrArg₂ BI.sep (congrArg Φ osem_cp) (bigSep_congr fun k _ => ?_)
  rw [bigSep_fin4, osem_sx, osem_rx, osem_sy, osem_ry]

end Ghost

open Ghost

/-- A chunk's tokens and places, without the credit. -/
def T0 (c : Dev nD) (k : Fin 16) : sProp 𝕄 :=
  iprop(dutyTok ER (sxCell c k) 0 false ∗ dutyTok ER (rxCell (xn c) k) 0 false ∗ dutyTok ER (syCell c k) 0 false ∗ dutyTok ER (ryCell (yn c) k) 0 false
    ∗ atPos ER (sxCell c k) 0 ∅ 0 ∗ atPos ER (rxCell c k) 0 ∅ 0 ∗ atPos ER (syCell c k) 0 ∅ 0 ∗ atPos ER (ryCell c k) 0 ∅ 0)

/-- What stays with device `c` after the global step, credit apart: its places and the tokens of the duties it pays. -/
def gtoks (c : Dev nD) : sProp 𝕄 :=
  iprop(atPos ER (barCell c) 0 ∅ 0 ∗ atPos ER (cpCell c) 0 ∅ 0
    ∗ dutyTok ER (barCell (xn c)) 0 false ∗ dutyTok ER (barCell (yn c)) 0 true ∗ dutyTok ER (cpCell c) 0 false
    ∗ bigSep Finset.univ (T0 c))

/-- What the global step makes of the launch element's deal (the launch theorem's `G'`). -/
def G' (c : Dev nD) : sProp 𝕄 := iprop(gfacts m ρ c ∗ gtoks c)

namespace Ghost

/-! ## The cells and the tokens of the launch element -/

/-- Every device's barrier cell and its 65 own cells. -/
def cellAt : Dev nD ⊕ (Dev nD × Fin 65) → GSem nD τ sig
  | .inl c => barCell c
  | .inr cj => ((cj.1 : Thread nD τ), osem cj.2)
theorem cellAt_injective : Function.Injective cellAt := by
  rintro (c | ⟨c, j⟩) (c' | ⟨c', j'⟩) h
  · exact congrArg Sum.inl (Fin.ext (congrArg (fun g : GSem nD τ sig => g.1.1.val) h))
  · exact absurd (congrArg Prod.snd h) (fun h' => by cases h')
  · exact absurd (congrArg Prod.snd h) (fun h' => by cases h')
  · have h1 : c = c' := Fin.ext (congrArg (fun g : GSem nD τ sig => g.1.1.val) h)
    have h2 : j = j' := ownSemFacts.inj (congrArg Prod.snd h)
    subst h1; subst h2; rfl
def agCells : Finset (GSem nD τ sig) := Finset.univ.map ⟨cellAt, cellAt_injective⟩

/-- Their duties' tokens: a barrier's `false` and `true`, an own cell's `false`. -/
def tokAt : (Dev nD × Bool) ⊕ (Dev nD × Fin 65) → GSem nD τ sig × ℕ × Bool
  | .inl cb => (barCell cb.1, 0, cb.2)
  | .inr cj => (((cj.1 : Thread nD τ), osem cj.2), 0, false)
theorem tokAt_injective : Function.Injective tokAt := by
  rintro (⟨c, b⟩ | ⟨c, j⟩) (⟨c', b'⟩ | ⟨c', j'⟩) h
  · have h1 : c = c' := Fin.ext (congrArg (fun x : GSem nD τ sig × ℕ × Bool => x.1.1.1.val) h)
    have h2 : b = b' := congrArg (fun x : GSem nD τ sig × ℕ × Bool => x.2.2) h
    subst h1; subst h2; rfl
  · exact absurd (congrArg (fun x : GSem nD τ sig × ℕ × Bool => x.1.2) h) (fun h' => by cases h')
  · exact absurd (congrArg (fun x : GSem nD τ sig × ℕ × Bool => x.1.2) h) (fun h' => by cases h')
  · have h1 : c = c' := Fin.ext (congrArg (fun x : GSem nD τ sig × ℕ × Bool => x.1.1.1.val) h)
    have h2 : j = j' := ownSemFacts.inj (congrArg (fun x : GSem nD τ sig × ℕ × Bool => x.1.2) h)
    subst h1; subst h2; rfl
def agToks : Finset (GSem nD τ sig × ℕ × Bool) := Finset.univ.map ⟨tokAt, tokAt_injective⟩

/-- A device's share of a family over the cells: its barrier cell's, then its own cells'. -/
def perDev (Φ : GSem nD τ sig → sProp 𝕄) (c : Dev nD) : sProp 𝕄 :=
  iprop(Φ (barCell c) ∗ bigSep Finset.univ fun j : Fin 65 => Φ ((c : Thread nD τ), osem j))
/-- The tokens of a device's own cells. -/
def toks (c : Dev nD) : sProp 𝕄 :=
  iprop((bigSep Finset.univ fun b : Bool => dutyTok ER (barCell c) 0 b) ∗ bigSep Finset.univ fun j : Fin 65 => dutyTok ER ((c : Thread nD τ), osem j) 0 false)

omit [FloatOps F] in
theorem cells_split (Φ : GSem nD τ sig → sProp 𝕄) : bigSep agCells Φ = bigSep Finset.univ (perDev Φ) := by
  unfold agCells perDev
  rw [bigSep_map, bigSep_univ_sum, bigSep_univ_prod]
  exact (bigSep_sep' Finset.univ (fun c : Dev nD => Φ (barCell c)) (fun c : Dev nD => bigSep Finset.univ fun j : Fin 65 => Φ ((c : Thread nD τ), osem j))).symm
omit [FloatOps F] in
theorem toks_split : bigSep agToks (fun x => (dutyTok ER x.1 x.2.1 x.2.2 : sProp 𝕄)) = bigSep Finset.univ toks := by
  unfold agToks toks
  rw [bigSep_map, bigSep_univ_sum, bigSep_univ_prod, bigSep_univ_prod]
  exact (bigSep_sep' Finset.univ (fun c : Dev nD => bigSep Finset.univ fun b : Bool => (dutyTok ER (barCell c) 0 b : sProp 𝕄))
    (fun c : Dev nD => bigSep Finset.univ fun j : Fin 65 => dutyTok ER ((c : Thread nD τ), osem j) 0 false)).symm

end Ghost

/-- What the launch element deals device `c` (the launch theorem's `G`): the round state of each of its cells at counter
    zero, that round 0 of each is reached, its place on each, and the tokens of their duties. -/
def G (c : Dev nD) : sProp 𝕄 :=
  iprop(perDev (fun g => roundState ER (agRd m ρ) g 0) c ∗ perDev (fun g => reached ER g 0) c ∗ perDev (fun g => atPos ER g 0 ∅ 0) c ∗ toks c)

/-- The launch element: the pipeline library's copy and the protocol's. -/
def u₀ : UU :=
  (initOf (Pipeline.cells cfgs cellOf_inj) (Pipeline.launchToks cfgs cellOf_inj), initOf agCells agToks)

namespace Ghost
omit [FloatOps F] in
theorem fund_ag : BI.own (ER (initOf agCells agToks)) ⊢ (|==> bigSep Finset.univ (G m ρ) : sProp 𝕄) := by
  iintro HX
  imod (Rounds.fund ER (agRd m ρ) agCells agToks) $$ HX with ⟨Hst, Hr, Hat, Htok⟩
  imodintro
  ihave Hst' := (Entails.of_eq (cells_split fun g => roundState ER (agRd m ρ) g 0)) $$ Hst
  ihave Hr' := (Entails.of_eq (cells_split fun g => reached ER g 0)) $$ Hr
  ihave Hat' := (Entails.of_eq (cells_split fun g => atPos ER g 0 ∅ 0)) $$ Hat
  ihave Htok' := (Entails.of_eq toks_split) $$ Htok
  unfold G; rw [bigSep_sep', bigSep_sep', bigSep_sep']
  isplitl [Hst']; · iexact Hst'
  isplitl [Hr']; · iexact Hr'
  isplitl [Hat']; · iexact Hat'
  iexact Htok'

end Ghost

omit [FloatOps F] in
theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ag m ρ) $$ HX with HG
  imodintro
  isplitl [HP] <;> iassumption

namespace Ghost

/-! ## The invariants allocated, device by device -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem alloc_cell (g : GSem nD τ sig) : iprop(semVal g 0 ∗ roundState ER (agRd m ρ) g 0) ⊢ (|={Set.univ}=> inv m ρ g : sProp 𝕄) :=
  (Rounds.body_intro ER (agRd m ρ) g).trans inv_alloc

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(perDev (inv m ρ) c ∗ perDev (fun g => reached ER g 0) c ∗ perDev (fun g => atPos ER g 0 ∅ 0) c ∗ toks c) := by
  rw [unscopedSems0_eq]
  unfold G Pipeline.ownSems0 perDev
  iintro ⟨Hos, Hus, ⟨HsB, Hst⟩, Hr, Hat, Htok⟩
  imod (alloc_cell m ρ (barCell c)) $$ [Hus HsB] with HiB
  · isplitl [Hus] <;> iassumption
  imod (show iprop((bigSep Finset.univ fun j : Fin 65 => semVal ((c : Thread nD τ), osem j) 0) ∗ bigSep Finset.univ fun j : Fin 65 => roundState ER (agRd m ρ) ((c : Thread nD τ), osem j) 0)
      ⊢ (|={Set.univ}=> bigSep Finset.univ fun j : Fin 65 => inv m ρ ((c : Thread nD τ), osem j) : sProp 𝕄) from by
        rw [← bigSep_sep']
        exact (bigSep_mono fun j _ => alloc_cell m ρ ((c : Thread nD τ), osem j)).trans (bigSep_fupd _ _)) $$ [Hos Hst] with Hinv
  · isplitl [Hos] <;> iassumption
  imodintro
  isplitl [HiB Hinv]
  · isplitl [HiB] <;> iassumption
  isplitl [Hr]; · iexact Hr
  isplitl [Hat]; · iexact Hat
  iexact Htok

/-! ## The regrouping over all devices -/

omit [FloatOps F] in
theorem perDev_eq (Φ : GSem nD τ sig → sProp 𝕄) (c : Dev nD) :
    perDev Φ c = iprop(Φ (barCell c) ∗ Φ (cpCell c)
      ∗ bigSep Finset.univ fun k : Fin 16 => iprop(Φ (sxCell c k) ∗ Φ (rxCell c k) ∗ Φ (syCell c k) ∗ Φ (ryCell c k))) := by
  unfold perDev; rw [bigSep_own (fun sm => Φ ((c : Thread nD τ), sm))]

omit [FloatOps F] in
theorem toks_eq (c : Dev nD) :
    (toks c : sProp 𝕄) = iprop((dutyTok ER (barCell c) 0 false ∗ dutyTok ER (barCell c) 0 true) ∗ dutyTok ER (cpCell c) 0 false
      ∗ bigSep Finset.univ fun k : Fin 16 => iprop(dutyTok ER (sxCell c k) 0 false ∗ dutyTok ER (rxCell c k) 0 false
          ∗ dutyTok ER (syCell c k) 0 false ∗ dutyTok ER (ryCell c k) 0 false)) := by
  unfold toks; rw [bigSep_bool, bigSep_own (fun sm => dutyTok ER ((c : Thread nD τ), sm) 0 false)]

omit [FloatOps F] in
theorem perDev_bar (Φ : GSem nD τ sig → sProp 𝕄) (c : Dev nD) : perDev Φ c ⊢ Φ (barCell c) := by
  unfold perDev; iintro ⟨H, -⟩; iexact H
omit [FloatOps F] in
theorem perDev_dma (Φ : GSem nD τ sig → sProp 𝕄) (c : Dev nD) (q : DmaSem sig) (hq : 2 ≤ q.val) :
    perDev Φ c ⊢ Φ ((c : Thread nD τ), .dma q) := by
  have hlt : q.val < 67 := q.isLt
  have hj : q.val - 2 < 65 := by omega
  have he : osem ⟨q.val - 2, hj⟩ = .dma q := congrArg SemLoc.dma (Fin.ext (by show q.val - 2 + 2 = q.val; omega))
  have h : (bigSep Finset.univ fun j : Fin 65 => Φ ((c : Thread nD τ), osem j)) ⊢ Φ ((c : Thread nD τ), osem ⟨q.val - 2, hj⟩) :=
    bigSep_elim (Finset.mem_univ _)
  rw [he] at h
  unfold perDev; iintro ⟨-, H⟩; iapply h; iexact H

instance perDev_persistent (Φ : GSem nD τ sig → sProp 𝕄) [∀ g, BI.Persistent (Φ g)] (c : Dev nD) : BI.Persistent (perDev Φ c) := by
  unfold perDev; infer_instance

/-- Every cell's invariant, and that round 0 of each is reached: the lasting facts every device draws on. -/
def recs : sProp 𝕄 := iprop(bigSep Finset.univ (perDev (inv m ρ)) ∗ bigSep Finset.univ (perDev fun g => reached ER g 0))
instance recs_persistent : BI.Persistent (recs m ρ) := by unfold recs; infer_instance

omit [FloatOps F] in
theorem recs_inv (c : Dev nD) : recs m ρ ⊢ perDev (inv m ρ) c := by
  have h : bigSep Finset.univ (perDev (inv m ρ)) ⊢ perDev (inv m ρ) c := bigSep_elim (Finset.mem_univ c)
  unfold recs; iintro ⟨H, -⟩; iapply h; iexact H
omit [FloatOps F] in
theorem recs_rch (c : Dev nD) : recs m ρ ⊢ perDev (fun g => reached ER g 0) c := by
  have h : bigSep Finset.univ (perDev fun g => (reached ER g 0 : sProp 𝕄)) ⊢ perDev (fun g => reached ER g 0) c := bigSep_elim (Finset.mem_univ c)
  unfold recs; iintro ⟨-, H⟩; iapply h; iexact H

omit [FloatOps F] in
theorem inv_bar (c : Dev nD) : recs m ρ ⊢ inv m ρ (barCell c) := (recs_inv m ρ c).trans (perDev_bar _ c)
omit [FloatOps F] in
theorem inv_dma (c : Dev nD) (q : DmaSem sig) (hq : 2 ≤ q.val) : recs m ρ ⊢ inv m ρ ((c : Thread nD τ), .dma q) :=
  (recs_inv m ρ c).trans (perDev_dma _ c q hq)
omit [FloatOps F] in
theorem rch_bar (c : Dev nD) : recs m ρ ⊢ reached ER (barCell c) 0 := (recs_rch m ρ c).trans (perDev_bar (fun g => reached ER g 0) c)
omit [FloatOps F] in
theorem rch_dma (c : Dev nD) (q : DmaSem sig) (hq : 2 ≤ q.val) : recs m ρ ⊢ reached ER ((c : Thread nD τ), .dma q) 0 :=
  (recs_rch m ρ c).trans (perDev_dma (fun g => reached ER g 0) c q hq)

theorem two_le_sx (k : Fin 16) : 2 ≤ (sxS k).val := by show 2 ≤ 2 + k.val; omega
theorem two_le_rx (k : Fin 16) : 2 ≤ (rxS k).val := by show 2 ≤ 18 + k.val; omega
theorem two_le_sy (k : Fin 16) : 2 ≤ (syS k).val := by show 2 ≤ 34 + k.val; omega
theorem two_le_ry (k : Fin 16) : 2 ≤ (ryS k).val := by show 2 ≤ 50 + k.val; omega
theorem two_le_cp : 2 ≤ (cpS).val := by show 2 ≤ 66; omega

omit [FloatOps F] in
/-- Two consequences of a persistent assertion, side by side. -/
theorem pers_sep {R A B : sProp 𝕄} [BI.Persistent R] (h₁ : R ⊢ A) (h₂ : R ⊢ B) : R ⊢ iprop(A ∗ B) := by
  iintro #H
  isplitr
  · iapply h₁; iexact H
  · iapply h₂; iexact H

omit [FloatOps F] in
theorem cfacts_intro (c : Dev nD) (k : Fin 16) : recs m ρ ⊢ cfacts m ρ c k := by
  unfold cfacts
  exact pers_sep (inv_dma m ρ c (sxS k) (two_le_sx k)) (pers_sep (inv_dma m ρ c (rxS k) (two_le_rx k)) (pers_sep (inv_dma m ρ c (syS k) (two_le_sy k))
    (pers_sep (inv_dma m ρ c (ryS k) (two_le_ry k)) (pers_sep (inv_dma m ρ (xn c) (rxS k) (two_le_rx k)) (pers_sep (inv_dma m ρ (yn c) (ryS k) (two_le_ry k))
    (pers_sep (rch_dma m ρ c (sxS k) (two_le_sx k)) (pers_sep (rch_dma m ρ c (syS k) (two_le_sy k))
    (pers_sep (rch_dma m ρ (xn c) (rxS k) (two_le_rx k)) (rch_dma m ρ (yn c) (ryS k) (two_le_ry k))))))))))

omit [FloatOps F] in
theorem gfacts_intro (c : Dev nD) : recs m ρ ⊢ gfacts m ρ c := by
  unfold gfacts
  exact pers_sep (inv_bar m ρ c) (pers_sep (inv_bar m ρ (xn c)) (pers_sep (inv_bar m ρ (yn c)) (pers_sep (inv_dma m ρ c cpS two_le_cp)
    (pers_sep (rch_bar m ρ (xn c)) (pers_sep (rch_bar m ρ (yn c)) (pers_sep (rch_dma m ρ c cpS two_le_cp)
    ((BI.bigSep_of_persistent Finset.univ (recs m ρ)).trans (bigSep_mono fun k _ => cfacts_intro m ρ c k))))))))

/-- The tokens of the duties device `c` pays. -/
def payToks (c : Dev nD) : sProp 𝕄 :=
  iprop((dutyTok ER (barCell (xn c)) 0 false ∗ dutyTok ER (barCell (yn c)) 0 true) ∗ dutyTok ER (cpCell c) 0 false
    ∗ bigSep Finset.univ fun k : Fin 16 => iprop(dutyTok ER (sxCell c k) 0 false ∗ dutyTok ER (rxCell (xn c) k) 0 false
        ∗ dutyTok ER (syCell c k) 0 false ∗ dutyTok ER (ryCell (yn c) k) 0 false))

omit [FloatOps F] in
/-- Over all devices, two of a device's single summands and two of its per-chunk summands dealt along two permutations. -/
theorem travel (e₁ e₂ : Dev nD ≃ Dev nD) (p₁ p₂ p₃ : Dev nD → sProp 𝕄) (q₁ q₂ q₃ q₄ : Dev nD → Fin 16 → sProp 𝕄) :
    (bigSep Finset.univ fun c => iprop((p₁ c ∗ p₂ c) ∗ p₃ c ∗ bigSep Finset.univ fun k => iprop(q₁ c k ∗ q₂ c k ∗ q₃ c k ∗ q₄ c k)))
      = bigSep Finset.univ fun c => iprop((p₁ (e₁ c) ∗ p₂ (e₂ c)) ∗ p₃ c
          ∗ bigSep Finset.univ fun k => iprop(q₁ c k ∗ q₂ (e₁ c) k ∗ q₃ c k ∗ q₄ (e₂ c) k)) := by
  simp only [bigSep_sep']
  rw [bigSep_univ_equiv e₁ p₁, bigSep_univ_equiv e₂ p₂, bigSep_univ_equiv e₁ (fun c => bigSep Finset.univ (q₂ c)),
    bigSep_univ_equiv e₂ (fun c => bigSep Finset.univ (q₄ c))]

omit [FloatOps F] in
/-- The tokens dealt to their payers: a barrier's `false` token and a direct copy's receive token across rows, a
    barrier's `true` token and a passed-on copy's receive token along the row. -/
theorem toks_around : (bigSep Finset.univ fun c : Dev nD => (toks c : sProp 𝕄)) = bigSep Finset.univ fun c : Dev nD => payToks c := by
  rw [bigSep_congr (s := Finset.univ) fun (c : Dev nD) _ => toks_eq (F := F) c]
  unfold payToks
  exact travel xSwap ySwap (fun c => dutyTok ER (barCell c) 0 false) (fun c => dutyTok ER (barCell c) 0 true) (fun c => dutyTok ER (cpCell c) 0 false)
    (fun c k => dutyTok ER (sxCell c k) 0 false) (fun c k => dutyTok ER (rxCell c k) 0 false)
    (fun c k => dutyTok ER (syCell c k) 0 false) (fun c k => dutyTok ER (ryCell c k) 0 false)

omit [FloatOps F] in
theorem zip4 (t₁ t₂ t₃ t₄ a₁ a₂ a₃ a₄ : Fin 16 → sProp 𝕄) :
    iprop((bigSep Finset.univ fun k => iprop(t₁ k ∗ t₂ k ∗ t₃ k ∗ t₄ k)) ∗ bigSep Finset.univ fun k => iprop(a₁ k ∗ a₂ k ∗ a₃ k ∗ a₄ k))
      ⊢ bigSep Finset.univ fun k => iprop(t₁ k ∗ t₂ k ∗ t₃ k ∗ t₄ k ∗ a₁ k ∗ a₂ k ∗ a₃ k ∗ a₄ k) := by
  have h (k : Fin 16) : iprop((t₁ k ∗ t₂ k ∗ t₃ k ∗ t₄ k) ∗ a₁ k ∗ a₂ k ∗ a₃ k ∗ a₄ k) ⊢ iprop(t₁ k ∗ t₂ k ∗ t₃ k ∗ t₄ k ∗ a₁ k ∗ a₂ k ∗ a₃ k ∗ a₄ k) := by
    iintro ⟨⟨H1, H2, H3, H4⟩, K⟩
    isplitl [H1]; · iexact H1
    isplitl [H2]; · iexact H2
    isplitl [H3]; · iexact H3
    isplitl [H4]; · iexact H4
    iexact K
  rw [← bigSep_sep']
  exact bigSep_mono fun k _ => h k

omit [FloatOps F] in
theorem lin_dev (c : Dev nD) : iprop(perDev (fun g => atPos ER g 0 ∅ 0) c ∗ payToks c) ⊢ (gtoks c : sProp 𝕄) := by
  have h : iprop((bigSep Finset.univ fun k : Fin 16 => iprop(dutyTok ER (sxCell c k) 0 false ∗ dutyTok ER (rxCell (xn c) k) 0 false
          ∗ dutyTok ER (syCell c k) 0 false ∗ dutyTok ER (ryCell (yn c) k) 0 false))
        ∗ bigSep Finset.univ fun k : Fin 16 => iprop(atPos ER (sxCell c k) 0 ∅ 0 ∗ atPos ER (rxCell c k) 0 ∅ 0 ∗ atPos ER (syCell c k) 0 ∅ 0 ∗ atPos ER (ryCell c k) 0 ∅ 0))
      ⊢ (bigSep Finset.univ (T0 c) : sProp 𝕄) := zip4 _ _ _ _ _ _ _ _
  rw [perDev_eq]
  unfold payToks gtoks
  iintro ⟨⟨HaB, HaC, Ha⟩, ⟨HtF, HtT⟩, HtC, Ht⟩
  isplitl [HaB]; · iexact HaB
  isplitl [HaC]; · iexact HaC
  isplitl [HtF]; · iexact HtF
  isplitl [HtT]; · iexact HtT
  isplitl [HtC]; · iexact HtC
  iapply h
  isplitl [Ht]; · iexact Ht
  iexact Ha

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (c : Dev nD) : iprop(recs m ρ ∗ perDev (fun g => atPos ER g 0 ∅ 0) c ∗ payToks c) ⊢ G' m ρ c := by
  unfold G'
  iintro ⟨#H, HL⟩
  isplitr
  · iapply (gfacts_intro m ρ c); iexact H
  · iapply (lin_dev (F := F) c); iexact HL

omit [FloatOps F] in
theorem regroup :
    (bigSep Finset.univ fun c : Dev nD => iprop(perDev (inv m ρ) c ∗ perDev (fun g => reached ER g 0) c ∗ perDev (fun g => atPos ER g 0 ∅ 0) c ∗ toks c) : sProp 𝕄)
      ⊢ bigSep Finset.univ (G' m ρ) := by
  rw [bigSep_sep', bigSep_sep', bigSep_sep', toks_around]
  iintro ⟨#HI, #HR, Hat, Htok⟩
  iapply (bigSep_with_persistent (R := recs m ρ) fun c _ => ghost_intro m ρ c)
  isplitr
  · unfold recs; isplitr; · iexact HI
    iexact HR
  · iapply (Entails.of_eq (bigSep_sep' Finset.univ (perDev fun g => (atPos ER g 0 ∅ 0 : sProp 𝕄)) payToks).symm)
    isplitl [Hat]; · iexact Hat
    iexact Htok

end Ghost

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdeal.AG.hu0' depends on axioms: [propext, Classical.choice, Quot.sound] -/
#guard_msgs in #print axioms hu0
/-- info: 'Cert.KernelIdeal.AG.glob' depends on axioms: [propext, Classical.choice, Quot.sound] -/
#guard_msgs in #print axioms glob

end Cert.KernelIdeal.AG

end
-- ==== Proof.Launch2.lean ====
/-
  The launch of the all-gather: the credit each device is dealt for what its neighbours owe it, the levels its waits
  need, the region's entry and exit, and the run: every weakly fair execution of the four kernels terminates with each
  device's result array holding the whole array and its argument array as it was.
-/
import proofs.«900077_g7700000000000078_dist_ag_v7x_xy2x2_x_m1024_n512_f32_1_alg».proof.Proof.Launch1

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- At launch no chunk has gone yet: a device owes the receive credit of all sixteen direct copies, -/
theorem OA_zero (c : Dev nD) : OA c 0 = ∑ k : Fin 16, tallyAt (rxCell (xn c) k) () N := by
  unfold OA; exact Finset.sum_congr rfl fun k _ => if_pos (Nat.zero_le _)
/-- and of all sixteen passed-on copies. -/
theorem OB_zero (c : Dev nD) : OB c 0 = ∑ k : Fin 16, tallyAt (ryCell (yn c) k) () N := by
  unfold OB; exact Finset.sum_congr rfl fun k _ => if_pos (Nat.zero_le _)

/-- What the devices together owe device `c`'s cells: a chunk's credit on each of its receive sides, and a unit from
    each neighbour on its barrier. -/
def T₀ (c : Dev nD) : CellTallies nD τ sig Unit :=
  (∑ k : Fin 16, tallyAt (rxCell c k) () N) + (∑ k : Fin 16, tallyAt (ryCell c k) () N) + tallyAt (barCell c) () 1 + tallyAt (barCell c) () 1

/-- Summed over the devices, what each owes its neighbours is what each is owed: the neighbour maps are involutions. -/
theorem sum_O₀ : (∑ d : Dev nD, O₀ d) = ∑ d : Dev nD, T₀ d := by
  have hA : (∑ d : Dev nD, ∑ k : Fin 16, (tallyAt (rxCell (xn d) k) () N : CellTallies nD τ sig Unit)) = ∑ d : Dev nD, ∑ k : Fin 16, tallyAt (rxCell d k) () N :=
    Equiv.sum_comp xSwap (fun c => ∑ k : Fin 16, (tallyAt (rxCell c k) () N : CellTallies nD τ sig Unit))
  have hB : (∑ d : Dev nD, ∑ k : Fin 16, (tallyAt (ryCell (yn d) k) () N : CellTallies nD τ sig Unit)) = ∑ d : Dev nD, ∑ k : Fin 16, tallyAt (ryCell d k) () N :=
    Equiv.sum_comp ySwap (fun c => ∑ k : Fin 16, (tallyAt (ryCell c k) () N : CellTallies nD τ sig Unit))
  have hC : (∑ d : Dev nD, (tallyAt (barCell (yn d)) () 1 : CellTallies nD τ sig Unit)) = ∑ d : Dev nD, tallyAt (barCell d) () 1 :=
    Equiv.sum_comp ySwap (fun c => (tallyAt (barCell c) () 1 : CellTallies nD τ sig Unit))
  have hD : (∑ d : Dev nD, (tallyAt (barCell (xn d)) () 1 : CellTallies nD τ sig Unit)) = ∑ d : Dev nD, tallyAt (barCell d) () 1 :=
    Equiv.sum_comp xSwap (fun c => (tallyAt (barCell c) () 1 : CellTallies nD τ sig Unit))
  unfold O₀ T₀
  simp only [OA_zero, OB_zero, Finset.sum_add_distrib]
  rw [hA, hB, hC, hD]

/-- What a device is owed sits on its own cells. -/
theorem T₀_own (d : Dev nD) (g : GSem nD τ sig) (h : T₀ d g ≠ 0) : g.1 = (d : Thread nD τ) := by
  by_contra hne
  refine h ?_
  have hz (g' : GSem nD τ sig) (hg' : g'.1 = (d : Thread nD τ)) (n : ℕ) : tallyAt g' () n g = 0 :=
    tallyAt_ne_cell (fun e : g = g' => hne (by rw [e]; exact hg')) () n
  unfold T₀
  rw [Pi.add_apply, Pi.add_apply, Pi.add_apply, Finset.sum_apply, Finset.sum_apply,
    Finset.sum_eq_zero (fun k _ => hz (rxCell d k) rfl N), Finset.sum_eq_zero (fun k _ => hz (ryCell d k) rfl N), hz (barCell d) rfl 1, add_zero, add_zero, add_zero]

theorem T₀_eq (c : Dev nD) :
    T₀ c = tallyAt (barCell c) () 2 + ((∑ k : Fin 16, tallyAt (rxCell c k) () N) + ∑ k : Fin 16, tallyAt (ryCell c k) () N) := by
  unfold T₀
  rw [add_assoc _ (tallyAt (barCell c) () 1) (tallyAt (barCell c) () 1), tallyAt_add, add_comm]

/-- The launch deals device `c` two units on its barrier and a chunk's credit on each of its 32 receive sides. -/
theorem creds (c : Dev nD) :
    (Pipeline.launchCred O₀ c : sProp 𝕄)
      ⊢ iprop(cred (tallyAt (barCell c) () 2) ∗ bigSep Finset.univ fun k : Fin 16 => iprop(cred (tallyAt (rxCell c k) () N) ∗ cred (tallyAt (ryCell c k) () N))) := by
  rw [Pipeline.launchCred_of_sum O₀ T₀ sum_O₀ T₀_own c, T₀_eq, bigSep_sep', ← Pipeline.cred_finsetSum, ← Pipeline.cred_finsetSum]
  have h1 := (cred_add (Ix := Unit) (Val := Elt F) (Name := ℕ) (U := UU) (Lvl := ℕ) (tallyAt (barCell c) () 2 : CellTallies nD τ sig Unit) ((∑ k : Fin 16, tallyAt (rxCell c k) () N) + ∑ k : Fin 16, tallyAt (ryCell c k) () N)).1
  have h2 := (cred_add (Ix := Unit) (Val := Elt F) (Name := ℕ) (U := UU) (Lvl := ℕ) (∑ k : Fin 16, (tallyAt (rxCell c k) () N : CellTallies nD τ sig Unit)) (∑ k : Fin 16, tallyAt (ryCell c k) () N)).1
  iintro H
  ihave H' := h1 $$ H
  icases H' with ⟨Hb, Hr⟩
  isplitl [Hb]; · iexact Hb
  iapply h2; iexact Hr

/-! ## Entry and exit of the region -/

/-- A chunk's share: its tokens and places, and the two receive credits. -/
theorem K0_intro (c : Dev nD) (k : Fin 16) :
    iprop(T0 c k ∗ (cred (tallyAt (rxCell c k) () N) ∗ cred (tallyAt (ryCell c k) () N))) ⊢ (K0 c k : sProp 𝕄) := by
  unfold T0 K0
  iintro ⟨⟨H1, H2, H3, H4, H5, H6, H7, H8⟩, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What a device holds once: what the global step left it, and the launch credit. -/
theorem glin_intro (c : Dev nD) :
    iprop(gtoks c ∗ cred (tallyAt (barCell c) () 2)
        ∗ bigSep Finset.univ fun k : Fin 16 => iprop(cred (tallyAt (rxCell c k) () N) ∗ cred (tallyAt (ryCell c k) () N)))
      ⊢ (glin c : sProp 𝕄) := by
  have hK : iprop(bigSep Finset.univ (T0 c) ∗ bigSep Finset.univ fun k : Fin 16 => iprop(cred (tallyAt (rxCell c k) () N) ∗ cred (tallyAt (ryCell c k) () N)))
      ⊢ (bigSep Finset.univ (K0 c) : sProp 𝕄) := by
    rw [← bigSep_sep']; exact bigSep_mono fun k _ => K0_intro c k
  unfold gtoks glin
  iintro ⟨⟨H1, H2, H3, H4, H5, HT⟩, Hb, Hc⟩
  isplitl [H1]; · iexact H1
  isplitl [H2]; · iexact H2
  isplitl [H3]; · iexact H3
  isplitl [H4]; · iexact H4
  isplitl [H5]; · iexact H5
  isplitl [Hb]; · iexact Hb
  iapply hK
  isplitl [HT]; · iexact HT
  iexact Hc

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨Hb, Hk⟩
  imodintro
  unfold start G'
  icases HG with ⟨Hf, Ht⟩
  isplitl [Hf Hb Hk Ht Hlev]
  · isplitl [Hf]; · iexact Hf
    isplitl [Hb Hk Ht]
    · iapply (glin_intro (F := F) c)
      isplitl [Ht]; · iexact Ht
      isplitl [Hb]; · iexact Hb
      iexact Hk
    · iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

/-- The kernel's own 65 semaphores as the launch numbers them: chunk `k`'s four at `k`, `16 + k`, `32 + k` and
    `48 + k`, the local copy's last. -/
def ownIx : (Fin 4 × Fin 16) ⊕ Unit ≃ Fin 65 where
  toFun
    | .inl (a, k) => ⟨16 * a.val + k.val, by have := a.isLt; have := k.isLt; omega⟩
    | .inr _ => ⟨64, by decide⟩
  invFun j := if h : j.val < 64 then .inl (⟨j.val / 16, by omega⟩, ⟨j.val % 16, Nat.mod_lt _ (by decide)⟩) else .inr ()
  left_inv := by
    rintro (⟨a, k⟩ | _)
    · have ha := a.isLt; have hk := k.isLt
      have h : 16 * a.val + k.val < 64 := by omega
      simp only [dif_pos h]
      refine congrArg Sum.inl (Prod.ext (Fin.ext ?_) (Fin.ext ?_))
      · show (16 * a.val + k.val) / 16 = a.val; omega
      · show (16 * a.val + k.val) % 16 = k.val; omega
    · rfl
  right_inv := by
    intro j
    have hj := j.isLt
    by_cases h : j.val < 64
    · simp only [dif_pos h]; apply Fin.ext; show 16 * (j.val / 16) + j.val % 16 = j.val; omega
    · simp only [dif_neg h]; apply Fin.ext; show 64 = j.val; omega

theorem osem_sx (k : Fin 16) : osem (ownIx (.inl (0, k))) = .dma (sxS k) :=
  congrArg SemLoc.dma (Fin.ext (by show 16 * 0 + k.val + 2 = 2 + k.val; omega))
theorem osem_rx (k : Fin 16) : osem (ownIx (.inl (1, k))) = .dma (rxS k) :=
  congrArg SemLoc.dma (Fin.ext (by show 16 * 1 + k.val + 2 = 18 + k.val; omega))
theorem osem_sy (k : Fin 16) : osem (ownIx (.inl (2, k))) = .dma (syS k) :=
  congrArg SemLoc.dma (Fin.ext (by show 16 * 2 + k.val + 2 = 34 + k.val; omega))
theorem osem_ry (k : Fin 16) : osem (ownIx (.inl (3, k))) = .dma (ryS k) :=
  congrArg SemLoc.dma (Fin.ext (by show 16 * 3 + k.val + 2 = 50 + k.val; omega))
theorem osem_cp : osem (ownIx (.inr ())) = .dma cpS := rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_univ_sum' {α β : Type} [Fintype α] [Fintype β] (Φ : α ⊕ β → sProp 𝕄) :
    bigSep Finset.univ Φ = iprop(bigSep Finset.univ (fun a => Φ (.inl a)) ∗ bigSep Finset.univ fun b => Φ (.inr b)) := bigSep_univ_sum Φ

/-- The kernel's own semaphores at zero, chunk by chunk, are its 65 at zero. -/
theorem ownSems0_intro (c : Dev nD) :
    (Φ₁ c : sProp 𝕄) ⊢ Pipeline.ownSems0 (Ix := Unit) (Name := ℕ) (U := UU) (Lvl := ℕ) (Val := Elt F) (τ := τ) osem c := by
  unfold Pipeline.ownSems0 Φ₁
  rw [bigSep_univ_equiv ownIx, bigSep_univ_sum', bigSep_univ_prod, bigSep_univ_of_subsingleton (), bigSep_fin4,
    bigSep_sep', bigSep_sep', bigSep_sep']
  simp only [osem_sx, osem_rx, osem_sy, osem_ry, osem_cp]
  iintro ⟨Hcp, H0, H1, H2, H3⟩
  isplitl [H0 H1 H2 H3]
  · isplitl [H0]; · iexact H0
    isplitl [H1]; · iexact H1
    isplitl [H2]; · iexact H2
    iexact H3
  · iexact Hcp

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  iintro H
  isplitr; · iempintro
  isplitl [H]
  · iapply (ownSems0_intro (F := F) c); iexact H
  · iempintro

/-! ## Levels -/

/-- Every cell a device owes at launch is a TensorCore's, above level 0. -/
theorem O₀_lv {c : Dev nD} {g : GSem nD τ sig} {u : Unit} (h : 0 < O₀ c g u) : u ∈ L g ∧ 0 < lv g u := by
  unfold O₀ at h
  rcases Pipeline.add_pos_cases h with h | h
  · rcases Pipeline.add_pos_cases h with h | h
    · rcases OAB_pos h with ⟨k, rfl⟩ | ⟨k, rfl⟩
      · rw [L_tc, lv_rx]; exact ⟨Finset.mem_singleton_self _, by decide⟩
      · rw [L_tc, lv_ry]; exact ⟨Finset.mem_singleton_self _, by decide⟩
    · obtain ⟨rfl, -⟩ := Pipeline.tallyAt_pos h
      rw [L_tc, lv_bar]; exact ⟨Finset.mem_singleton_self _, by decide⟩
  · obtain ⟨rfl, -⟩ := Pipeline.tallyAt_pos h
    rw [L_tc, lv_bar]; exact ⟨Finset.mem_singleton_self _, by decide⟩

/-- The staging semaphores sit at level 0: a device may wait on them owing what it owes at launch, or nothing. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_lv hg).1)
      (fun p hp => by
        rw [Finset.mem_singleton.mp hp]
        show (if 18 ≤ q.val ∧ q.val < 34 then 2 else if 50 ≤ q.val ∧ q.val < 66 then 3 else 0) ≤ 0
        rw [if_neg (by omega), if_neg (by omega)])
      (fun g u hg => (O₀_lv hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

theorem share_eq (c : Dev nD) (w : Fin cfg0.W) : (dats m ρ 0 c).share w = fullShare := by unfold Dat.share; split <;> rfl

/-- Each windowed array after the run: the argument array, and the result array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's two arrays at `finalA`. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu0 m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the whole array, row by row from the device it came from. -/
theorem finalA_o (c : Dev nD) : finalA m ρ c (1 : Fin 2) = Fo m ρ c := by
  unfold finalA
  rw [show cfg0.N = (t₀ : Fin cfg0.N).val + 1 from rfl, (dats m ρ 0 c).arrAt_succ (1 : Fin 2) t₀, if_pos (show (cfg0.win (1 : Fin 2)).flush t₀ = true from rfl)]
  exact Memref.write_access_unit_zero_univ (Elt F) main_v1 (funext fun a => Nat.zero_mul _) _ _ _

/-- info: 'Cert.KernelIdeal.AG.creds' depends on axioms: [propext, Classical.choice, Quot.sound] -/
#guard_msgs in #print axioms creds
/-- info: 'Cert.KernelIdeal.AG.start_intro' depends on axioms: [propext, Classical.choice, Quot.sound] -/
#guard_msgs in #print axioms start_intro
/-- info: 'Cert.KernelIdeal.AG.phi1_exit' depends on axioms: [propext, Classical.choice, Quot.sound] -/
#guard_msgs in #print axioms phi1_exit
/-- info: 'Cert.KernelIdeal.AG.waits' depends on axioms: [propext, Classical.choice, Quot.sound] -/
#guard_msgs in #print axioms waits
/-- info: 'Cert.KernelIdeal.AG.finalA_x' depends on axioms: [propext, Classical.choice, Quot.sound] -/
#guard_msgs in #print axioms finalA_x
/-- info: 'Cert.KernelIdeal.AG.finalA_o' depends on axioms: [propext, Classical.choice, Quot.sound] -/
#guard_msgs in #print axioms finalA_o

end Cert.KernelIdeal.AG

end
-- ==== Proof.W.Mesh.lean ====
/-
  The mesh of the all-gather: four devices in a 2 × 2 grid, device `2 i + j` at row `i`, column `j`.
  Each device holds rows `[1024 i, 1024 i + 1024)` of a 2048 × 512 array (both devices of a row hold the same
  block) and must end holding all 2048 rows. Device `(i, j)` sends half `j` of its block (512 rows, in 16
  chunks of 32 rows) to the other row's device of its column, copies its own block into place, and passes each
  chunk it receives on to the other device of its own row. Here: the two neighbours, the semaphores by number,
  and the row slices each copy reads or writes.
-/
import proofs.«900077_g7700000000000078_dist_ag_v7x_xy2x2_x_m1024_n512_f32_1_alg».proof.Proof.Gen.Kernel
import proofs.«900077_g7700000000000078_dist_ag_v7x_xy2x2_x_m1024_n512_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two neighbours -/

/-- The device of the other row in the same column: `(i, j) ↦ (1 - i, j)`. -/
def xn (c : Dev nD) : Dev nD := ⟨(c.val + 2) % 4, Nat.mod_lt _ (by decide)⟩
/-- The device of the same row in the other column: `(i, j) ↦ (i, 1 - j)`. -/
def yn (c : Dev nD) : Dev nD := ⟨2 * (c.val / 2) + (c.val + 1) % 2, by have h : c.val < 4 := c.isLt; show _ < 4; omega⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide

def xSwap : Dev nD ≃ Dev nD := ⟨xn, xn, xn_xn, xn_xn⟩
def ySwap : Dev nD ≃ Dev nD := ⟨yn, yn, yn_yn, yn_yn⟩

/-- The printed device chains in closed form: the column mate across rows, and the row mate. -/
theorem xdev_val (c : Dev nD) : ((c.val % 2) + 2) - 2 * (c.val / 2) = (xn c).val := by revert c; decide
theorem ydev_val (c : Dev nD) : (2 * (c.val / 2) + 1) - (c.val % 2) = (yn c).val := by revert c; decide

/-! ## Semaphores and cells -/

/-- The runtime's barrier semaphore of collective id 0. -/
abbrev barS : Sem sig := (SemArray.scalar (sig.barrier 0 rfl) : Sems sig S_).sem

/-- Chunk `k`'s semaphores: the send and receive sides of the transfer across rows, then of the one along the row;
    and the local copy's. -/
def sxS (k : Fin 16) : DmaSem sig := ⟨2 + k.val, by have := k.isLt; show _ < 67; omega⟩
def rxS (k : Fin 16) : DmaSem sig := ⟨18 + k.val, by have := k.isLt; show _ < 67; omega⟩
def syS (k : Fin 16) : DmaSem sig := ⟨34 + k.val, by have := k.isLt; show _ < 67; omega⟩
def ryS (k : Fin 16) : DmaSem sig := ⟨50 + k.val, by have := k.isLt; show _ < 67; omega⟩
def cpS : DmaSem sig := ⟨66, by show 66 < 67; decide⟩

abbrev barCell (c : Dev nD) : GSem nD τ sig := ((c : Thread nD τ), .reg barS)
abbrev sxCell (c : Dev nD) (k : Fin 16) : GSem nD τ sig := ((c : Thread nD τ), .dma (sxS k))
abbrev rxCell (c : Dev nD) (k : Fin 16) : GSem nD τ sig := ((c : Thread nD τ), .dma (rxS k))
abbrev syCell (c : Dev nD) (k : Fin 16) : GSem nD τ sig := ((c : Thread nD τ), .dma (syS k))
abbrev ryCell (c : Dev nD) (k : Fin 16) : GSem nD τ sig := ((c : Thread nD τ), .dma (ryS k))
abbrev cpCell (c : Dev nD) : GSem nD τ sig := ((c : Thread nD τ), .dma cpS)

/-! ## The buffers and the row slices -/

/-- The staged block of `x` and the staged result. -/
abbrev xM : Memref sig .tc .vmem S1024x512 .f32 := Memref.whole cc0_stg0_0
abbrev oM : Memref sig .tc .vmem S2048x512 .f32 := Memref.whole cc0_stg1_0

/-- The word the kernel adds for chunk `k`: `32 k`. -/
abbrev chw (k : Fin 16) : BitVec 32 := BitVec.ofNat 32 (32 * k.val)

/-- Chunk `k` of the half of its block device `c` sends across rows. -/
abbrev xSl (c : Dev nD) (k : Fin 16) : Memref sig .tc .vmem S32x512 .f32 :=
  xM.slice (Rect.unit (s := S1024x512) (k0_off2 c (chw k)) S32x512.size (k0_off2_inb c k)) (fun _ => rfl)
/-- Where that chunk lands in a result buffer: rows `1024 i + 512 j + 32 k` for the sender `c = (i, j)`. -/
abbrev oSlA (c : Dev nD) (k : Fin 16) : Memref sig .tc .vmem S32x512 .f32 :=
  oM.slice (Rect.unit (s := S2048x512) (k0_off1 c (chw k)) S32x512.size (k0_off1_inb c k)) (fun _ => rfl)
/-- The chunk device `c` passes on along its row, the same rows in both result buffers:
    `1024 (1 - i) + 512 j + 32 k`. -/
abbrev oSlB (c : Dev nD) (k : Fin 16) : Memref sig .tc .vmem S32x512 .f32 :=
  oM.slice (Rect.unit (s := S2048x512) (k0_off4 c (chw k)) S32x512.size (k0_off4_inb c k)) (fun _ => rfl)
/-- Where device `c`'s own block goes: rows `[1024 i, 1024 i + 1024)`. -/
abbrev oSlL (c : Dev nD) : Memref sig .tc .vmem S1024x512 .f32 :=
  oM.slice (Rect.unit (s := S2048x512) (k0_off3 c) S1024x512.size (k0_off3_inb c)) (fun _ => rfl)

/-- One chunk's credit on a DMA semaphore, and the own block's. -/
abbrev N : ℕ := (oSlA 0 0).view.dmaCredit
abbrev NL : ℕ := (oSlL 0).view.dmaCredit

end Cert.Kernel.AG

end
-- ==== Proof.W.Sched.lean ====
/-
  What every copy of the all-gather moves, and the protocol's schedule.

  Device `c = (i, j)` ends with the whole array in its result buffer: rows `[1024 i, 1024 i + 1024)` are its own
  block; rows `1024 (1 - i) + 512 j + …` came straight from the device across rows, `(1 - i, j)`, which sends half `j`
  of its block; rows `1024 (1 - i) + 512 (1 - j) + …` came from `(1 - i, 1 - j)` by way of the row mate `(i, 1 - j)`,
  which passes on what it receives. `Fo c` is that buffer, row by row from the block of the device it came from.

  One round per semaphore. A barrier semaphore has two duties of one unit: `false`, the signal of the device across
  rows, which hands over the 16 row slices of its own result buffer that this device's direct copies fill, and `true`,
  the row mate's signal, which hands over the 16 slices the passed-on copies fill. Every DMA semaphore has one duty of
  one slice's credit: a receive side hands its owner the slice that landed, holding `Fo`'s rows; a send side hands the
  source back.
-/
import proofs.«900077_g7700000000000078_dist_ag_v7x_xy2x2_x_m1024_n512_f32_1_alg».proof.Proof.W.Mesh
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The device whose block holds row `r` of device `c`'s result. -/
def srcDev (c : Dev nD) (r : ℕ) : Dev nD :=
  if r / 1024 = c.val / 2 then c else if (r % 1024) / 512 = c.val % 2 then xn c else xn (yn c)

/-- Device `c`'s result buffer when the kernel is done. -/
def Fo (c : Dev nD) : (cc0_stg1_0 : Ref sig .tc).ty.Contents (Elt F) :=
  fun i => xstg m ρ (srcDev c (i 0).val)
    (ValueIdx.ix2 (n0 := 1024) (n1 := 512) ⟨(i 0).val % 1024, Nat.mod_lt _ (by decide)⟩ ⟨(i 1).val, (i 1).isLt⟩)

/-- The two shares of the staged block: the local copy reads through the left one, the 16 direct copies through
    the right one. -/
abbrev qL : PosShare TreeShare := fullShare.left
abbrev qA : PosShare TreeShare := fullShare.right

/-! ## Payloads -/

/-- The 32 rows of a result buffer from row `off 0`. -/
abbrev oSl (off : Fin 2 → ℕ) (h : ∀ a, off a + S32x512.size a ≤ S2048x512.size a) : Memref sig .tc .vmem S32x512 .f32 :=
  oM.slice (Rect.unit (s := S2048x512) off S32x512.size h) (fun _ => rfl)
/-- A row slice of device `d`'s result buffer, at some contents. -/
def oAny (d : Dev nD) (off : Fin 2 → ℕ) (h : ∀ a, off a + S32x512.size a ≤ S2048x512.size a) : sProp 𝕄 :=
  iprop(∃ f : Buf (Elt F) ((oSl off h).view.loc (d : Thread nD τ)), (oSl off h).view.loc (d : Thread nD τ) ↦[(oSl off h).view.set]{fullShare} f)
/-- The same holding `Fo d`'s rows. -/
def oAt (d : Dev nD) (off : Fin 2 → ℕ) (h : ∀ a, off a + S32x512.size a ≤ S2048x512.size a) : sProp 𝕄 :=
  (oSl off h).view.loc (d : Thread nD τ) ↦[(oSl off h).view.set]{fullShare} Fo m ρ d

/-- What the device across rows hands `c` with its barrier signal: the slices `c`'s direct copies fill. -/
def barPayX (c : Dev nD) : sProp 𝕄 :=
  bigSep Finset.univ fun k : Fin 16 => oAny (xn c) (k0_off1 c (chw k)) (k0_off1_inb c k)
/-- What the row mate hands `c`: the slices `c`'s passed-on copies fill. -/
def barPayY (c : Dev nD) : sProp 𝕄 :=
  bigSep Finset.univ fun k : Fin 16 => oAny (yn c) (k0_off4 c (chw k)) (k0_off4_inb c k)

def sxPay (c : Dev nD) (k : Fin 16) : sProp 𝕄 :=
  (xSl c k).view.loc (c : Thread nD τ) ↦[(xSl c k).view.set]{qA} xstg m ρ c
def rxPay (c : Dev nD) (k : Fin 16) : sProp 𝕄 := oAt m ρ c (k0_off4 c (chw k)) (k0_off4_inb c k)
def syPay (c : Dev nD) (k : Fin 16) : sProp 𝕄 := oAt m ρ c (k0_off4 c (chw k)) (k0_off4_inb c k)
def ryPay (c : Dev nD) (k : Fin 16) : sProp 𝕄 := oAt m ρ c (k0_off4 (yn c) (chw k)) (k0_off4_inb (yn c) k)
def cpPay (c : Dev nD) : sProp 𝕄 :=
  iprop(((oSlL c).view.loc (c : Thread nD τ) ↦[(oSlL c).view.set]{fullShare} Fo m ρ c)
    ∗ (xM.view.loc (c : Thread nD τ) ↦[xM.view.set]{qL} xstg m ρ c))

/-- Chunk index of a DMA semaphore of a 16-array based at `b`. -/
def chunkOf (b : ℕ) (q : DmaSem sig) : Fin 16 := ⟨(q.val - b) % 16, Nat.mod_lt _ (by decide)⟩

theorem chunkOf_sx (k : Fin 16) : chunkOf 2 (sxS k) = k := Fin.ext (by have := k.isLt; show (2 + k.val - 2) % 16 = k.val; omega)
theorem chunkOf_rx (k : Fin 16) : chunkOf 18 (rxS k) = k := Fin.ext (by have := k.isLt; show (18 + k.val - 18) % 16 = k.val; omega)
theorem chunkOf_sy (k : Fin 16) : chunkOf 34 (syS k) = k := Fin.ext (by have := k.isLt; show (34 + k.val - 34) % 16 = k.val; omega)
theorem chunkOf_ry (k : Fin 16) : chunkOf 50 (ryS k) = k := Fin.ext (by have := k.isLt; show (50 + k.val - 50) % 16 = k.val; omega)

/-- The payload of a DMA semaphore's one duty, by the semaphore's number. -/
def dmaPay (c : Dev nD) (q : DmaSem sig) : sProp 𝕄 :=
  if q.val < 2 then iprop(emp)
  else if q.val < 18 then sxPay m ρ c (chunkOf 2 q)
  else if q.val < 34 then rxPay m ρ c (chunkOf 18 q)
  else if q.val < 50 then syPay m ρ c (chunkOf 34 q)
  else if q.val < 66 then ryPay m ρ c (chunkOf 50 q)
  else cpPay m ρ c

/-! ## The schedule -/

def agRd : Rounds.Schedule (GSem nD τ sig) Bool 𝕄 where
  duties g r :=
    if r = 0 ∧ g.1.2 = .tc then
      match g.2 with
      | .reg s => if s = barS then Finset.univ else ∅
      | .dma q => if 2 ≤ q.val then {false} else ∅
    else ∅
  unitless _ := False
  amount g _ _ := match g.2 with
    | .reg _ => 1
    | .dma q => if q = cpS then NL else N
  payload g _ d := match g.2 with
    | .reg _ => if d then barPayY g.1.1 else barPayX g.1.1
    | .dma q => dmaPay m ρ g.1.1 q
  amount_pos g _ _ _ := by
    rcases g with ⟨t, sm⟩
    cases sm with
    | reg s => exact Nat.one_pos
    | dma q =>
      show 0 < (if q = cpS then NL else N)
      split
      · exact View.dmaCredit_pos _ (by decide)
      · exact View.dmaCredit_pos _ (by decide)

instance agRd_payload_storable (g : GSem nD τ sig) (r : ℕ) (d : Bool) :
    BI.Storable (upEmb : UEmb _ 𝕄) ((agRd (F := F) m ρ).payload g r d) := by
  rcases g with ⟨t, sm⟩
  cases sm with
  | reg s =>
    show BI.Storable upEmb (if d then barPayY t.1 else barPayX t.1)
    unfold barPayY barPayX oAny
    split <;> infer_instance
  | dma q =>
    show BI.Storable upEmb (dmaPay m ρ t.1 q)
    unfold dmaPay sxPay rxPay syPay ryPay cpPay oAt
    (repeat' split) <;> infer_instance

section Tables
variable (c : Dev nD) (k : Fin 16)

omit [FloatOps F] in
theorem duties_bar : (agRd (F := F) m ρ).duties (barCell c) 0 = Finset.univ := by
  dsimp only [agRd]; rw [if_pos ⟨rfl, rfl⟩]; exact if_pos rfl
omit [FloatOps F] in
theorem duties_dma (q : DmaSem sig) (hq : 2 ≤ q.val) : (agRd (F := F) m ρ).duties ((c : Thread nD τ), .dma q) 0 = {false} := by
  dsimp only [agRd]; rw [if_pos ⟨rfl, rfl⟩]; exact if_pos hq
omit [FloatOps F] in
theorem duties_sx : (agRd (F := F) m ρ).duties (sxCell c k) 0 = {false} := duties_dma m ρ c _ (Nat.le_add_right _ _)
omit [FloatOps F] in
theorem duties_rx : (agRd (F := F) m ρ).duties (rxCell c k) 0 = {false} := duties_dma m ρ c _ (by show 2 ≤ 18 + k.val; omega)
omit [FloatOps F] in
theorem duties_sy : (agRd (F := F) m ρ).duties (syCell c k) 0 = {false} := duties_dma m ρ c _ (by show 2 ≤ 34 + k.val; omega)
omit [FloatOps F] in
theorem duties_ry : (agRd (F := F) m ρ).duties (ryCell c k) 0 = {false} := duties_dma m ρ c _ (by show 2 ≤ 50 + k.val; omega)
omit [FloatOps F] in
theorem duties_cp : (agRd (F := F) m ρ).duties (cpCell c) 0 = {false} := duties_dma m ρ c _ (by show 2 ≤ 66; omega)
omit [FloatOps F] in
theorem duties_later (g : GSem nD τ sig) : ∀ r, 1 ≤ r → (agRd (F := F) m ρ).duties g r = ∅ :=
  fun r hr => by dsimp only [agRd]; rw [if_neg fun h => by omega]

omit [FloatOps F] in
theorem amount_bar (d : Bool) : (agRd (F := F) m ρ).amount (barCell c) 0 d = 1 := rfl
omit [FloatOps F] in
theorem amount_dma (q : DmaSem sig) (hq : q ≠ cpS) (d : Bool) : (agRd (F := F) m ρ).amount ((c : Thread nD τ), .dma q) 0 d = N := by
  dsimp only [agRd]; exact if_neg hq
theorem sx_ne_cp : sxS k ≠ cpS := fun h => by have := congrArg Fin.val h; have := k.isLt; simp only [sxS, cpS] at *; omega
theorem rx_ne_cp : rxS k ≠ cpS := fun h => by have := congrArg Fin.val h; have := k.isLt; simp only [rxS, cpS] at *; omega
theorem sy_ne_cp : syS k ≠ cpS := fun h => by have := congrArg Fin.val h; have := k.isLt; simp only [syS, cpS] at *; omega
theorem ry_ne_cp : ryS k ≠ cpS := fun h => by have := congrArg Fin.val h; have := k.isLt; simp only [ryS, cpS] at *; omega
omit [FloatOps F] in
theorem amount_sx (d : Bool) : (agRd (F := F) m ρ).amount (sxCell c k) 0 d = N := amount_dma m ρ c _ (sx_ne_cp k) d
omit [FloatOps F] in
theorem amount_rx (d : Bool) : (agRd (F := F) m ρ).amount (rxCell c k) 0 d = N := amount_dma m ρ c _ (rx_ne_cp k) d
omit [FloatOps F] in
theorem amount_sy (d : Bool) : (agRd (F := F) m ρ).amount (syCell c k) 0 d = N := amount_dma m ρ c _ (sy_ne_cp k) d
omit [FloatOps F] in
theorem amount_ry (d : Bool) : (agRd (F := F) m ρ).amount (ryCell c k) 0 d = N := amount_dma m ρ c _ (ry_ne_cp k) d
omit [FloatOps F] in
theorem amount_cp (d : Bool) : (agRd (F := F) m ρ).amount (cpCell c) 0 d = NL := by dsimp only [agRd]; exact if_pos rfl

omit [FloatOps F] in
/-- A round's expected units, as the sum over its duties: stated over any schedule and cell, then only instantiated. -/
theorem expect_sum (Rd : Rounds.Schedule (GSem nD τ sig) Bool 𝕄) (g : GSem nD τ sig) (r : ℕ) :
    Rd.expect g r = ∑ d ∈ Rd.duties g r, Rd.amount g r d := rfl

omit [FloatOps F] in
theorem expect_bar : (agRd (F := F) m ρ).expect (barCell c) 0 = 2 := by
  rw [expect_sum, duties_bar, Finset.sum_congr rfl fun d _ => amount_bar m ρ c d, Finset.sum_const, Finset.card_univ, Fintype.card_bool, smul_eq_mul]
omit [FloatOps F] in
theorem expect_sx : (agRd (F := F) m ρ).expect (sxCell c k) 0 = N := by
  rw [expect_sum, duties_sx, Finset.sum_singleton, amount_sx]
omit [FloatOps F] in
theorem expect_rx : (agRd (F := F) m ρ).expect (rxCell c k) 0 = N := by
  rw [expect_sum, duties_rx, Finset.sum_singleton, amount_rx]
omit [FloatOps F] in
theorem expect_sy : (agRd (F := F) m ρ).expect (syCell c k) 0 = N := by
  rw [expect_sum, duties_sy, Finset.sum_singleton, amount_sy]
omit [FloatOps F] in
theorem expect_ry : (agRd (F := F) m ρ).expect (ryCell c k) 0 = N := by
  rw [expect_sum, duties_ry, Finset.sum_singleton, amount_ry]
omit [FloatOps F] in
theorem expect_cp : (agRd (F := F) m ρ).expect (cpCell c) 0 = NL := by
  rw [expect_sum, duties_cp, Finset.sum_singleton, amount_cp]

omit [FloatOps F] in
theorem payload_bar_false : (agRd (F := F) m ρ).payload (barCell c) 0 false = barPayX c := by
  dsimp only [agRd]; exact if_neg Bool.false_ne_true
omit [FloatOps F] in
theorem payload_bar_true : (agRd (F := F) m ρ).payload (barCell c) 0 true = barPayY c := by
  dsimp only [agRd]; exact if_pos rfl
omit [FloatOps F] in
theorem payload_sx (d : Bool) : (agRd (F := F) m ρ).payload (sxCell c k) 0 d = sxPay m ρ c k := by
  have := k.isLt
  show dmaPay m ρ c (sxS k) = _
  unfold dmaPay
  rw [if_neg (by show ¬ 2 + k.val < 2; omega), if_pos (by show 2 + k.val < 18; omega), chunkOf_sx]
omit [FloatOps F] in
theorem payload_rx (d : Bool) : (agRd (F := F) m ρ).payload (rxCell c k) 0 d = rxPay m ρ c k := by
  have := k.isLt
  show dmaPay m ρ c (rxS k) = _
  unfold dmaPay
  rw [if_neg (by show ¬ 18 + k.val < 2; omega), if_neg (by show ¬ 18 + k.val < 18; omega), if_pos (by show 18 + k.val < 34; omega), chunkOf_rx]
omit [FloatOps F] in
theorem payload_sy (d : Bool) : (agRd (F := F) m ρ).payload (syCell c k) 0 d = syPay m ρ c k := by
  have := k.isLt
  show dmaPay m ρ c (syS k) = _
  unfold dmaPay
  rw [if_neg (by show ¬ 34 + k.val < 2; omega), if_neg (by show ¬ 34 + k.val < 18; omega), if_neg (by show ¬ 34 + k.val < 34; omega),
    if_pos (by show 34 + k.val < 50; omega), chunkOf_sy]
omit [FloatOps F] in
theorem payload_ry (d : Bool) : (agRd (F := F) m ρ).payload (ryCell c k) 0 d = ryPay m ρ c k := by
  have := k.isLt
  show dmaPay m ρ c (ryS k) = _
  unfold dmaPay
  rw [if_neg (by show ¬ 50 + k.val < 2; omega), if_neg (by show ¬ 50 + k.val < 18; omega), if_neg (by show ¬ 50 + k.val < 34; omega),
    if_neg (by show ¬ 50 + k.val < 50; omega), if_pos (by show 50 + k.val < 66; omega), chunkOf_ry]
omit [FloatOps F] in
theorem payload_cp (d : Bool) : (agRd (F := F) m ρ).payload (cpCell c) 0 d = cpPay m ρ c := by
  show dmaPay m ρ c cpS = _
  unfold dmaPay
  rw [if_neg (by show ¬ 66 < 2; omega), if_neg (by show ¬ 66 < 18; omega), if_neg (by show ¬ 66 < 34; omega),
    if_neg (by show ¬ 66 < 50; omega), if_neg (by show ¬ 66 < 66; omega)]

omit [FloatOps F] in
/-- The rest of the barrier's round, no duty taken: both neighbours' payloads. -/
theorem rest_bar : bigSep ((agRd (F := F) m ρ).duties (barCell c) 0 \ ∅) (fun d => (agRd (F := F) m ρ).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
omit [FloatOps F] in
theorem rest_sx : bigSep ((agRd (F := F) m ρ).duties (sxCell c k) 0 \ ∅) (fun d => (agRd (F := F) m ρ).payload (sxCell c k) 0 d) = sxPay m ρ c k := by
  rw [Finset.sdiff_empty, duties_sx, bigSep_singleton, payload_sx]
omit [FloatOps F] in
theorem rest_rx : bigSep ((agRd (F := F) m ρ).duties (rxCell c k) 0 \ ∅) (fun d => (agRd (F := F) m ρ).payload (rxCell c k) 0 d) = rxPay m ρ c k := by
  rw [Finset.sdiff_empty, duties_rx, bigSep_singleton, payload_rx]
omit [FloatOps F] in
theorem rest_sy : bigSep ((agRd (F := F) m ρ).duties (syCell c k) 0 \ ∅) (fun d => (agRd (F := F) m ρ).payload (syCell c k) 0 d) = syPay m ρ c k := by
  rw [Finset.sdiff_empty, duties_sy, bigSep_singleton, payload_sy]
omit [FloatOps F] in
theorem rest_ry : bigSep ((agRd (F := F) m ρ).duties (ryCell c k) 0 \ ∅) (fun d => (agRd (F := F) m ρ).payload (ryCell c k) 0 d) = ryPay m ρ c k := by
  rw [Finset.sdiff_empty, duties_ry, bigSep_singleton, payload_ry]
omit [FloatOps F] in
theorem rest_cp : bigSep ((agRd (F := F) m ρ).duties (cpCell c) 0 \ ∅) (fun d => (agRd (F := F) m ρ).payload (cpCell c) 0 d) = cpPay m ρ c := by
  rw [Finset.sdiff_empty, duties_cp, bigSep_singleton, payload_cp]

end Tables

end Cert.Kernel.AG

end
-- ==== Proof.W.Pieces.lean ====
/-
  The row geometry of the all-gather: that each copy lands the rows `Fo` names, and how a result buffer and a staged
  block are cut into the pieces the copies hold.
-/
import proofs.«900077_g7700000000000078_dist_ag_v7x_xy2x2_x_m1024_n512_f32_1_alg».proof.Proof.W.Sched
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Which rows -/

/-- The rows a device's direct copy fills on the device across are the rows that device passes on. -/
theorem offA_xn (c : Dev nD) (k : Fin 16) : k0_off1 (xn c) (chw k) = k0_off4 c (chw k) := by
  rw [k0_off1_eq, k0_off4_eq]; revert c k; decide

/-- Row and column of the two neighbours. -/
private theorem xn_div (c : Dev nD) : (xn c).val / 2 = 1 - c.val / 2 := by revert c; decide
private theorem xn_mod (c : Dev nD) : (xn c).val % 2 = c.val % 2 := by revert c; decide
private theorem yn_div (c : Dev nD) : (yn c).val / 2 = c.val / 2 := by revert c; decide
private theorem yn_mod (c : Dev nD) : (yn c).val % 2 = 1 - c.val % 2 := by revert c; decide

/-- The printed offsets, coordinate by coordinate. -/
private theorem off1_0 (d : Dev nD) (k : Fin 16) : k0_off1 d (chw k) 0 = 1024 * (d.val / 2) + 512 * (d.val % 2) + 32 * k.val := by
  rw [k0_off1_eq]; rfl
private theorem off1_1 (d : Dev nD) (k : Fin 16) : k0_off1 d (chw k) 1 = 0 := by rw [k0_off1_eq]; rfl
private theorem off2_0 (d : Dev nD) (k : Fin 16) : k0_off2 d (chw k) 0 = 512 * (d.val % 2) + 32 * k.val := by rw [k0_off2_eq]; rfl
private theorem off2_1 (d : Dev nD) (k : Fin 16) : k0_off2 d (chw k) 1 = 0 := by rw [k0_off2_eq]; rfl
private theorem off3_0 (d : Dev nD) : k0_off3 d 0 = 1024 * (d.val / 2) := by rw [k0_off3_eq]; rfl
private theorem off3_1 (d : Dev nD) : k0_off3 d 1 = 0 := by rw [k0_off3_eq]; rfl
private theorem off4_0 (d : Dev nD) (k : Fin 16) : k0_off4 d (chw k) 0 = (512 * (d.val % 2) + 32 * k.val + 1024) - 1024 * (d.val / 2) := by
  rw [k0_off4_eq]; rfl
private theorem off4_1 (d : Dev nD) (k : Fin 16) : k0_off4 d (chw k) 1 = 0 := by rw [k0_off4_eq]; rfl

/-- Which device a row of a result comes from, by the row's place. -/
private theorem srcDev_own (c : Dev nD) (r : ℕ) (h : r / 1024 = c.val / 2) : srcDev c r = c := if_pos h
private theorem srcDev_x (c : Dev nD) (r : ℕ) (h : r / 1024 ≠ c.val / 2) (h' : (r % 1024) / 512 = c.val % 2) : srcDev c r = xn c := by
  unfold srcDev; rw [if_neg h, if_pos h']
private theorem srcDev_xy (c : Dev nD) (r : ℕ) (h : r / 1024 ≠ c.val / 2) (h' : (r % 1024) / 512 ≠ c.val % 2) :
    srcDev c r = xn (yn c) := by
  unfold srcDev; rw [if_neg h, if_neg h']

omit [FloatOps F] in
/-- An element of `Fo c` is the element of the source device's block at the row modulo 1024. -/
private theorem Fo_at (c d : Dev nD) (i : (cc0_stg1_0 : Ref sig .tc).ty.Idx) (j : (cc0_stg0_0 : Ref sig .tc).ty.Idx)
    (hd : srcDev c (i 0).val = d) (h0 : (j 0).val = (i 0).val % 1024) (h1 : (j 1).val = (i 1).val) :
    Fo m ρ c i = xstg m ρ d j := by
  show xstg m ρ (srcDev c (i 0).val) _ = xstg m ρ d j
  rw [hd]
  congr 1
  funext a
  match a with
  | ⟨0, _⟩ => exact Fin.ext h0.symm
  | ⟨1, _⟩ => exact Fin.ext h1.symm

/-- A coordinate of a row slice's element in its buffer: the offset plus the local coordinate. -/
private theorem oSl_emb_val (off : Fin 2 → ℕ) (h : ∀ a, off a + S32x512.size a ≤ S2048x512.size a) (y : S32x512.Idx) (a : Fin 2) :
    (((oSl off h).view.emb y) a).val = off a + (y a).val := by
  show off a + 1 * (y a).val = _
  rw [Nat.one_mul]
private theorem xSl_emb_val (c : Dev nD) (k : Fin 16) (y : S32x512.Idx) (a : Fin 2) :
    (((xSl c k).view.emb y) a).val = k0_off2 c (chw k) a + (y a).val := by
  show k0_off2 c (chw k) a + 1 * (y a).val = _
  rw [Nat.one_mul]
private theorem oSlL_emb_val (c : Dev nD) (y : S1024x512.Idx) (a : Fin 2) :
    (((oSlL c).view.emb y) a).val = k0_off3 c a + (y a).val := by
  show k0_off3 c a + 1 * (y a).val = _
  rw [Nat.one_mul]

/-! ## What lands -/

omit [FloatOps F] in
/-- A row slice written whole with a payload that is `Fo d` there holds `Fo d`'s rows, at whichever spelling of
    the offsets. -/
private theorem land_gen (d : Dev nD) (off off' : Fin 2 → ℕ) (h : ∀ a, off a + S32x512.size a ≤ S2048x512.size a)
    (h' : ∀ a, off' a + S32x512.size a ≤ S2048x512.size a) (e : off = off')
    (fd : Buf (Elt F) ((oSl off h).view.loc ((d : Dev nD) : Thread nD τ))) (w : S32x512.Idx → Elt F .f32)
    (hw : ∀ y, w y = Fo m ρ d ((oSl off h).view.emb y)) :
    ((oSl off h).view.loc ((d : Dev nD) : Thread nD τ) ↦[(oSl off h).view.set]{fullShare}
        (oSl off h).view.write (Elt F) fd w Finset.univ : sProp 𝕄)
      ⊢ oAt m ρ d off' h' := by
  subst e
  unfold oAt
  refine Entails.of_eq (pointsTo_congr fun i hi => ?_)
  obtain ⟨y, rfl⟩ := View.exists_emb_of_mem_set _ hi
  rw [View.write_emb_of_mem _ _ (Finset.mem_univ y), hw y]
  rfl

omit [FloatOps F] in
/-- The direct copy of chunk `k` from `c` lands, on the device across rows, the rows `Fo` names there. -/
theorem landA (c : Dev nD) (k : Fin 16) (fd : Buf (Elt F) ((oSlA c k).view.loc ((xn c : Dev nD) : Thread nD τ))) :
    ((oSlA c k).view.loc ((xn c : Dev nD) : Thread nD τ) ↦[(oSlA c k).view.set]{fullShare}
        (oSlA c k).view.write (Elt F) fd ((xSl c k).view.read (Elt F) (xstg m ρ c)) Finset.univ : sProp 𝕄)
      ⊢ rxPay m ρ (xn c) k := by
  have hoff : k0_off1 c (chw k) = k0_off4 (xn c) (chw k) := by
    have := offA_xn (xn c) k; rwa [xn_xn] at this
  refine land_gen m ρ (xn c) (k0_off1 c (chw k)) (k0_off4 (xn c) (chw k)) (k0_off1_inb c k) (k0_off4_inb (xn c) k) hoff fd _ fun y => ?_
  have hc : c.val < 4 := c.isLt
  have hk := k.isLt
  have hy0 : (y 0).val < 32 := (y 0).isLt
  have hy1 : (y 1).val < 512 := (y 1).isLt
  have e0 := oSl_emb_val (k0_off1 c (chw k)) (k0_off1_inb c k) y 0
  have e1 := oSl_emb_val (k0_off1 c (chw k)) (k0_off1_inb c k) y 1
  have x0 := xSl_emb_val c k y 0
  have x1 := xSl_emb_val c k y 1
  rw [off1_0] at e0; rw [off1_1] at e1; rw [off2_0] at x0; rw [off2_1] at x1
  have hxd := xn_div c
  have hxm := xn_mod c
  rw [Fo_at m ρ (xn c) c _ ((xSl c k).view.emb y) ?_ ?_ ?_]
  · rfl
  · rw [srcDev_x (xn c) _ (by rw [e0, hxd]; omega) (by rw [e0, hxm]; omega), xn_xn]
  · rw [x0, e0]; omega
  · rw [x1, e1]

omit [FloatOps F] in
/-- Two devices whose source for a row is the same hold the same element there. -/
private theorem Fo_congr (c c' : Dev nD) (i : (cc0_stg1_0 : Ref sig .tc).ty.Idx)
    (h : srcDev c (i 0).val = srcDev c' (i 0).val) : Fo m ρ c i = Fo m ρ c' i := by
  show xstg m ρ (srcDev c (i 0).val) _ = xstg m ρ (srcDev c' (i 0).val) _
  rw [h]

omit [FloatOps F] in
/-- The chunk `c` passes on lands, on its row mate, the rows `Fo` names there. -/
theorem landB (c : Dev nD) (k : Fin 16) (fd : Buf (Elt F) ((oSlB c k).view.loc ((yn c : Dev nD) : Thread nD τ))) :
    ((oSlB c k).view.loc ((yn c : Dev nD) : Thread nD τ) ↦[(oSlB c k).view.set]{fullShare}
        (oSlB c k).view.write (Elt F) fd ((oSlB c k).view.read (Elt F) (Fo m ρ c)) Finset.univ : sProp 𝕄)
      ⊢ ryPay m ρ (yn c) k := by
  have hoff : k0_off4 c (chw k) = k0_off4 (yn (yn c)) (chw k) := by rw [yn_yn]
  refine land_gen m ρ (yn c) (k0_off4 c (chw k)) (k0_off4 (yn (yn c)) (chw k)) (k0_off4_inb c k) (k0_off4_inb (yn (yn c)) k) hoff fd _ fun y => ?_
  have hc : c.val < 4 := c.isLt
  have hk := k.isLt
  have hy0 : (y 0).val < 32 := (y 0).isLt
  have e0 := oSl_emb_val (k0_off4 c (chw k)) (k0_off4_inb c k) y 0
  rw [off4_0] at e0
  have hyd := yn_div c
  have hym := yn_mod c
  refine (Fo_congr m ρ c (yn c) _ ?_ : _)
  rw [srcDev_x c _ (by rw [e0]; omega) (by rw [e0]; omega),
    srcDev_xy (yn c) _ (by rw [e0, hyd]; omega) (by rw [e0, hym]; omega), yn_yn]

omit [FloatOps F] in
/-- The local copy lands the device's own block where `Fo` has it, and hands the block's share back. -/
theorem landL (c : Dev nD) (fd : Buf (Elt F) ((oSlL c).view.loc (c : Thread nD τ))) :
    iprop(((oSlL c).view.loc (c : Thread nD τ) ↦[(oSlL c).view.set]{fullShare}
          (oSlL c).view.write (Elt F) fd (xM.view.read (Elt F) (xstg m ρ c)) Finset.univ)
        ∗ (xM.view.loc (c : Thread nD τ) ↦[xM.view.set]{qL} xstg m ρ c) : sProp 𝕄)
      ⊢ cpPay m ρ c := by
  unfold cpPay
  refine sep_mono_l (Entails.of_eq (pointsTo_congr fun i hi => ?_))
  obtain ⟨y, rfl⟩ := View.exists_emb_of_mem_set _ hi
  rw [View.write_emb_of_mem _ _ (Finset.mem_univ y)]
  have hc : c.val < 4 := c.isLt
  have hy0 : (y 0).val < 1024 := (y 0).isLt
  have e0 := oSlL_emb_val c y 0
  have e1 := oSlL_emb_val c y 1
  rw [off3_0] at e0; rw [off3_1] at e1
  rw [Fo_at m ρ c c _ y ?_ ?_ ?_]
  · rfl
  · exact srcDev_own c _ (by rw [e0]; omega)
  · rw [e0]; omega
  · rw [e1]; omega

/-! ## Cutting the buffers -/

omit [FloatOps F] in
private theorem eq_of_bi {P Q : sProp 𝕄} (h : P ⊣⊢ Q) : P = Q := BI.equiv_iff.mp ⟨h.1, h.2⟩

/-- In a buffer of 512 columns, a band of whole rows is told by the row alone. -/
private theorem mem_rows {n : ℕ} (off sz : Fin 2 → ℕ) (h : ∀ a, off a + sz a ≤ (⟨2, ![n, 512]⟩ : Shape).size a)
    (h1 : off 1 = 0) (hs : sz 1 = 512) (i : (⟨2, ![n, 512]⟩ : Shape).Idx) :
    i ∈ (Rect.unit (s := ⟨2, ![n, 512]⟩) off sz h).set ↔ off 0 ≤ (i 0).val ∧ (i 0).val < off 0 + sz 0 := by
  rw [Rect.mem_set_unit]
  have hi1 : (i 1).val < 512 := (i 1).isLt
  constructor
  · intro H; exact H 0
  · intro H
    refine Fin.forall_fin_two.mpr ⟨H, ?_, ?_⟩
    · rw [h1]; exact Nat.zero_le _
    · rw [h1, hs]; omega

private theorem mem_oSl (off : Fin 2 → ℕ) (h : ∀ a, off a + S32x512.size a ≤ S2048x512.size a) (h1 : off 1 = 0)
    (i : (cc0_stg1_0 : Ref sig .tc).ty.Idx) :
    i ∈ (oSl off h).view.set ↔ off 0 ≤ (i 0).val ∧ (i 0).val < off 0 + 32 := by
  rw [show (oSl off h).view.set = (Rect.unit (s := S2048x512) off S32x512.size h).set from View.set_slice_whole _ _]
  exact mem_rows off S32x512.size h h1 rfl i

private theorem mem_oSlL (c : Dev nD) (i : (cc0_stg1_0 : Ref sig .tc).ty.Idx) :
    i ∈ (oSlL c).view.set ↔ 1024 * (c.val / 2) ≤ (i 0).val ∧ (i 0).val < 1024 * (c.val / 2) + 1024 := by
  rw [show (oSlL c).view.set = (Rect.unit (s := S2048x512) (k0_off3 c) S1024x512.size (k0_off3_inb c)).set from View.set_slice_whole _ _,
    mem_rows _ _ _ (off3_1 c) rfl, off3_0]
  rfl

private theorem mem_xSl (c : Dev nD) (k : Fin 16) (i : (cc0_stg0_0 : Ref sig .tc).ty.Idx) :
    i ∈ (xSl c k).view.set ↔ 512 * (c.val % 2) + 32 * k.val ≤ (i 0).val ∧ (i 0).val < 512 * (c.val % 2) + 32 * k.val + 32 := by
  rw [show (xSl c k).view.set = (Rect.unit (s := S1024x512) (k0_off2 c (chw k)) S32x512.size (k0_off2_inb c k)).set from View.set_slice_whole _ _,
    mem_rows _ _ _ (off2_1 c k) rfl, off2_0]
  rfl

/-- Two row slices of a result buffer whose rows do not meet are disjoint. -/
private theorem oSl_disj (off off' : Fin 2 → ℕ) (h : ∀ a, off a + S32x512.size a ≤ S2048x512.size a)
    (h' : ∀ a, off' a + S32x512.size a ≤ S2048x512.size a) (h1 : off 1 = 0) (h1' : off' 1 = 0)
    (hsep : off 0 + 32 ≤ off' 0 ∨ off' 0 + 32 ≤ off 0) : Disjoint (oSl off h).view.set (oSl off' h').view.set := by
  rw [Finset.disjoint_left]
  intro i hi hi'
  rw [mem_oSl _ _ h1] at hi
  rw [mem_oSl _ _ h1'] at hi'
  omega

/-- A row slice away from the own block's rows is disjoint from the own block. -/
private theorem oSl_disj_L (c : Dev nD) (off : Fin 2 → ℕ) (h : ∀ a, off a + S32x512.size a ≤ S2048x512.size a) (h1 : off 1 = 0)
    (hsep : off 0 + 32 ≤ 1024 * (c.val / 2) ∨ 1024 * (c.val / 2) + 1024 ≤ off 0) :
    Disjoint (oSl off h).view.set (oSlL c).view.set := by
  rw [Finset.disjoint_left]
  intro i hi hi'
  rw [mem_oSl _ _ h1] at hi
  rw [mem_oSlL] at hi'
  omega

/-- The chunks one device passes on are pairwise disjoint. -/
private theorem off4_disj (d : Dev nD) (k k' : Fin 16) (hne : k ≠ k') :
    Disjoint (oSl (k0_off4 d (chw k)) (k0_off4_inb d k)).view.set (oSl (k0_off4 d (chw k')) (k0_off4_inb d k')).view.set := by
  refine oSl_disj _ _ _ _ (off4_1 d k) (off4_1 d k') ?_
  rw [off4_0, off4_0]
  have hd : d.val < 4 := d.isLt
  have : k.val ≠ k'.val := fun e => hne (Fin.ext e)
  omega

/-- The 33 pieces cover a result buffer: a row is in the own block, or in the half the device across rows fills, or
    in the half the row mate fills. -/
private theorem out_cover (c : Dev nD) :
    (Finset.univ : Finset ((cc0_stg1_0 : Ref sig .tc).ty.Idx)) =
      ((Finset.univ.biUnion fun k : Fin 16 => (oSl (k0_off4 c (chw k)) (k0_off4_inb c k)).view.set)
        ∪ (Finset.univ.biUnion fun k : Fin 16 => (oSl (k0_off4 (yn c) (chw k)) (k0_off4_inb (yn c) k)).view.set))
        ∪ (oSlL c).view.set := by
  ext i
  simp only [Finset.mem_univ, true_iff, Finset.mem_union, Finset.mem_biUnion, true_and]
  have hc : c.val < 4 := c.isLt
  have hi : (i 0).val < 2048 := (i 0).isLt
  have hyd := yn_div c
  have hym := yn_mod c
  have hk : ((i 0).val % 512) / 32 < 16 := by omega
  by_cases h1 : (i 0).val / 1024 = c.val / 2
  · right; rw [mem_oSlL]; omega
  · left
    by_cases h2 : ((i 0).val % 1024) / 512 = c.val % 2
    · left
      refine ⟨⟨_, hk⟩, ?_⟩
      rw [mem_oSl _ _ (off4_1 _ _), off4_0]
      simp only []
      omega
    · right
      refine ⟨⟨_, hk⟩, ?_⟩
      rw [mem_oSl _ _ (off4_1 _ _), off4_0, hyd, hym]
      simp only []
      omega

private theorem out_disj_AB (c : Dev nD) :
    Disjoint (α := Finset ((cc0_stg1_0 : Ref sig .tc).ty.Idx))
      (Finset.univ.biUnion fun k : Fin 16 => (oSl (k0_off4 c (chw k)) (k0_off4_inb c k)).view.set)
      (Finset.univ.biUnion fun k : Fin 16 => (oSl (k0_off4 (yn c) (chw k)) (k0_off4_inb (yn c) k)).view.set) := by
  refine (Finset.disjoint_biUnion_left _ _ _).mpr fun k _ => (Finset.disjoint_biUnion_right _ _ _).mpr fun k' _ => ?_
  refine oSl_disj _ _ _ _ (off4_1 c k) (off4_1 (yn c) k') ?_
  rw [off4_0, off4_0, yn_div, yn_mod]
  have hc : c.val < 4 := c.isLt
  have := k.isLt
  have := k'.isLt
  omega

private theorem out_disj_ABL (c : Dev nD) :
    Disjoint (α := Finset ((cc0_stg1_0 : Ref sig .tc).ty.Idx)) ((Finset.univ.biUnion fun k : Fin 16 => (oSl (k0_off4 c (chw k)) (k0_off4_inb c k)).view.set)
        ∪ (Finset.univ.biUnion fun k : Fin 16 => (oSl (k0_off4 (yn c) (chw k)) (k0_off4_inb (yn c) k)).view.set))
      (oSlL c).view.set := by
  have hc : c.val < 4 := c.isLt
  refine Finset.disjoint_union_left.mpr ⟨(Finset.disjoint_biUnion_left _ _ _).mpr fun k _ => ?_,
    (Finset.disjoint_biUnion_left _ _ _).mpr fun k _ => ?_⟩
  · refine oSl_disj_L c _ _ (off4_1 c k) ?_
    rw [off4_0]; have := k.isLt; omega
  · refine oSl_disj_L c _ _ (off4_1 (yn c) k) ?_
    rw [off4_0, yn_div, yn_mod]; have := k.isLt; omega

omit [FloatOps F] in
/-- A result buffer at contents `f` is its 33 pieces at `f`. -/
private theorem out_pieces (c : Dev nD) (f : Buf (Elt F) ((c : Thread nD τ).loc cc0_stg1_0)) :
    (((c : Thread nD τ).loc cc0_stg1_0) ↦{fullShare} f : sProp 𝕄)
      = iprop((bigSep Finset.univ fun k : Fin 16 =>
            (oSl (k0_off4 c (chw k)) (k0_off4_inb c k)).view.loc (c : Thread nD τ) ↦[(oSl (k0_off4 c (chw k)) (k0_off4_inb c k)).view.set]{fullShare} f)
          ∗ (bigSep Finset.univ fun k : Fin 16 =>
            (oSl (k0_off4 (yn c) (chw k)) (k0_off4_inb (yn c) k)).view.loc (c : Thread nD τ) ↦[(oSl (k0_off4 (yn c) (chw k)) (k0_off4_inb (yn c) k)).view.set]{fullShare} f)
          ∗ ((oSlL c).view.loc (c : Thread nD τ) ↦[(oSlL c).view.set]{fullShare} f)) := by
  have e0 : (((c : Thread nD τ).loc cc0_stg1_0) ↦{fullShare} f : sProp 𝕄)
      = (((c : Thread nD τ).loc cc0_stg1_0) ↦[((Finset.univ.biUnion fun k : Fin 16 => (oSl (k0_off4 c (chw k)) (k0_off4_inb c k)).view.set)
        ∪ (Finset.univ.biUnion fun k : Fin 16 => (oSl (k0_off4 (yn c) (chw k)) (k0_off4_inb (yn c) k)).view.set))
        ∪ (oSlL c).view.set]{fullShare} f) := by
    rw [← out_cover c]
  rw [e0, eq_of_bi (pointsTo_union (out_disj_ABL c)), eq_of_bi (pointsTo_union (out_disj_AB c)),
    pointsTo_biUnion _ _ (fun k _ k' _ hne => off4_disj c k k' hne),
    pointsTo_biUnion _ _ (fun k _ k' _ hne => off4_disj (yn c) k k' hne)]
  exact eq_of_bi sep_assoc

omit [FloatOps F] in
private theorem oAny_intro (d : Dev nD) (off off' : Fin 2 → ℕ) (h : ∀ a, off a + S32x512.size a ≤ S2048x512.size a)
    (h' : ∀ a, off' a + S32x512.size a ≤ S2048x512.size a) (e : off = off')
    (f : Buf (Elt F) ((oSl off h).view.loc ((d : Dev nD) : Thread nD τ))) :
    ((oSl off h).view.loc ((d : Dev nD) : Thread nD τ) ↦[(oSl off h).view.set]{fullShare} f : sProp 𝕄) ⊢ oAny d off' h' := by
  subst e
  unfold oAny
  iintro H
  iexists f
  iexact H

omit [FloatOps F] in
/-- A result buffer, at any contents, is the 16 slices the device across rows fills, the 16 the row mate fills,
    and the device's own block. -/
theorem out_cut (c : Dev nD) (f : Buf (Elt F) ((c : Thread nD τ).loc cc0_stg1_0)) :
    (((c : Thread nD τ).loc cc0_stg1_0) ↦{fullShare} f : sProp 𝕄)
      ⊢ iprop((bigSep Finset.univ fun k : Fin 16 => oAny (F := F) c (k0_off1 (xn c) (chw k)) (k0_off1_inb (xn c) k))
          ∗ (bigSep Finset.univ fun k : Fin 16 => oAny (F := F) c (k0_off4 (yn c) (chw k)) (k0_off4_inb (yn c) k))
          ∗ ∃ g : Buf (Elt F) ((oSlL c).view.loc (c : Thread nD τ)), (oSlL c).view.loc (c : Thread nD τ) ↦[(oSlL c).view.set]{fullShare} g) := by
  have hA : ∀ k : Fin 16, ((oSl (k0_off4 c (chw k)) (k0_off4_inb c k)).view.loc (c : Thread nD τ) ↦[(oSl (k0_off4 c (chw k)) (k0_off4_inb c k)).view.set]{fullShare} f : sProp 𝕄)
      ⊢ oAny c (k0_off1 (xn c) (chw k)) (k0_off1_inb (xn c) k) :=
    fun k => oAny_intro c (k0_off4 c (chw k)) (k0_off1 (xn c) (chw k)) (k0_off4_inb c k) (k0_off1_inb (xn c) k) (offA_xn c k).symm f
  have hB : ∀ k : Fin 16, ((oSl (k0_off4 (yn c) (chw k)) (k0_off4_inb (yn c) k)).view.loc (c : Thread nD τ) ↦[(oSl (k0_off4 (yn c) (chw k)) (k0_off4_inb (yn c) k)).view.set]{fullShare} f : sProp 𝕄)
      ⊢ oAny c (k0_off4 (yn c) (chw k)) (k0_off4_inb (yn c) k) :=
    fun k => oAny_intro c (k0_off4 (yn c) (chw k)) (k0_off4 (yn c) (chw k)) (k0_off4_inb (yn c) k) (k0_off4_inb (yn c) k) rfl f
  have hL : ((oSlL c).view.loc (c : Thread nD τ) ↦[(oSlL c).view.set]{fullShare} f : sProp 𝕄)
      ⊢ iprop(∃ g : Buf (Elt F) ((oSlL c).view.loc (c : Thread nD τ)), (oSlL c).view.loc (c : Thread nD τ) ↦[(oSlL c).view.set]{fullShare} g) := by
    iintro H
    iexists f
    iexact H
  rw [out_pieces c f]
  exact BIClass.sep_mono (bigSep_mono fun k _ => hA k) (BIClass.sep_mono (bigSep_mono fun k _ => hB k) hL)

omit [FloatOps F] in
/-- The pieces, each holding `Fo c`'s rows, are the result buffer holding `Fo c`. -/
theorem out_join (c : Dev nD) :
    iprop((bigSep Finset.univ fun k : Fin 16 => syPay m ρ c k) ∗ (bigSep Finset.univ fun k : Fin 16 => ryPay m ρ c k)
        ∗ ((oSlL c).view.loc (c : Thread nD τ) ↦[(oSlL c).view.set]{fullShare} Fo m ρ c))
      ⊢ (((c : Thread nD τ).loc cc0_stg1_0) ↦{fullShare} Fo m ρ c : sProp 𝕄) := by
  unfold syPay ryPay oAt
  exact Entails.of_eq (out_pieces c (Fo m ρ c)).symm

/-- The chunks a device sends are pairwise disjoint in its staged block. -/
private theorem xSl_disj (c : Dev nD) (k k' : Fin 16) (hne : k ≠ k') : Disjoint (xSl c k).view.set (xSl c k').view.set := by
  rw [Finset.disjoint_left]
  intro i hi hi'
  rw [mem_xSl] at hi hi'
  have : k.val ≠ k'.val := fun e => hne (Fin.ext e)
  omega

omit [FloatOps F] in
/-- The staged block, cut by share and by chunk: the left share whole, the right share's 16 chunks of the half the
    device sends, and the right share of the other half. -/
def xRest (c : Dev nD) (f : Buf (Elt F) ((c : Thread nD τ).loc cc0_stg0_0)) : sProp 𝕄 :=
  ((c : Thread nD τ).loc cc0_stg0_0) ↦[Finset.univ \ (Finset.univ.biUnion fun k : Fin 16 => (xSl c k).view.set)]{qA} f

omit [FloatOps F] in
theorem x_cut (c : Dev nD) (f : Buf (Elt F) ((c : Thread nD τ).loc cc0_stg0_0)) :
    (((c : Thread nD τ).loc cc0_stg0_0) ↦{fullShare} f : sProp 𝕄)
      ⊣⊢ iprop((xM.view.loc (c : Thread nD τ) ↦[xM.view.set]{qL} f)
          ∗ (bigSep Finset.univ fun k : Fin 16 => ((xSl c k).view.loc (c : Thread nD τ) ↦[(xSl c k).view.set]{qA} f))
          ∗ xRest c f) := by
  have e : (((c : Thread nD τ).loc cc0_stg0_0) ↦{fullShare} f : sProp 𝕄)
      = iprop((xM.view.loc (c : Thread nD τ) ↦[xM.view.set]{qL} f)
          ∗ (bigSep Finset.univ fun k : Fin 16 => ((xSl c k).view.loc (c : Thread nD τ) ↦[(xSl c k).view.set]{qA} f))
          ∗ xRest c f) := by
    unfold xRest
    rw [show xM.view.set = Finset.univ from View.set_whole _,
      eq_of_bi (pointsTo_share (PosShare.mem_left_op_right fullShare)),
      eq_of_bi (pointsTo_split_subset (q := qA) (I := Finset.univ.biUnion fun k : Fin 16 => (xSl c k).view.set) (Finset.subset_univ _)),
      pointsTo_biUnion _ _ (fun k _ k' _ hne => xSl_disj c k k' hne)]
  exact ⟨Entails.of_eq e, Entails.of_eq e.symm⟩

end Cert.Kernel.AG

end
-- ==== Proof.W.Steps.lean ====
/-
  One thread's steps of the all-gather, each once for a symbolic device `c` and chunk `k`: the two barrier signals
  and the barrier wait, a direct copy across rows, the local copy, a receive wait followed by passing the chunk on, a
  second receive wait, and the waits for the send sides.

  Levels, for the deadlock argument: a barrier semaphore sits at 1, the receive side of a direct copy at 2, the receive
  side of a passed-on copy at 3, everything else at 0. A device waits on its barrier owing only receive credit (levels
  2 and 3), on a first receive owing only second receives (level 3), and on everything else owing nothing.
-/
import proofs.«900077_g7700000000000078_dist_ag_v7x_xy2x2_x_m1024_n512_f32_1_alg».proof.Proof.W.Pieces

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Levels -/

def L (g : GSem nD τ sig) : Finset Unit := if g.1.2 = .tc then {()} else ∅
def lv (g : GSem nD τ sig) (_ : Unit) : ℕ := match g.2 with
  | .reg _ => 1
  | .dma q => if 18 ≤ q.val ∧ q.val < 34 then 2 else if 50 ≤ q.val ∧ q.val < 66 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_rx (c : Dev nD) (k : Fin 16) (u : Unit) : lv (rxCell c k) u = 2 := by
  have := k.isLt; show (if 18 ≤ 18 + k.val ∧ 18 + k.val < 34 then 2 else _) = 2; rw [if_pos ⟨by omega, by omega⟩]
theorem lv_ry (c : Dev nD) (k : Fin 16) (u : Unit) : lv (ryCell c k) u = 3 := by
  have := k.isLt
  show (if 18 ≤ 50 + k.val ∧ 50 + k.val < 34 then 2 else if 50 ≤ 50 + k.val ∧ 50 + k.val < 66 then 3 else 0) = 3
  rw [if_neg (by omega), if_pos ⟨by omega, by omega⟩]
theorem lv_bar (c : Dev nD) (u : Unit) : lv (barCell c) u = 1 := rfl

/-! ## What a device still owes -/

/-- The receive credit of the direct copies from chunk `a` on, and of the passed-on copies from chunk `b` on. -/
def OA (c : Dev nD) (a : ℕ) : CellTallies nD τ sig Unit :=
  ∑ k : Fin 16, if a ≤ k.val then tallyAt (rxCell (xn c) k) () N else 0
def OB (c : Dev nD) (b : ℕ) : CellTallies nD τ sig Unit :=
  ∑ k : Fin 16, if b ≤ k.val then tallyAt (ryCell (yn c) k) () N else 0

theorem OA_step (c : Dev nD) (k : Fin 16) : OA c k.val = OA c (k.val + 1) + tallyAt (rxCell (xn c) k) () N := by
  unfold OA
  rw [← Finset.sum_erase_add _ _ (Finset.mem_univ k), ← Finset.sum_erase_add (a := k) (s := Finset.univ) (f := fun j : Fin 16 => if k.val + 1 ≤ j.val then tallyAt (rxCell (xn c) j) () N else 0) (Finset.mem_univ k),
    if_pos (le_refl _), if_neg (by omega), add_zero]
  congr 1
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]
theorem OB_step (c : Dev nD) (k : Fin 16) : OB c k.val = OB c (k.val + 1) + tallyAt (ryCell (yn c) k) () N := by
  unfold OB
  rw [← Finset.sum_erase_add _ _ (Finset.mem_univ k), ← Finset.sum_erase_add (a := k) (s := Finset.univ) (f := fun j : Fin 16 => if k.val + 1 ≤ j.val then tallyAt (ryCell (yn c) j) () N else 0) (Finset.mem_univ k),
    if_pos (le_refl _), if_neg (by omega), add_zero]
  congr 1
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]
theorem OA_done (c : Dev nD) : OA c 16 = 0 := by
  unfold OA; exact Finset.sum_eq_zero fun k _ => if_neg (by have := k.isLt; omega)
theorem OB_done (c : Dev nD) : OB c 16 = 0 := by
  unfold OB; exact Finset.sum_eq_zero fun k _ => if_neg (by have := k.isLt; omega)

theorem OA_pos {c : Dev nD} {a : ℕ} {g : GSem nD τ sig} {u : Unit} (h : 0 < OA c a g u) : ∃ k : Fin 16, g = rxCell (xn c) k := by
  by_contra hn
  rw [not_exists] at hn
  have : OA c a g u = 0 := by
    unfold OA
    rw [Finset.sum_apply, Finsupp.finset_sum_apply]
    refine Finset.sum_eq_zero fun k _ => ?_
    split
    · rw [tallyAt_ne_cell (hn k)]; rfl
    · rfl
  omega
theorem OB_pos {c : Dev nD} {b : ℕ} {g : GSem nD τ sig} {u : Unit} (h : 0 < OB c b g u) : ∃ k : Fin 16, g = ryCell (yn c) k := by
  by_contra hn
  rw [not_exists] at hn
  have : OB c b g u = 0 := by
    unfold OB
    rw [Finset.sum_apply, Finsupp.finset_sum_apply]
    refine Finset.sum_eq_zero fun k _ => ?_
    split
    · rw [tallyAt_ne_cell (hn k)]; rfl
    · rfl
  omega

theorem OAB_pos {c : Dev nD} {a b : ℕ} {g : GSem nD τ sig} {u : Unit} (h : 0 < (OA c a + OB c b) g u) :
    (∃ k : Fin 16, g = rxCell (xn c) k) ∨ ∃ k : Fin 16, g = ryCell (yn c) k := by
  rw [Pi.add_apply, Finsupp.add_apply] at h
  rcases Nat.add_pos_iff_pos_or_pos.mp h with h | h
  · exact .inl (OA_pos h)
  · exact .inr (OB_pos h)

omit [FloatOps F] in
/-- At its barrier wait a device owes receive credit only. -/
theorem mayWait_bar (c : Dev nD) (a b : ℕ) :
    (levAts L lv : sProp 𝕄) ⊢ MayWait (c : Thread nD τ) (.reg barS) () (OA c a + OB c b) :=
  MayOwe.of_cut (L := L) (lev := lv) 1 (fun p hp => by rw [Finset.mem_singleton.mp hp, L_tc]; exact Finset.mem_singleton_self _)
    (fun g u hg => by rcases OAB_pos hg with ⟨k, rfl⟩ | ⟨k, rfl⟩ <;> (rw [L_tc]; exact Finset.mem_singleton_self _))
    (fun p hp => by rw [Finset.mem_singleton.mp hp]; exact le_refl _)
    (fun g u hg => by
      rcases OAB_pos hg with ⟨k, rfl⟩ | ⟨k, rfl⟩
      · rw [lv_rx]; decide
      · rw [lv_ry]; decide)

omit [FloatOps F] in
/-- At a first receive wait it owes second receives only. -/
theorem mayWait_rx (c : Dev nD) (k : Fin 16) (b : ℕ) :
    (levAts L lv : sProp 𝕄) ⊢ MayWait (c : Thread nD τ) (.dma (rxS k)) () (OB c b) :=
  MayOwe.of_cut (L := L) (lev := lv) 2 (fun p hp => by rw [Finset.mem_singleton.mp hp, L_tc]; exact Finset.mem_singleton_self _)
    (fun g u hg => by obtain ⟨j, rfl⟩ := OB_pos hg; rw [L_tc]; exact Finset.mem_singleton_self _)
    (fun p hp => by rw [Finset.mem_singleton.mp hp]; exact le_of_eq (lv_rx c k ()))
    (fun g u hg => by obtain ⟨j, rfl⟩ := OB_pos hg; rw [lv_ry]; decide)

/-! ## A cell's invariant, at some name -/

def inv (g : GSem nD τ sig) : sProp 𝕄 := iprop(∃ κ : ℕ, cellInv ER (agRd m ρ) κ g)
instance inv_persistent (g : GSem nD τ sig) : BI.Persistent (inv m ρ g) := by unfold inv; infer_instance

/-- What a device owes, the waits it has recorded left open. -/
def owesE (c : Dev nD) (O : CellTallies nD τ sig Unit) : sProp 𝕄 := iprop(∃ W : Waits sig Unit, owes (c : Thread nD τ) O W)

/-! ## The direct copy of chunk `k` -/

/-- Device `c` sends chunk `k` of its half across rows: from its share of the chunk and the slice it fills on the device
    across, it gets the send side's credit, and the receive side's is off what it owes. -/
theorem stepA (c n : Dev nD) (hn : n = xn c) (k : Fin 16) {hsc : (oSlA c k : Memref sig (Dev.tc n : Thread nD τ).2.kind .vmem S32x512 .f32).view.ref.isScScratch = false}
    {hsrc : (xSl c k).view.WordExact} {hdst : (oSlA c k).view.WordExact}
    {hsem : DmaTarget.Typed .vmem (.dma (rxS k)) (.remote (Dev.tc n : Thread nD τ) (oSlA c k) (.dma (sxS k)) hsc)}
    {α : Type} {Q : α → sProp 𝕄} {kont : PUnit → Prog (TpuEff nD τ sig (Elt F) Λ₀ .tc) α}
    (κ₁ κ₂ : ℕ) (fd : Buf (Elt F) ((oSlA c k).view.loc ((xn c : Dev nD) : Thread nD τ))) (O : CellTallies nD τ sig Unit) (W : Waits sig Unit) :
    iprop(cellInv ER (agRd m ρ) κ₁ (sxCell c k) ∗ cellInv ER (agRd m ρ) κ₂ (rxCell (xn c) k)
        ∗ ((xSl c k).view.loc (c : Thread nD τ) ↦[(xSl c k).view.set]{qA} xstg m ρ c)
        ∗ ((oSlA c k).view.loc ((xn c : Dev nD) : Thread nD τ) ↦[(oSlA c k).view.set]{fullShare} fd)
        ∗ owes (c : Thread nD τ) (O + tallyAt (rxCell (xn c) k) () N) W
        ∗ dutyTok ER (sxCell c k) 0 false ∗ reached ER (sxCell c k) 0
        ∗ dutyTok ER (rxCell (xn c) k) 0 false ∗ reached ER (rxCell (xn c) k) 0)
      ⊢ iprop(((cred (tallyAt (sxCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc n : Thread nD τ) (oSlA c k) (.dma (sxS k)) hsc) (.dma (rxS k)) hsrc hdst hsem) kont) Q) := by
  subst hn
  exact Rounds.wp_send_pointsTo 𝒱₀ ER (agRd m ρ) (c : Thread nD τ) none (κ₁ := κ₁) (κ₂ := κ₂)
    (r₁ := 0) (r₂ := 0) (d₁ := false) (d₂ := false) (fd := fd)
    (by rw [duties_sx]; exact Finset.mem_singleton_self _) (by rw [duties_rx]; exact Finset.mem_singleton_self _)
    () () N rfl (amount_sx m ρ c k false) (amount_rx m ρ (xn c) k false) O rfl (W := W)
    (by rw [payload_sx]; exact BI.Entails.refl _)
    (by rw [payload_rx]; exact landA m ρ c k fd)

end Cert.Kernel.AG

end
-- ==== Proof.W.Chunk.lean ====
/-
  One chunk's way through a device, as four steps over what the device holds for that chunk.

  For chunk `k` device `c` holds, to begin with: the tokens of the four duties it pays (its two send sides, the receive
  side on the device across rows, the receive side on its row mate), its places on its own four semaphores of the
  chunk, the receive credit dealt at launch, its share of the chunk of its block, and the two slices it will fill on
  its neighbours. Sending the chunk across trades the first for send credit; receiving the chunk from across and
  passing it on trades receive credit for the slice and the slice for more send credit; the second receive brings
  the row mate's slice; the two send waits bring back the block's chunk and the passed-on slice.
-/
import proofs.«900077_g7700000000000078_dist_ag_v7x_xy2x2_x_m1024_n512_f32_1_alg».proof.Proof.W.Steps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The neighbours, as the kernel computes them -/

theorem xdev_of {c n : Dev nD} (h : n.val = ((c.val % 2) + 2) - 2 * (c.val / 2)) : n = xn c := Fin.ext (h.trans (xdev_val c))
theorem ydev_of {c n : Dev nD} (h : n.val = (2 * (c.val / 2) + 1) - (c.val % 2)) : n = yn c := Fin.ext (h.trans (ydev_val c))

/-- Closes `⟨k0_devN c, _⟩ = xn c` for the chains that name the device across rows. -/
macro "dev_x" : tactic => `(tactic| (apply xdev_of; first
  | exact k0_dev1_eq _ | exact k0_dev3_eq _ | exact k0_dev4_eq _ | exact k0_dev5_eq _ | exact k0_dev6_eq _ | exact k0_dev7_eq _
  | exact k0_dev8_eq _ | exact k0_dev9_eq _ | exact k0_dev10_eq _ | exact k0_dev11_eq _ | exact k0_dev12_eq _ | exact k0_dev13_eq _
  | exact k0_dev14_eq _ | exact k0_dev15_eq _ | exact k0_dev16_eq _ | exact k0_dev17_eq _ | exact k0_dev18_eq _))
/-- Closes `⟨k0_devN c, _⟩ = yn c` for the chains that name the row mate. -/
macro "dev_y" : tactic => `(tactic| (apply ydev_of; first
  | exact k0_dev2_eq _ | exact k0_dev19_eq _ | exact k0_dev20_eq _ | exact k0_dev21_eq _ | exact k0_dev22_eq _ | exact k0_dev23_eq _
  | exact k0_dev24_eq _ | exact k0_dev25_eq _ | exact k0_dev26_eq _ | exact k0_dev27_eq _ | exact k0_dev28_eq _ | exact k0_dev29_eq _
  | exact k0_dev30_eq _ | exact k0_dev31_eq _ | exact k0_dev32_eq _ | exact k0_dev33_eq _ | exact k0_dev34_eq _))

/-! ## What a device holds for chunk `k` -/

/-- The chunk's lasting facts: the invariants of the six semaphores the device touches for it, and that the four it
    pays are at round 0. -/
def cfacts (c : Dev nD) (k : Fin 16) : sProp 𝕄 :=
  iprop(inv m ρ (sxCell c k) ∗ inv m ρ (rxCell c k) ∗ inv m ρ (syCell c k) ∗ inv m ρ (ryCell c k)
    ∗ inv m ρ (rxCell (xn c) k) ∗ inv m ρ (ryCell (yn c) k)
    ∗ reached ER (sxCell c k) 0 ∗ reached ER (syCell c k) 0 ∗ reached ER (rxCell (xn c) k) 0 ∗ reached ER (ryCell (yn c) k) 0)
instance cfacts_persistent (c : Dev nD) (k : Fin 16) : BI.Persistent (cfacts m ρ c k) := by unfold cfacts; infer_instance

/-- What the launch deals the device for chunk `k`: the four tokens, the four places, the two receive credits. -/
def K0 (c : Dev nD) (k : Fin 16) : sProp 𝕄 :=
  iprop(dutyTok ER (sxCell c k) 0 false ∗ dutyTok ER (rxCell (xn c) k) 0 false ∗ dutyTok ER (syCell c k) 0 false ∗ dutyTok ER (ryCell (yn c) k) 0 false
    ∗ atPos ER (sxCell c k) 0 ∅ 0 ∗ atPos ER (rxCell c k) 0 ∅ 0 ∗ atPos ER (syCell c k) 0 ∅ 0 ∗ atPos ER (ryCell c k) 0 ∅ 0
    ∗ cred (tallyAt (rxCell c k) () N) ∗ cred (tallyAt (ryCell c k) () N))
/-- Before anything of chunk `k` has moved: that, its share of the chunk of its block, and the two slices it fills. -/
def S0 (c : Dev nD) (k : Fin 16) : sProp 𝕄 :=
  iprop(K0 c k ∗ sxPay m ρ c k ∗ oAny (xn c) (k0_off1 c (chw k)) (k0_off1_inb c k) ∗ oAny (yn c) (k0_off4 c (chw k)) (k0_off4_inb c k))
/-- After the chunk is on its way across rows. -/
def S1 (c : Dev nD) (k : Fin 16) : sProp 𝕄 :=
  iprop(dutyTok ER (syCell c k) 0 false ∗ dutyTok ER (ryCell (yn c) k) 0 false
    ∗ atPos ER (sxCell c k) 0 ∅ 0 ∗ atPos ER (rxCell c k) 0 ∅ 0 ∗ atPos ER (syCell c k) 0 ∅ 0 ∗ atPos ER (ryCell c k) 0 ∅ 0
    ∗ cred (tallyAt (rxCell c k) () N) ∗ cred (tallyAt (ryCell c k) () N) ∗ cred (tallyAt (sxCell c k) () N)
    ∗ oAny (yn c) (k0_off4 c (chw k)) (k0_off4_inb c k))
/-- After the chunk from across has arrived and been passed on. -/
def S2 (c : Dev nD) (k : Fin 16) : sProp 𝕄 :=
  iprop(atPos ER (sxCell c k) 0 ∅ 0 ∗ atPos ER (rxCell c k) 1 ∅ 0 ∗ atPos ER (syCell c k) 0 ∅ 0 ∗ atPos ER (ryCell c k) 0 ∅ 0
    ∗ cred (tallyAt (ryCell c k) () N) ∗ cred (tallyAt (sxCell c k) () N) ∗ cred (tallyAt (syCell c k) () N))
/-- After the row mate's chunk has arrived. -/
def S3 (c : Dev nD) (k : Fin 16) : sProp 𝕄 :=
  iprop(atPos ER (sxCell c k) 0 ∅ 0 ∗ atPos ER (rxCell c k) 1 ∅ 0 ∗ atPos ER (syCell c k) 0 ∅ 0 ∗ atPos ER (ryCell c k) 1 ∅ 0
    ∗ cred (tallyAt (sxCell c k) () N) ∗ cred (tallyAt (syCell c k) () N) ∗ ryPay m ρ c k)
/-- After both sends are known read out. -/
def S4 (c : Dev nD) (k : Fin 16) : sProp 𝕄 :=
  iprop(atPos ER (sxCell c k) 1 ∅ 0 ∗ atPos ER (rxCell c k) 1 ∅ 0 ∗ atPos ER (syCell c k) 1 ∅ 0 ∗ atPos ER (ryCell c k) 1 ∅ 0
    ∗ ryPay m ρ c k ∗ syPay m ρ c k ∗ sxPay m ρ c k)
/-- With the chunk's four semaphores closed at zero. -/
def S5 (c : Dev nD) (k : Fin 16) : sProp 𝕄 :=
  iprop((semVal (sxCell c k) 0 ∗ semVal (rxCell c k) 0 ∗ semVal (syCell c k) 0 ∗ semVal (ryCell c k) 0)
    ∗ ryPay m ρ c k ∗ syPay m ρ c k ∗ sxPay m ρ c k)

/-! ## The steps -/

/-- The chunk goes across rows. -/
theorem tA (c n : Dev nD) (hn : n = xn c) (k : Fin 16)
    {hsc : (oSlA c k : Memref sig (Dev.tc n : Thread nD τ).2.kind .vmem S32x512 .f32).view.ref.isScScratch = false}
    {hsrc : (xSl c k).view.WordExact} {hdst : (oSlA c k).view.WordExact}
    {hsem : DmaTarget.Typed .vmem (.dma (rxS k)) (.remote (Dev.tc n : Thread nD τ) (oSlA c k) (.dma (sxS k)) hsc)}
    {α : Type} {Q : α → sProp 𝕄} {kont : PUnit → Prog (TpuEff nD τ sig (Elt F) Λ₀ .tc) α} (W : Waits sig Unit) :
    iprop(cfacts m ρ c k ∗ S0 m ρ c k ∗ owes (c : Thread nD τ) (OA c k.val + OB c 0) W)
      ⊢ iprop(((S1 c k ∗ owes (c : Thread nD τ) (OA c (k.val + 1) + OB c 0) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc n : Thread nD τ) (oSlA c k) (.dma (sxS k)) hsc) (.dma (rxS k)) hsrc hdst hsem) kont) Q) := by
  unfold cfacts S0 K0 inv
  iintro ⟨⟨⟨%κ1, #HIsx⟩, -, -, -, ⟨%κ2, #HIrxn⟩, -, #Hrsx, -, #Hrrxn, -⟩, ⟨⟨Htsx, Htrxn, Htsy, Htryn, Hasx, Harx, Hasy, Hary, Hcrx, Hcry⟩, Hx, HdA, HdB⟩, HO⟩ Hk
  unfold oAny sxPay
  icases HdA with ⟨%fd, HdA⟩
  iapply (stepA m ρ c n hn k κ1 κ2 fd (OA c (k.val + 1) + OB c 0) W) $$ [Hx HdA HO Htsx Htrxn]
  · isplitr; · iexact HIsx
    isplitr; · iexact HIrxn
    isplitl [Hx]; · iexact Hx
    isplitl [HdA]; · iexact HdA
    isplitl [HO]
    · rw [show OA c (k.val + 1) + OB c 0 + tallyAt (rxCell (xn c) k) () N = OA c k.val + OB c 0 from by rw [OA_step c k]; exact add_right_comm _ _ _]
      iexact HO
    isplitl [Htsx]; · iexact Htsx
    isplitr; · iexact Hrsx
    isplitl [Htrxn]; · iexact Htrxn
    iexact Hrrxn
  iintro ⟨Hcsx, HO⟩
  iapply Hk
  unfold S1 oAny
  isplitr [HO]
  · isplitl [Htsy]; · iexact Htsy
    isplitl [Htryn]; · iexact Htryn
    isplitl [Hasx]; · iexact Hasx
    isplitl [Harx]; · iexact Harx
    isplitl [Hasy]; · iexact Hasy
    isplitl [Hary]; · iexact Hary
    isplitl [Hcrx]; · iexact Hcrx
    isplitl [Hcry]; · iexact Hcry
    isplitl [Hcsx]; · iexact Hcsx
    iexact HdB
  · iexact HO

/-- The chunk from across arrives and is passed on along the row. -/
theorem tRB (c n : Dev nD) (hn : n = yn c) (k : Fin 16)
    {hs1 : (xSl c k).view.WordExact} {hd1 : (oSlA c k).view.WordExact}
    {hsc : (oSlB c k : Memref sig (Dev.tc n : Thread nD τ).2.kind .vmem S32x512 .f32).view.ref.isScScratch = false}
    {hsrc : (oSlB c k).view.WordExact} {hdst : (oSlB c k).view.WordExact}
    {hsem : DmaTarget.Typed .vmem (.dma (ryS k)) (.remote (Dev.tc n : Thread nD τ) (oSlB c k) (.dma (syS k)) hsc)}
    {α : Type} {Q : α → sProp 𝕄} {kont : PUnit → Prog (TpuEff nD τ sig (Elt F) Λ₀ .tc) α} (W : Waits sig Unit) :
    iprop(levAts L lv ∗ cfacts m ρ c k ∗ S1 c k ∗ owes (c : Thread nD τ) (OB c k.val) W)
      ⊢ iprop(((S2 c k ∗ owesE c (OB c (k.val + 1))) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (rxS k) (xSl c k) (oSlA c k) hs1 hd1) fun _ =>
               .op (.enqueueDma (oSlB c k) (.remote (Dev.tc n : Thread nD τ) (oSlB c k) (.dma (syS k)) hsc) (.dma (ryS k)) hsrc hdst hsem) kont) Q) := by
  subst hn
  unfold cfacts S1 inv
  iintro ⟨#Hlev, ⟨-, ⟨%κ1, #HIrx⟩, ⟨%κ2, #HIsy⟩, -, -, ⟨%κ3, #HIryn⟩, -, #Hrsy, -, #Hrryn⟩, ⟨Htsy, Htryn, Hasx, Harx, Hasy, Hary, Hcrx, Hcry, Hcsx, HdB⟩, HO⟩ Hk
  -- the wait for the chunk from across: its slice comes with it, holding the rows of the final buffer
  iapply (Rounds.wp_wait_rest_token 𝒱₀ ER (agRd m ρ) (c : Thread nD τ) none (κ := κ1)
      (wpE_waitDma2_eq 𝒱₀ (c : Thread nD τ) none Set.univ) (Set.mem_univ _) () (O := OB c k.val) (W := W) (R := 0) (m := 0) (T := ∅)
      (by rw [Nat.zero_add, expect_rx])) $$ [Hcrx HO Harx]
  · isplitr; · iexact HIrx
    isplitl [Hcrx]; · iexact Hcrx
    isplitl [HO]; · iexact HO
    isplitr; · iapply (mayWait_rx c k k.val); iexact Hlev
    iexact Harx
  iintro ⟨HO, Harx, -, Hpay⟩
  ihave Hsl := (Entails.of_eq (rest_rx m ρ c k)) $$ Hpay
  unfold rxPay oAt oAny
  icases HdB with ⟨%fd, HdB⟩
  -- passing it on
  iapply (Rounds.wp_send_pointsTo 𝒱₀ ER (agRd m ρ) (c : Thread nD τ) none (κ₁ := κ2) (κ₂ := κ3)
      (r₁ := 0) (r₂ := 0) (d₁ := false) (d₂ := false) (fd := fd)
      (by rw [duties_sy]; exact Finset.mem_singleton_self _) (by rw [duties_ry]; exact Finset.mem_singleton_self _)
      () () N rfl (amount_sy m ρ c k false) (amount_ry m ρ (yn c) k false) (OB c (k.val + 1)) (OB_step c k)
      (W := insert (SemLoc.dma (rxS k), ()) W)
      (by rw [payload_sy]; exact BI.Entails.refl _)
      (by rw [payload_ry]; exact landB m ρ c k fd)) $$ [Hsl HdB HO Htsy Htryn]
  · isplitr; · iexact HIsy
    isplitr; · iexact HIryn
    isplitl [Hsl]; · iexact Hsl
    isplitl [HdB]; · iexact HdB
    isplitl [HO]; · iexact HO
    isplitl [Htsy]; · iexact Htsy
    isplitr; · iexact Hrsy
    isplitl [Htryn]; · iexact Htryn
    iexact Hrryn
  iintro ⟨Hcsy, HO⟩
  iapply Hk
  unfold S2 owesE
  isplitr [HO]
  · isplitl [Hasx]; · iexact Hasx
    isplitl [Harx]; · iexact Harx
    isplitl [Hasy]; · iexact Hasy
    isplitl [Hary]; · iexact Hary
    isplitl [Hcry]; · iexact Hcry
    isplitl [Hcsx]; · iexact Hcsx
    iexact Hcsy
  · iexists _; iexact HO

/-- The row mate's chunk arrives. -/
theorem tRy (c : Dev nD) (k : Fin 16)
    {hs1 : (oSlB c k).view.WordExact} {hd1 : (oSlB c k).view.WordExact}
    {α : Type} {Q : α → sProp 𝕄} {kont : PUnit → Prog (TpuEff nD τ sig (Elt F) Λ₀ .tc) α} (W : Waits sig Unit) :
    iprop(cfacts m ρ c k ∗ S2 c k ∗ owes (c : Thread nD τ) 0 W)
      ⊢ iprop(((S3 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ryS k) (oSlB c k) (oSlB c k) hs1 hd1) kont) Q) := by
  unfold cfacts S2 inv
  iintro ⟨⟨-, -, -, ⟨%κ1, #HIry⟩, -, -, -, -, -, -⟩, ⟨Hasx, Harx, Hasy, Hary, Hcry, Hcsx, Hcsy⟩, HO⟩ Hk
  iapply (Rounds.wp_wait_rest_token 𝒱₀ ER (agRd m ρ) (c : Thread nD τ) none (κ := κ1)
      (wpE_waitDma2_eq 𝒱₀ (c : Thread nD τ) none Set.univ) (Set.mem_univ _) () (O := 0) (W := W) (R := 0) (m := 0) (T := ∅)
      (by rw [Nat.zero_add, expect_ry])) $$ [Hcry HO Hary]
  · isplitr; · iexact HIry
    isplitl [Hcry]; · iexact Hcry
    isplitl [HO]; · iexact HO
    isplitr; · rw [MayWait_zero]; iempintro
    iexact Hary
  iintro ⟨HO, Hary, -, Hpay⟩
  ihave Hsl := (Entails.of_eq (rest_ry m ρ c k)) $$ Hpay
  iapply Hk
  unfold S3 owesE
  isplitr [HO]
  · isplitl [Hasx]; · iexact Hasx
    isplitl [Harx]; · iexact Harx
    isplitl [Hasy]; · iexact Hasy
    isplitl [Hary]; · iexact Hary
    isplitl [Hcsx]; · iexact Hcsx
    isplitl [Hcsy]; · iexact Hcsy
    iexact Hsl
  · iexists _; iexact HO

/-- Both of the chunk's sends have been read out. -/
theorem tS (c : Dev nD) (k : Fin 16)
    {hs1 : (oSlA c k).view.WordExact} {hd1 : (xSl c k).view.WordExact}
    {hs2 : (oSlB c k).view.WordExact} {hd2 : (oSlB c k).view.WordExact}
    {α : Type} {Q : α → sProp 𝕄} {kont : PUnit → Prog (TpuEff nD τ sig (Elt F) Λ₀ .tc) α} (W : Waits sig Unit) :
    iprop(cfacts m ρ c k ∗ S3 m ρ c k ∗ owes (c : Thread nD τ) 0 W)
      ⊢ iprop(((S4 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sxS k) (oSlA c k) (xSl c k) hs1 hd1) fun _ =>
               .op (.waitDma2 (syS k) (oSlB c k) (oSlB c k) hs2 hd2) kont) Q) := by
  unfold cfacts S3 inv
  iintro ⟨⟨⟨%κ1, #HIsx⟩, -, ⟨%κ2, #HIsy⟩, -, -, -, -, -, -, -⟩, ⟨Hasx, Harx, Hasy, Hary, Hcsx, Hcsy, Hry⟩, HO⟩ Hk
  iapply (Rounds.wp_wait_rest_token 𝒱₀ ER (agRd m ρ) (c : Thread nD τ) none (κ := κ1)
      (wpE_waitDma2_eq 𝒱₀ (c : Thread nD τ) none Set.univ) (Set.mem_univ _) () (O := 0) (W := W) (R := 0) (m := 0) (T := ∅)
      (by rw [Nat.zero_add, expect_sx])) $$ [Hcsx HO Hasx]
  · isplitr; · iexact HIsx
    isplitl [Hcsx]; · iexact Hcsx
    isplitl [HO]; · iexact HO
    isplitr; · rw [MayWait_zero]; iempintro
    iexact Hasx
  iintro ⟨HO, Hasx, -, Hpay⟩
  ihave Hx := (Entails.of_eq (rest_sx m ρ c k)) $$ Hpay
  iapply (Rounds.wp_wait_rest_token 𝒱₀ ER (agRd m ρ) (c : Thread nD τ) none (κ := κ2)
      (wpE_waitDma2_eq 𝒱₀ (c : Thread nD τ) none Set.univ) (Set.mem_univ _) () (O := 0) (W := insert (SemLoc.dma (sxS k), ()) W) (R := 0) (m := 0) (T := ∅)
      (by rw [Nat.zero_add, expect_sy])) $$ [Hcsy HO Hasy]
  · isplitr; · iexact HIsy
    isplitl [Hcsy]; · iexact Hcsy
    isplitl [HO]; · iexact HO
    isplitr; · rw [MayWait_zero]; iempintro
    iexact Hasy
  iintro ⟨HO, Hasy, -, Hpay⟩
  ihave Hsl := (Entails.of_eq (rest_sy m ρ c k)) $$ Hpay
  iapply Hk
  unfold S4 owesE
  isplitr [HO]
  · isplitl [Hasx]; · iexact Hasx
    isplitl [Harx]; · iexact Harx
    isplitl [Hasy]; · iexact Hasy
    isplitl [Hary]; · iexact Hary
    isplitl [Hry]; · iexact Hry
    isplitl [Hsl]; · iexact Hsl
    iexact Hx
  · iexists _; iexact HO

/-- The chunk's four semaphores, each past its one round with nothing left, close at zero. -/
theorem tClose (c : Dev nD) (k : Fin 16) :
    iprop(cfacts m ρ c k ∗ S4 m ρ c k) ⊢ |={Set.univ}=> S5 m ρ c k := by
  unfold cfacts S4 S5 inv
  iintro ⟨⟨⟨%κ1, #HIsx⟩, ⟨%κ2, #HIrx⟩, ⟨%κ3, #HIsy⟩, ⟨%κ4, #HIry⟩, -, -, -, -, -, -⟩, Hasx, Harx, Hasy, Hary, Hry, Hsy, Hx⟩
  imod (Rounds.cell_close ER (agRd m ρ) (Set.mem_univ κ1) (fun h => h) (R := 0 + 1) (duties_later m ρ (sxCell c k))) $$ [Hasx] with Hz1
  · isplitr; · iexact HIsx
    iexact Hasx
  imod (Rounds.cell_close ER (agRd m ρ) (Set.mem_univ κ2) (fun h => h) (R := 0 + 1) (duties_later m ρ (rxCell c k))) $$ [Harx] with Hz2
  · isplitr; · iexact HIrx
    iexact Harx
  imod (Rounds.cell_close ER (agRd m ρ) (Set.mem_univ κ3) (fun h => h) (R := 0 + 1) (duties_later m ρ (syCell c k))) $$ [Hasy] with Hz3
  · isplitr; · iexact HIsy
    iexact Hasy
  imod (Rounds.cell_close ER (agRd m ρ) (Set.mem_univ κ4) (fun h => h) (R := 0 + 1) (duties_later m ρ (ryCell c k))) $$ [Hary] with Hz4
  · isplitr; · iexact HIry
    iexact Hary
  imodintro
  isplitl [Hz1 Hz2 Hz3 Hz4]
  · isplitl [Hz1]; · iexact Hz1
    isplitl [Hz2]; · iexact Hz2
    isplitl [Hz3]; · iexact Hz3
    iexact Hz4
  isplitl [Hry]; · iexact Hry
  isplitl [Hsy]; · iexact Hsy
  iexact Hx

end Cert.Kernel.AG

end
-- ==== Proof.W.Data.lean ====
/-
  The proof data of the all-gather's one pallas_call, per device.

  At launch device `c` owes: the receive credit of its 16 direct copies (on the device across rows) and of its 16
  passed-on copies (on its row mate), and one unit to each neighbour's barrier semaphore. It holds the invariants of
  every semaphore it touches, its places on its own, the tokens of the duties it pays, two units of credit on its own
  barrier semaphore and one chunk's credit on each of its receive sides. It ends with its 65 own semaphores closed at
  zero, its staged block as it was, and its result buffer holding `Fo c`.
-/
import proofs.«900077_g7700000000000078_dist_ag_v7x_xy2x2_x_m1024_n512_f32_1_alg».proof.Proof.W.Chunk

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` owes at launch, summed so that its first signal (to the device across rows) peels the last
    summand and its second (to its row mate) the one before. -/
def O₀ (c : Dev nD) : CellTallies nD τ sig Unit :=
  OA c 0 + OB c 0 + tallyAt (barCell (yn c)) () 1 + tallyAt (barCell (xn c)) () 1

/-- The lasting facts device `c`'s body opens: the invariants of its own barrier and copy semaphores and of both
    neighbours' barriers, that the three it pays are at round 0, and every chunk's. -/
def gfacts (c : Dev nD) : sProp 𝕄 :=
  iprop(inv m ρ (barCell c) ∗ inv m ρ (barCell (xn c)) ∗ inv m ρ (barCell (yn c)) ∗ inv m ρ (cpCell c)
    ∗ reached ER (barCell (xn c)) 0 ∗ reached ER (barCell (yn c)) 0 ∗ reached ER (cpCell c) 0
    ∗ bigSep Finset.univ (cfacts m ρ c))
instance gfacts_persistent (c : Dev nD) : BI.Persistent (gfacts m ρ c) := by unfold gfacts; infer_instance

/-- What it holds once: its places on its barrier and copy semaphores, the tokens of the two barrier duties and the
    copy duty it pays, its barrier's two units of credit, and every chunk's share. -/
def glin (c : Dev nD) : sProp 𝕄 :=
  iprop(atPos ER (barCell c) 0 ∅ 0 ∗ atPos ER (cpCell c) 0 ∅ 0
    ∗ dutyTok ER (barCell (xn c)) 0 false ∗ dutyTok ER (barCell (yn c)) 0 true ∗ dutyTok ER (cpCell c) 0 false
    ∗ cred (tallyAt (barCell c) () 2)
    ∗ bigSep Finset.univ (K0 c))

/-- What device `c`'s body starts from. -/
def start (c : Dev nD) : sProp 𝕄 := iprop(gfacts m ρ c ∗ glin c ∗ levAts L lv)

/-- What it leaves: its 65 own semaphores at zero, closed. -/
def Φ₁ (c : Dev nD) : sProp 𝕄 :=
  iprop(semVal (cpCell c) 0
    ∗ bigSep Finset.univ fun k : Fin 16 => iprop(semVal (sxCell c k) 0 ∗ semVal (rxCell c k) 0 ∗ semVal (syCell c k) 0 ∗ semVal (ryCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => Fo m ρ c
  Φ t := match t with
    | ⟨0, _⟩ => start m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- The sixteen chunks one by one. -/
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

end Cert.Kernel.AG

end
-- ==== Proof.W.Phase.lean ====
/-
  Sixteen chunks through one stage. While the device works through a stage of the protocol, the chunks below a counter
  are past it and the others are not; a step on chunk `k`, proved for that chunk alone, moves the counter from `k` to
  `k + 1` with everything else the device holds left as it is.
-/
import proofs.«900077_g7700000000000078_dist_ag_v7x_xy2x2_x_m1024_n512_f32_1_alg».proof.Proof.W.Data

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A family in two stages -/

/-- The chunks below `a` at `Q`, the others at `P`. -/
def Fam2 (P Q : Fin 16 → sProp 𝕄) (a : ℕ) : sProp 𝕄 :=
  bigSep Finset.univ fun j : Fin 16 => if j.val < a then Q j else P j
/-- The same without chunk `k`, the counter at `k`. -/
def FamRest (P Q : Fin 16 → sProp 𝕄) (k : Fin 16) : sProp 𝕄 :=
  bigSep (Finset.univ.erase k) fun j : Fin 16 => if j.val < k.val then Q j else P j

omit [FloatOps F] in
theorem fam_zero (P Q : Fin 16 → sProp 𝕄) : Fam2 P Q 0 = bigSep Finset.univ P := by
  unfold Fam2; exact bigSep_congr fun j _ => if_neg (Nat.not_lt_zero _)
omit [FloatOps F] in
theorem fam_full (P Q : Fin 16 → sProp 𝕄) : Fam2 P Q 16 = bigSep Finset.univ Q := by
  unfold Fam2; exact bigSep_congr fun j _ => if_pos j.isLt
omit [FloatOps F] in
theorem fam_take (P Q : Fin 16 → sProp 𝕄) (k : Fin 16) : Fam2 P Q k.val = iprop(P k ∗ FamRest P Q k) := by
  unfold Fam2 FamRest
  rw [bigSep_erase (Finset.mem_univ k), if_neg (Nat.lt_irrefl _)]
  rfl
omit [FloatOps F] in
theorem fam_put (P Q : Fin 16 → sProp 𝕄) (k : Fin 16) : Fam2 P Q (k.val + 1) = iprop(Q k ∗ FamRest P Q k) := by
  unfold Fam2 FamRest
  rw [bigSep_erase (Finset.mem_univ k), if_pos (Nat.lt_succ_self _)]
  show BI.sep (Q k) _ = BI.sep (Q k) _
  congr 1
  refine bigSep_congr fun j hj => ?_
  have hne : j.val ≠ k.val := fun h => (Finset.mem_erase.mp hj).1 (Fin.ext h)
  by_cases h : j.val < k.val
  · rw [if_pos h, if_pos (by omega)]
  · rw [if_neg h, if_neg (by omega)]

omit [FloatOps F] in
/-- One chunk's step, with the rest of the family, what else the device holds (`R`) and the chunks' lasting facts
    carried along. -/
theorem phase_step (P Q Cf : Fin 16 → sProp 𝕄) [∀ k, BI.Persistent (Cf k)] (k : Fin 16) (X X' R Wk W : sProp 𝕄)
    (hstep : iprop(Cf k ∗ P k ∗ X) ⊢ iprop(((Q k ∗ X') -∗ Wk) -∗ W))
    (hrest : iprop(bigSep Finset.univ Cf ∗ Fam2 P Q (k.val + 1) ∗ X' ∗ R) ⊢ Wk) :
    iprop(bigSep Finset.univ Cf ∗ Fam2 P Q k.val ∗ X ∗ R) ⊢ W := by
  have hCk : (bigSep Finset.univ Cf : sProp 𝕄) ⊢ Cf k := bigSep_elim (Finset.mem_univ k)
  iintro ⟨#HC, HF, HX, HR⟩
  ihave HF' := (Entails.of_eq (fam_take P Q k)) $$ HF
  icases HF' with ⟨HP, HFr⟩
  iapply hstep $$ [HP HX]
  · isplitr; · iapply hCk; iexact HC
    isplitl [HP]; · iexact HP
    iexact HX
  iintro ⟨HQ, HX'⟩
  iapply hrest
  isplitr; · iexact HC
  isplitl [HQ HFr]
  · iapply (Entails.of_eq (fam_put P Q k).symm)
    isplitl [HQ]; · iexact HQ
    iexact HFr
  isplitl [HX']; · iexact HX'
  iexact HR

/-! ## The four steps, each over what the device owes with its recorded waits left open -/

/-- A chunk's lasting facts with the levels. -/
def cf (c : Dev nD) (k : Fin 16) : sProp 𝕄 := iprop(levAts L lv ∗ cfacts m ρ c k)
instance cf_persistent (c : Dev nD) (k : Fin 16) : BI.Persistent (cf m ρ c k) := by unfold cf; infer_instance

theorem tA' (c n : Dev nD) (hn : n = xn c) (k : Fin 16)
    {hsc : (oSlA c k : Memref sig (Dev.tc n : Thread nD τ).2.kind .vmem S32x512 .f32).view.ref.isScScratch = false}
    {hsrc : (xSl c k).view.WordExact} {hdst : (oSlA c k).view.WordExact}
    {hsem : DmaTarget.Typed .vmem (.dma (rxS k)) (.remote (Dev.tc n : Thread nD τ) (oSlA c k) (.dma (sxS k)) hsc)}
    {α : Type} {Q : α → sProp 𝕄} {kont : PUnit → Prog (TpuEff nD τ sig (Elt F) Λ₀ .tc) α} :
    iprop(cf m ρ c k ∗ S0 m ρ c k ∗ owesE c (OA c k.val + OB c 0))
      ⊢ iprop(((S1 c k ∗ owesE c (OA c (k.val + 1) + OB c 0)) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc n : Thread nD τ) (oSlA c k) (.dma (sxS k)) hsc) (.dma (rxS k)) hsrc hdst hsem) kont) Q) := by
  unfold cf owesE
  iintro ⟨⟨-, #HC⟩, HS, ⟨%W, HO⟩⟩ Hk
  iapply (tA m ρ c n hn k W) $$ [HS HO]
  · isplitr; · iexact HC
    isplitl [HS]; · iexact HS
    iexact HO
  iintro ⟨HS, HO⟩
  iapply Hk
  isplitl [HS]; · iexact HS
  iexists W; iexact HO

theorem tRB' (c n : Dev nD) (hn : n = yn c) (k : Fin 16)
    {hs1 : (xSl c k).view.WordExact} {hd1 : (oSlA c k).view.WordExact}
    {hsc : (oSlB c k : Memref sig (Dev.tc n : Thread nD τ).2.kind .vmem S32x512 .f32).view.ref.isScScratch = false}
    {hsrc : (oSlB c k).view.WordExact} {hdst : (oSlB c k).view.WordExact}
    {hsem : DmaTarget.Typed .vmem (.dma (ryS k)) (.remote (Dev.tc n : Thread nD τ) (oSlB c k) (.dma (syS k)) hsc)}
    {α : Type} {Q : α → sProp 𝕄} {kont : PUnit → Prog (TpuEff nD τ sig (Elt F) Λ₀ .tc) α} :
    iprop(cf m ρ c k ∗ S1 c k ∗ owesE c (OB c k.val))
      ⊢ iprop(((S2 c k ∗ owesE c (OB c (k.val + 1))) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (rxS k) (xSl c k) (oSlA c k) hs1 hd1) fun _ =>
               .op (.enqueueDma (oSlB c k) (.remote (Dev.tc n : Thread nD τ) (oSlB c k) (.dma (syS k)) hsc) (.dma (ryS k)) hsrc hdst hsem) kont) Q) := by
  unfold cf owesE
  iintro ⟨⟨#Hlev, #HC⟩, HS, ⟨%W, HO⟩⟩ Hk
  iapply (tRB m ρ c n hn k W) $$ [HS HO]
  · isplitr; · iexact Hlev
    isplitr; · iexact HC
    isplitl [HS]; · iexact HS
    iexact HO
  unfold owesE
  iexact Hk

theorem tRy' (c : Dev nD) (k : Fin 16)
    {hs1 : (oSlB c k).view.WordExact} {hd1 : (oSlB c k).view.WordExact}
    {α : Type} {Q : α → sProp 𝕄} {kont : PUnit → Prog (TpuEff nD τ sig (Elt F) Λ₀ .tc) α} :
    iprop(cf m ρ c k ∗ S2 c k ∗ owesE c 0)
      ⊢ iprop(((S3 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (ryS k) (oSlB c k) (oSlB c k) hs1 hd1) kont) Q) := by
  unfold cf
  iintro ⟨⟨-, #HC⟩, HS, HOE⟩ Hk
  unfold owesE
  icases HOE with ⟨%W, HO⟩
  iapply (tRy m ρ c k W) $$ [HS HO]
  · isplitr; · iexact HC
    isplitl [HS]; · iexact HS
    iexact HO
  unfold owesE
  iexact Hk

theorem tS' (c : Dev nD) (k : Fin 16)
    {hs1 : (oSlA c k).view.WordExact} {hd1 : (xSl c k).view.WordExact}
    {hs2 : (oSlB c k).view.WordExact} {hd2 : (oSlB c k).view.WordExact}
    {α : Type} {Q : α → sProp 𝕄} {kont : PUnit → Prog (TpuEff nD τ sig (Elt F) Λ₀ .tc) α} :
    iprop(cf m ρ c k ∗ S3 m ρ c k ∗ owesE c 0)
      ⊢ iprop(((S4 m ρ c k ∗ owesE c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sxS k) (oSlA c k) (xSl c k) hs1 hd1) fun _ =>
               .op (.waitDma2 (syS k) (oSlB c k) (oSlB c k) hs2 hd2) kont) Q) := by
  unfold cf
  iintro ⟨⟨-, #HC⟩, HS, HOE⟩ Hk
  unfold owesE
  icases HOE with ⟨%W, HO⟩
  iapply (tS m ρ c k W) $$ [HS HO]
  · isplitr; · iexact HC
    isplitl [HS]; · iexact HS
    iexact HO
  unfold owesE
  iexact Hk

end Cert.Kernel.AG

end
-- ==== Proof.W.Body.lean ====
/-
  One device's body of the all-gather, from what the launch deals it to its 65 semaphores closed and its result buffer
  holding the whole array: the barrier handshake with both neighbours, the 16 chunks sent across rows, the local copy, each
  chunk from across passed on as it arrives, the row mate's chunks received, and every send waited for.
-/
import proofs.«900077_g7700000000000078_dist_ag_v7x_xy2x2_x_m1024_n512_f32_1_alg».proof.Proof.W.Phase
import proofs.«900077_g7700000000000078_dist_ag_v7x_xy2x2_x_m1024_n512_f32_1_alg».proof.Proof.Gen.Kernel.Skeleton

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (Fo m ρ c))

/-! ## What else the device holds, stage by stage -/

def persCp (c : Dev nD) : sProp 𝕄 := iprop(inv m ρ (cpCell c) ∗ reached ER (cpCell c) 0)
instance persCp_persistent (c : Dev nD) : BI.Persistent (persCp m ρ c) := by unfold persCp inv; infer_instance

/-- While the chunks go across: the local copy's token and place, its source share and its destination, the rest
    of the staged block, and what is owed at the end. -/
def RA (c : Dev nD) (Kt : PUnit → sProp 𝕄) : sProp 𝕄 :=
  iprop(persCp m ρ c ∗ atPos ER (cpCell c) 0 ∅ 0 ∗ dutyTok ER (cpCell c) 0 false
    ∗ (xM.view.loc (c : Thread nD τ) ↦[xM.view.set]{qL} xstg m ρ c)
    ∗ (∃ g : Buf (Elt F) ((oSlL c).view.loc (c : Thread nD τ)), (oSlL c).view.loc (c : Thread nD τ) ↦[(oSlL c).view.set]{fullShare} g)
    ∗ xRest c (xstg m ρ c)
    ∗ (bodyPost m ρ c -∗ Kt ⟨⟩))
/-- While the local copy is in flight. -/
def RB (c : Dev nD) (Kt : PUnit → sProp 𝕄) : sProp 𝕄 :=
  iprop(persCp m ρ c ∗ atPos ER (cpCell c) 0 ∅ 0 ∗ cred (tallyAt (cpCell c) () NL) ∗ xRest c (xstg m ρ c) ∗ (bodyPost m ρ c -∗ Kt ⟨⟩))
/-- After it has landed and its semaphore is closed. -/
def RS (c : Dev nD) (Kt : PUnit → sProp 𝕄) : sProp 𝕄 :=
  iprop(semVal (cpCell c) 0 ∗ cpPay m ρ c ∗ xRest c (xstg m ρ c) ∗ (bodyPost m ρ c -∗ Kt ⟨⟩))

/-! ## Families -/

omit [FloatOps F] in
theorem cf_one (c : Dev nD) (k : Fin 16) : iprop(levAts L lv ∗ cfacts m ρ c k) ⊢ (cf m ρ c k : sProp 𝕄) := by
  unfold cf; exact Entails.refl _
omit [FloatOps F] in
theorem cf_all (c : Dev nD) : iprop(levAts L lv ∗ bigSep Finset.univ (cfacts m ρ c)) ⊢ (bigSep Finset.univ (cf m ρ c) : sProp 𝕄) := by
  have h1 : (levAts L lv : sProp 𝕄) ⊢ bigSep (Finset.univ : Finset (Fin 16)) (fun _ => (levAts L lv : sProp 𝕄)) :=
    BI.bigSep_of_persistent _ _
  have h2 : iprop(bigSep (Finset.univ : Finset (Fin 16)) (fun _ => (levAts L lv : sProp 𝕄)) ∗ bigSep Finset.univ (cfacts m ρ c))
      ⊢ (bigSep Finset.univ (cf m ρ c) : sProp 𝕄) := by
    rw [← bigSep_sep']; exact bigSep_mono fun k _ => cf_one m ρ c k
  iintro ⟨#Hl, Hc⟩
  iapply h2
  isplitr; · iapply h1; iexact Hl
  iexact Hc

omit [FloatOps F] in
theorem S0_all (c : Dev nD) : (bigSep Finset.univ (S0 m ρ c) : sProp 𝕄)
    = iprop(bigSep Finset.univ (K0 c) ∗ bigSep Finset.univ (sxPay m ρ c) ∗ barPayX c ∗ barPayY c) := by
  show bigSep Finset.univ (fun k : Fin 16 => iprop(K0 c k ∗ sxPay m ρ c k ∗ oAny (xn c) (k0_off1 c (chw k)) (k0_off1_inb c k) ∗ oAny (yn c) (k0_off4 c (chw k)) (k0_off4_inb c k))) = _
  exact (bigSep_sep' _ _ _).trans (congrArg (BI.sep _) ((bigSep_sep' _ _ _).trans (congrArg (BI.sep _) (bigSep_sep' _ _ _))))

omit [FloatOps F] in
theorem S5_all (c : Dev nD) : (bigSep Finset.univ (S5 m ρ c) : sProp 𝕄)
    = iprop((bigSep Finset.univ fun k : Fin 16 => iprop(semVal (sxCell c k) 0 ∗ semVal (rxCell c k) 0 ∗ semVal (syCell c k) 0 ∗ semVal (ryCell c k) 0))
        ∗ bigSep Finset.univ (ryPay m ρ c) ∗ bigSep Finset.univ (syPay m ρ c) ∗ bigSep Finset.univ (sxPay m ρ c)) := by
  show bigSep Finset.univ (fun k : Fin 16 => iprop((semVal (sxCell c k) 0 ∗ semVal (rxCell c k) 0 ∗ semVal (syCell c k) 0 ∗ semVal (ryCell c k) 0)
    ∗ ryPay m ρ c k ∗ syPay m ρ c k ∗ sxPay m ρ c k)) = _
  exact (bigSep_sep' _ _ _).trans (congrArg (BI.sep _) ((bigSep_sep' _ _ _).trans (congrArg (BI.sep _) (bigSep_sep' _ _ _))))

theorem closeOne (c : Dev nD) (k : Fin 16) : iprop(cf m ρ c k ∗ S4 m ρ c k) ⊢ |={Set.univ}=> (S5 m ρ c k : sProp 𝕄) := by
  unfold cf
  iintro ⟨⟨-, #HC⟩, HS⟩
  iapply (tClose m ρ c k)
  isplitr; · iexact HC
  iexact HS
theorem closeAll (c : Dev nD) : iprop(bigSep Finset.univ (cf m ρ c) ∗ bigSep Finset.univ (S4 m ρ c)) ⊢ |={Set.univ}=> (bigSep Finset.univ (S5 m ρ c) : sProp 𝕄) := by
  rw [← bigSep_sep']
  exact (bigSep_mono fun k _ => closeOne m ρ c k).trans (bigSep_fupd _ _)

/-! ## The handshake -/

set_option maxHeartbeats 1000000 in
/-- Both barrier signals, each handing over the slices of this device's result buffer the neighbour fills, and the
    wait for both neighbours' signals, which brings the slices this device fills on them. -/
theorem prologue (c : Dev nD) (Kt : PUnit → sProp 𝕄) {kont : PUnit → Prog (TpuEff nD τ sig (Elt F) Λ₀ .tc) PUnit}
    (h : iprop(bigSep Finset.univ (cf m ρ c) ∗ Fam2 (S0 m ρ c) (S1 c) 0 ∗ owesE c (OA c 0 + OB c 0) ∗ RA m ρ c Kt)
      ⊢ wp frame (wpE (defs₀ (F := F)) 𝒱₀ (c : Thread nD τ) none) Set.univ (kont ⟨⟩) Kt) :
    iprop(bodyPre m ρ c ∗ (bodyPost m ρ c -∗ Kt ⟨⟩))
      ⊢ wp frame (wpE (defs₀ (F := F)) 𝒱₀ (c : Thread nD τ) none) Set.univ
          (.op (.semSignal ((xn c : Dev nD) : Thread nD τ) barS (1#32).toNat) fun _ =>
           .op (.semSignal ((yn c : Dev nD) : Thread nD τ) barS (1#32).toNat) fun _ =>
           .op (.semWait barS (2#32).toNat) kont) Kt := by
  unfold bodyPre start gfacts glin inv
  iintro ⟨⟨⟨⟨⟨%κb, #HIb⟩, ⟨%κbx, #HIbx⟩, ⟨%κby, #HIby⟩, ⟨%κcp, #HIcp⟩, #Hrbx, #Hrby, #Hrcp, #Hcf⟩, ⟨Hab, Hacp, Htbx, Htby, Htcp, Hcb, HK0⟩, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  -- the two buffers cut into the pieces the copies hold
  ihave Hxc := (x_cut c (xstg m ρ c)).1 $$ Hx
  icases Hxc with ⟨HxL, HxA, HxR⟩
  ihave Hoc := (out_cut c g1) $$ Hout
  icases Hoc with ⟨HoA, HoB, HoL⟩
  -- the signal to the device across rows: the slices it fills here
  iapply (Rounds.wp_signal 𝒱₀ ER (agRd m ρ) (c : Thread nD τ) none (dst := ((xn c : Dev nD) : Thread nD τ)) (κ := κbx)
      (d := false) (by rw [duties_bar]; exact Finset.mem_univ _) ((amount_bar m ρ (xn c) false).trans (by decide)) ()
      (OA c 0 + OB c 0 + tallyAt (barCell (yn c)) () 1) rfl) $$ [HO Htbx HoA]
  · isplitr; · iexact HIbx
    isplitl [HO]; · iexact HO
    isplitl [Htbx]; · iexact Htbx
    isplitl [HoA]
    · rw [payload_bar_false]; unfold barPayX; rw [xn_xn]; iexact HoA
    iexact Hrbx
  iintro HO
  -- the signal to the row mate: the slices it fills here
  iapply (Rounds.wp_signal 𝒱₀ ER (agRd m ρ) (c : Thread nD τ) none (dst := ((yn c : Dev nD) : Thread nD τ)) (κ := κby)
      (d := true) (by rw [duties_bar]; exact Finset.mem_univ _) ((amount_bar m ρ (yn c) true).trans (by decide)) ()
      (OA c 0 + OB c 0) rfl) $$ [HO Htby HoB]
  · isplitr; · iexact HIby
    isplitl [HO]; · iexact HO
    isplitl [Htby]; · iexact Htby
    isplitl [HoB]
    · rw [payload_bar_true]; unfold barPayY; rw [yn_yn]; iexact HoB
    iexact Hrby
  iintro HO
  -- the wait for both neighbours, owing receive credit only: the slices this device fills on them
  iapply (Rounds.wp_wait_rest_token 𝒱₀ ER (agRd m ρ) (c : Thread nD τ) none (κ := κb)
      (wpE_semWait_eq 𝒱₀ (c : Thread nD τ) none Set.univ) (Set.mem_univ _) () (O := OA c 0 + OB c 0) (W := W) (R := 0) (m := 0) (T := ∅)
      (by rw [expect_bar]; decide)) $$ [Hcb HO Hab]
  · isplitr; · iexact HIb
    isplitl [Hcb]; · iexact Hcb
    isplitl [HO]; · iexact HO
    isplitr; · iapply (mayWait_bar c 0 0); iexact Hlev
    iexact Hab
  iintro ⟨HO, Hab, -, Hpay⟩
  ihave Hp := (Entails.of_eq (rest_bar m ρ c)) $$ Hpay
  icases Hp with ⟨HdA, HdB⟩
  iapply h
  isplitr
  · iapply (cf_all m ρ c); isplitr; · iexact Hlev
    iexact Hcf
  isplitl [HK0 HxA HdA HdB]
  · rw [fam_zero, S0_all]
    isplitl [HK0]; · iexact HK0
    isplitl [HxA]; · iexact HxA
    isplitl [HdA]; · iexact HdA
    iexact HdB
  isplitl [HO]
  · unfold owesE; iexists _; iexact HO
  unfold RA persCp inv
  isplitr
  · isplitr; · iexists κcp; iexact HIcp
    iexact Hrcp
  isplitl [Hacp]; · iexact Hacp
  isplitl [Htcp]; · iexact Htcp
  isplitl [HxL]; · iexact HxL
  isplitl [HoL]; · iexact HoL
  isplitl [HxR]; · iexact HxR
  iexact Hk

/-! ## The local copy -/

/-- With all 16 chunks on their way across, the device copies its own block into place. -/
theorem localCopy (c : Dev nD) (Kt : PUnit → sProp 𝕄) {kont : PUnit → Prog (TpuEff nD τ sig (Elt F) Λ₀ .tc) PUnit}
    (h : iprop(bigSep Finset.univ (cf m ρ c) ∗ Fam2 (S1 c) (S2 c) 0 ∗ owesE c (OB c 0) ∗ RB m ρ c Kt) ⊢ wp frame (wpE (defs₀ (F := F)) 𝒱₀ (c : Thread nD τ) none) Set.univ (kont ⟨⟩) Kt) :
    iprop(bigSep Finset.univ (cf m ρ c) ∗ Fam2 (S0 m ρ c) (S1 c) 16 ∗ owesE c (OA c 16 + OB c 0) ∗ RA m ρ c Kt)
      ⊢ wp frame (wpE (defs₀ (F := F)) 𝒱₀ (c : Thread nD τ) none) Set.univ (.op (.enqueueDma xM (.here (oSlL c)) (.dma cpS) (Memref.isWhole_whole cc0_stg0_0).wordExact (View.wordExact_bits rfl) ⟨Or.inl rfl, trivial⟩) kont) Kt := by
  rw [fam_full, ← fam_zero (S1 c) (S2 c), OA_done, zero_add]
  unfold RA persCp inv
  iintro ⟨#HC, HF, HO, ⟨⟨%κcp, #HIcp⟩, #Hrcp⟩, Hacp, Htcp, HxL, ⟨%gL, HoL⟩, HxR, Hk⟩
  iapply (Rounds.wp_copy_pointsTo 𝒱₀ ER (agRd m ρ) (c : Thread nD τ) none (κ := κcp) (r := 0) (d := false) (fd := gL) (q := qL) (fs := xstg m ρ c)
      (by rw [duties_cp]; exact Finset.mem_singleton_self _) () NL rfl (amount_cp m ρ c false)
      (by rw [payload_cp]; exact landL m ρ c gL)) $$ [HxL HoL Htcp]
  · isplitr; · iexact HIcp
    isplitl [HxL]; · iexact HxL
    isplitl [HoL]; · iexact HoL
    isplitl [Htcp]; · iexact Htcp
    iexact Hrcp
  iintro Hccp
  iapply h
  isplitr; · iexact HC
  isplitl [HF]; · iexact HF
  isplitl [HO]; · iexact HO
  unfold RB persCp inv
  isplitr
  · isplitr; · iexists κcp; iexact HIcp
    iexact Hrcp
  isplitl [Hacp]; · iexact Hacp
  isplitl [Hccp]; · iexact Hccp
  isplitl [HxR]; · iexact HxR
  iexact Hk

omit [FloatOps F] in
/-- All 16 chunks passed on: nothing is owed any more. -/
theorem toR (c : Dev nD) (Kt : PUnit → sProp 𝕄) (Wp : sProp 𝕄)
    (h : iprop(bigSep Finset.univ (cf m ρ c) ∗ Fam2 (S2 c) (S3 m ρ c) 0 ∗ owesE c 0 ∗ RB m ρ c Kt) ⊢ Wp) :
    iprop(bigSep Finset.univ (cf m ρ c) ∗ Fam2 (S1 c) (S2 c) 16 ∗ owesE c (OB c 16) ∗ RB m ρ c Kt) ⊢ Wp := by
  rw [fam_full, ← fam_zero (S2 c) (S3 m ρ c), OB_done]
  exact h

/-- With every chunk received, the wait for the local copy: the own block in place, its source share back, and the
    copy's semaphore closed. -/
theorem localWait (c : Dev nD) (Kt : PUnit → sProp 𝕄) {kont : PUnit → Prog (TpuEff nD τ sig (Elt F) Λ₀ .tc) PUnit}
    {hsrc : (xM : Memref sig .tc .vmem S1024x512 .f32).view.WordExact} {hdst : (oSlL c).view.WordExact}
    (h : iprop(bigSep Finset.univ (cf m ρ c) ∗ Fam2 (S3 m ρ c) (S4 m ρ c) 0 ∗ owesE c 0 ∗ RS m ρ c Kt) ⊢ wp frame (wpE (defs₀ (F := F)) 𝒱₀ (c : Thread nD τ) none) Set.univ (kont ⟨⟩) Kt) :
    iprop(bigSep Finset.univ (cf m ρ c) ∗ Fam2 (S2 c) (S3 m ρ c) 16 ∗ owesE c 0 ∗ RB m ρ c Kt)
      ⊢ wp frame (wpE (defs₀ (F := F)) 𝒱₀ (c : Thread nD τ) none) Set.univ (.op (.waitDma2 cpS xM (oSlL c) hsrc hdst) kont) Kt := by
  rw [fam_full, ← fam_zero (S3 m ρ c) (S4 m ρ c)]
  unfold RB persCp inv owesE
  iintro ⟨#HC, HF, ⟨%W, HO⟩, ⟨⟨%κcp, #HIcp⟩, #Hrcp⟩, Hacp, Hccp, HxR, Hk⟩
  iapply (Rounds.wp_wait_rest_token 𝒱₀ ER (agRd m ρ) (c : Thread nD τ) none (κ := κcp)
      (wpE_waitDma2_eq 𝒱₀ (c : Thread nD τ) none Set.univ) (Set.mem_univ _) () (O := 0) (W := W) (R := 0) (m := 0) (T := ∅)
      (by rw [Nat.zero_add, expect_cp])) $$ [Hccp HO Hacp]
  · isplitr; · iexact HIcp
    isplitl [Hccp]; · iexact Hccp
    isplitl [HO]; · iexact HO
    isplitr; · rw [MayWait_zero]; iempintro
    iexact Hacp
  iintro ⟨HO, Hacp, -, Hpay⟩
  ihave Hcp := (Entails.of_eq (rest_cp m ρ c)) $$ Hpay
  imod (Rounds.cell_close ER (agRd m ρ) (Set.mem_univ κcp) (fun h => h) (R := 0 + 1) (duties_later m ρ (cpCell c))) $$ [Hacp] with Hzcp
  · isplitr; · iexact HIcp
    iexact Hacp
  iapply h
  isplitr; · iexact HC
  isplitl [HF]; · iexact HF
  isplitl [HO]; · unfold owesE; iexists _; iexact HO
  unfold RS
  isplitl [Hzcp]; · iexact Hzcp
  isplitl [Hcp]; · iexact Hcp
  isplitl [HxR]; · iexact HxR
  iexact Hk

/-! ## The end -/

/-- Every send waited for: the chunks' semaphores close, the pieces of the result buffer join to the whole array, and
    the staged block's shares join to the block. -/
theorem epilogue (c : Dev nD) (Kt : PUnit → sProp 𝕄) :
    iprop(bigSep Finset.univ (cf m ρ c) ∗ Fam2 (S3 m ρ c) (S4 m ρ c) 16 ∗ owesE c 0 ∗ RS m ρ c Kt)
      ⊢ wp frame (wpE (defs₀ (F := F)) 𝒱₀ (c : Thread nD τ) none) Set.univ (.ret ⟨⟩) Kt := by
  rw [fam_full]
  unfold RS owesE cpPay
  iintro ⟨#HC, HF, ⟨%W, HO⟩, Hzcp, ⟨HoL, HxL⟩, HxR, Hk⟩
  imod (closeAll m ρ c) $$ [HF] with HF5
  · isplitr; · iexact HC
    iexact HF
  ihave H5 := (Entails.of_eq (S5_all m ρ c)) $$ HF5
  icases H5 with ⟨Hz, Hry, Hsy, Hsx⟩
  ihave Ho := (out_join m ρ c) $$ [Hsy Hry HoL]
  · isplitl [Hsy]; · iexact Hsy
    isplitl [Hry]; · iexact Hry
    iexact HoL
  ihave Hx := (x_cut c (xstg m ρ c)).2 $$ [HxL Hsx HxR]
  · isplitl [HxL]; · iexact HxL
    isplitl [Hsx]; · iexact Hsx
    iexact HxR
  rw [wp_ret]; imodintro
  iapply Hk
  unfold bodyPost Φ₁ Dat.owesAt Pipeline.owesWithin
  rw [show (dats m ρ 0 c).owed t₀.succ = 0 from rfl]
  isplitl [Hzcp Hz]
  · isplitl [Hzcp]; · iexact Hzcp
    iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

omit [FloatOps F] in
/-- `phase_step` with the counter a number below 16: the chunk is then read off the family's counter. -/
theorem phase_step' (P Q Cf : Fin 16 → sProp 𝕄) [∀ k, BI.Persistent (Cf k)] (a : ℕ) (ha : a < 16) (X X' R Wk W : sProp 𝕄)
    (hstep : iprop(Cf ⟨a, ha⟩ ∗ P ⟨a, ha⟩ ∗ X) ⊢ iprop(((Q ⟨a, ha⟩ ∗ X') -∗ Wk) -∗ W))
    (hrest : iprop(bigSep Finset.univ Cf ∗ Fam2 P Q (a + 1) ∗ X' ∗ R) ⊢ Wk) :
    iprop(bigSep Finset.univ Cf ∗ Fam2 P Q a ∗ X ∗ R) ⊢ W :=
  phase_step P Q Cf ⟨a, ha⟩ X X' R Wk W hstep hrest

/-! ## The body -/

set_option maxHeartbeats 16000000 in
set_option maxRecDepth 65536 in
/-- The body, from what the launch deals the device to its semaphores closed and its result buffer full. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  have dev1_eq : (⟨k0_dev1 c, k0_dev1_lt c⟩ : Dev nD) = xn c := by dev_x
  have dev2_eq : (⟨k0_dev2 c, k0_dev2_lt c⟩ : Dev nD) = yn c := by dev_y
  simp only [dev1_eq, dev2_eq]
  refine prologue m ρ c Kt ?_
  iterate 16 (refine phase_step' (S0 m ρ c) (S1 c) (cf m ρ c) _ (by decide) _ _ _ _ _ (tA' m ρ c _ (by dev_x) _) ?_)
  refine localCopy m ρ c Kt ?_
  iterate 16 (refine phase_step' (S1 c) (S2 c) (cf m ρ c) _ (by decide) _ _ _ _ _ (tRB' m ρ c _ (by dev_y) _) ?_)
  refine toR m ρ c Kt _ ?_
  iterate 16 (refine phase_step' (S2 c) (S3 m ρ c) (cf m ρ c) _ (by decide) _ _ _ _ _ (tRy' m ρ c _) ?_)
  refine localWait m ρ c Kt ?_
  iterate 16 (refine phase_step' (S3 m ρ c) (S4 m ρ c) (cf m ρ c) _ (by decide) _ _ _ _ _ (tS' m ρ c _) ?_)
  exact epilogue m ρ c Kt

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  iintro H
  iapply (sound_body m ρ c fun _ => bodyPost m ρ c)
  isplitl [H]; · iexact H
  iintro H; iexact H

end Cert.Kernel.AG

end
-- ==== Proof.W.Launch1.lean ====
/-
  The ghost state of the all-gather's launch: every device's cells funded and their invariants allocated under one
  update, each duty's token dealt to the device that pays it (a barrier's `false` token and a direct copy's receive
  token to the device across rows, a barrier's `true` token and a passed-on copy's receive token to the row mate, the
  send sides' and the local copy's to the device itself).
-/
import proofs.«900077_g7700000000000078_dist_ag_v7x_xy2x2_x_m1024_n512_f32_1_alg».proof.Proof.W.Body

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores, as the launch theorem indexes them: the 64 chunk semaphores and the local
    copy's, DMA semaphores 2 to 66. -/
abbrev osem : Fin 65 → SemLoc sig := fun j => .dma ⟨j.val + 2, by have := j.isLt; show _ < 67; omega⟩

theorem ownSemFacts : Pipeline.OwnSemFacts cfg0.spec osem := by
  decide

namespace Ghost
/-! ## The own semaphores by what they are for -/

/-- Chunk `k`'s four semaphores (send and receive side across rows, send and receive side along the row), then the
    local copy's, against their place among the 65. -/
def jix : (Fin 16 × Fin 4) ⊕ Unit → Fin 65
  | .inl (k, i) => ⟨16 * i.val + k.val, by have := k.isLt; have := i.isLt; omega⟩
  | .inr _ => ⟨64, by decide⟩
def jinv (j : Fin 65) : (Fin 16 × Fin 4) ⊕ Unit :=
  if h : j.val < 64 then .inl (⟨j.val % 16, Nat.mod_lt _ (by decide)⟩, ⟨j.val / 16, by omega⟩) else .inr ()
def jEquiv : (Fin 16 × Fin 4) ⊕ Unit ≃ Fin 65 := ⟨jix, jinv, by decide, by decide⟩

theorem osem_sx (k : Fin 16) : osem (jEquiv (.inl (k, 0))) = .dma (sxS k) :=
  congrArg SemLoc.dma (Fin.ext (by show 16 * 0 + k.val + 2 = 2 + k.val; omega))
theorem osem_rx (k : Fin 16) : osem (jEquiv (.inl (k, 1))) = .dma (rxS k) :=
  congrArg SemLoc.dma (Fin.ext (by show 16 * 1 + k.val + 2 = 18 + k.val; omega))
theorem osem_sy (k : Fin 16) : osem (jEquiv (.inl (k, 2))) = .dma (syS k) :=
  congrArg SemLoc.dma (Fin.ext (by show 16 * 2 + k.val + 2 = 34 + k.val; omega))
theorem osem_ry (k : Fin 16) : osem (jEquiv (.inl (k, 3))) = .dma (ryS k) :=
  congrArg SemLoc.dma (Fin.ext (by show 16 * 3 + k.val + 2 = 50 + k.val; omega))
theorem osem_cp : osem (jEquiv (.inr ())) = .dma cpS := rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- A family over the 65 own semaphores, regrouped: the local copy's first, then chunk by chunk. -/
theorem bigSep_own (Φ : SemLoc sig → sProp 𝕄) :
    bigSep Finset.univ (fun j : Fin 65 => Φ (osem j))
      = iprop(Φ (.dma cpS) ∗ bigSep Finset.univ fun k : Fin 16 => iprop(Φ (.dma (sxS k)) ∗ Φ (.dma (rxS k)) ∗ Φ (.dma (syS k)) ∗ Φ (.dma (ryS k)))) := by
  rw [bigSep_univ_equiv jEquiv, bigSep_univ_sum, bigSep_univ_prod, bigSep_univ_of_subsingleton ()]
  refine (equiv_iff.mp ⟨BI.sep_comm, BI.sep_comm⟩).trans ?_
  refine congrArg₂ BI.sep (congrArg Φ osem_cp) (bigSep_congr fun k _ => ?_)
  rw [bigSep_fin4, osem_sx, osem_rx, osem_sy, osem_ry]

end Ghost

open Ghost

/-- A chunk's tokens and places, without the credit. -/
def T0 (c : Dev nD) (k : Fin 16) : sProp 𝕄 :=
  iprop(dutyTok ER (sxCell c k) 0 false ∗ dutyTok ER (rxCell (xn c) k) 0 false ∗ dutyTok ER (syCell c k) 0 false ∗ dutyTok ER (ryCell (yn c) k) 0 false
    ∗ atPos ER (sxCell c k) 0 ∅ 0 ∗ atPos ER (rxCell c k) 0 ∅ 0 ∗ atPos ER (syCell c k) 0 ∅ 0 ∗ atPos ER (ryCell c k) 0 ∅ 0)

/-- What stays with device `c` after the global step, credit apart: its places and the tokens of the duties it pays. -/
def gtoks (c : Dev nD) : sProp 𝕄 :=
  iprop(atPos ER (barCell c) 0 ∅ 0 ∗ atPos ER (cpCell c) 0 ∅ 0
    ∗ dutyTok ER (barCell (xn c)) 0 false ∗ dutyTok ER (barCell (yn c)) 0 true ∗ dutyTok ER (cpCell c) 0 false
    ∗ bigSep Finset.univ (T0 c))

/-- What the global step makes of the launch element's deal (the launch theorem's `G'`). -/
def G' (c : Dev nD) : sProp 𝕄 := iprop(gfacts m ρ c ∗ gtoks c)

namespace Ghost

/-! ## The cells and the tokens of the launch element -/

/-- Every device's barrier cell and its 65 own cells. -/
def cellAt : Dev nD ⊕ (Dev nD × Fin 65) → GSem nD τ sig
  | .inl c => barCell c
  | .inr cj => ((cj.1 : Thread nD τ), osem cj.2)
theorem cellAt_injective : Function.Injective cellAt := by
  rintro (c | ⟨c, j⟩) (c' | ⟨c', j'⟩) h
  · exact congrArg Sum.inl (Fin.ext (congrArg (fun g : GSem nD τ sig => g.1.1.val) h))
  · exact absurd (congrArg Prod.snd h) (fun h' => by cases h')
  · exact absurd (congrArg Prod.snd h) (fun h' => by cases h')
  · have h1 : c = c' := Fin.ext (congrArg (fun g : GSem nD τ sig => g.1.1.val) h)
    have h2 : j = j' := ownSemFacts.inj (congrArg Prod.snd h)
    subst h1; subst h2; rfl
def agCells : Finset (GSem nD τ sig) := Finset.univ.map ⟨cellAt, cellAt_injective⟩

/-- Their duties' tokens: a barrier's `false` and `true`, an own cell's `false`. -/
def tokAt : (Dev nD × Bool) ⊕ (Dev nD × Fin 65) → GSem nD τ sig × ℕ × Bool
  | .inl cb => (barCell cb.1, 0, cb.2)
  | .inr cj => (((cj.1 : Thread nD τ), osem cj.2), 0, false)
theorem tokAt_injective : Function.Injective tokAt := by
  rintro (⟨c, b⟩ | ⟨c, j⟩) (⟨c', b'⟩ | ⟨c', j'⟩) h
  · have h1 : c = c' := Fin.ext (congrArg (fun x : GSem nD τ sig × ℕ × Bool => x.1.1.1.val) h)
    have h2 : b = b' := congrArg (fun x : GSem nD τ sig × ℕ × Bool => x.2.2) h
    subst h1; subst h2; rfl
  · exact absurd (congrArg (fun x : GSem nD τ sig × ℕ × Bool => x.1.2) h) (fun h' => by cases h')
  · exact absurd (congrArg (fun x : GSem nD τ sig × ℕ × Bool => x.1.2) h) (fun h' => by cases h')
  · have h1 : c = c' := Fin.ext (congrArg (fun x : GSem nD τ sig × ℕ × Bool => x.1.1.1.val) h)
    have h2 : j = j' := ownSemFacts.inj (congrArg (fun x : GSem nD τ sig × ℕ × Bool => x.1.2) h)
    subst h1; subst h2; rfl
def agToks : Finset (GSem nD τ sig × ℕ × Bool) := Finset.univ.map ⟨tokAt, tokAt_injective⟩

/-- A device's share of a family over the cells: its barrier cell's, then its own cells'. -/
def perDev (Φ : GSem nD τ sig → sProp 𝕄) (c : Dev nD) : sProp 𝕄 :=
  iprop(Φ (barCell c) ∗ bigSep Finset.univ fun j : Fin 65 => Φ ((c : Thread nD τ), osem j))
/-- The tokens of a device's own cells. -/
def toks (c : Dev nD) : sProp 𝕄 :=
  iprop((bigSep Finset.univ fun b : Bool => dutyTok ER (barCell c) 0 b) ∗ bigSep Finset.univ fun j : Fin 65 => dutyTok ER ((c : Thread nD τ), osem j) 0 false)

omit [FloatOps F] in
theorem cells_split (Φ : GSem nD τ sig → sProp 𝕄) : bigSep agCells Φ = bigSep Finset.univ (perDev Φ) := by
  unfold agCells perDev
  rw [bigSep_map, bigSep_univ_sum, bigSep_univ_prod]
  exact (bigSep_sep' Finset.univ (fun c : Dev nD => Φ (barCell c)) (fun c : Dev nD => bigSep Finset.univ fun j : Fin 65 => Φ ((c : Thread nD τ), osem j))).symm
omit [FloatOps F] in
theorem toks_split : bigSep agToks (fun x => (dutyTok ER x.1 x.2.1 x.2.2 : sProp 𝕄)) = bigSep Finset.univ toks := by
  unfold agToks toks
  rw [bigSep_map, bigSep_univ_sum, bigSep_univ_prod, bigSep_univ_prod]
  exact (bigSep_sep' Finset.univ (fun c : Dev nD => bigSep Finset.univ fun b : Bool => (dutyTok ER (barCell c) 0 b : sProp 𝕄))
    (fun c : Dev nD => bigSep Finset.univ fun j : Fin 65 => dutyTok ER ((c : Thread nD τ), osem j) 0 false)).symm

end Ghost

/-- What the launch element deals device `c` (the launch theorem's `G`): the round state of each of its cells at counter
    zero, that round 0 of each is reached, its place on each, and the tokens of their duties. -/
def G (c : Dev nD) : sProp 𝕄 :=
  iprop(perDev (fun g => roundState ER (agRd m ρ) g 0) c ∗ perDev (fun g => reached ER g 0) c ∗ perDev (fun g => atPos ER g 0 ∅ 0) c ∗ toks c)

/-- The launch element: the pipeline library's copy and the protocol's. -/
def u₀ : UU :=
  (initOf (Pipeline.cells cfgs cellOf_inj) (Pipeline.launchToks cfgs cellOf_inj), initOf agCells agToks)

namespace Ghost
omit [FloatOps F] in
theorem fund_ag : BI.own (ER (initOf agCells agToks)) ⊢ (|==> bigSep Finset.univ (G m ρ) : sProp 𝕄) := by
  iintro HX
  imod (Rounds.fund ER (agRd m ρ) agCells agToks) $$ HX with ⟨Hst, Hr, Hat, Htok⟩
  imodintro
  ihave Hst' := (Entails.of_eq (cells_split fun g => roundState ER (agRd m ρ) g 0)) $$ Hst
  ihave Hr' := (Entails.of_eq (cells_split fun g => reached ER g 0)) $$ Hr
  ihave Hat' := (Entails.of_eq (cells_split fun g => atPos ER g 0 ∅ 0)) $$ Hat
  ihave Htok' := (Entails.of_eq toks_split) $$ Htok
  unfold G; rw [bigSep_sep', bigSep_sep', bigSep_sep']
  isplitl [Hst']; · iexact Hst'
  isplitl [Hr']; · iexact Hr'
  isplitl [Hat']; · iexact Hat'
  iexact Htok'

end Ghost

omit [FloatOps F] in
theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ag m ρ) $$ HX with HG
  imodintro
  isplitl [HP] <;> iassumption

namespace Ghost

/-! ## The invariants allocated, device by device -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem alloc_cell (g : GSem nD τ sig) : iprop(semVal g 0 ∗ roundState ER (agRd m ρ) g 0) ⊢ (|={Set.univ}=> inv m ρ g : sProp 𝕄) :=
  (Rounds.body_intro ER (agRd m ρ) g).trans inv_alloc

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(perDev (inv m ρ) c ∗ perDev (fun g => reached ER g 0) c ∗ perDev (fun g => atPos ER g 0 ∅ 0) c ∗ toks c) := by
  rw [unscopedSems0_eq]
  unfold G Pipeline.ownSems0 perDev
  iintro ⟨Hos, Hus, ⟨HsB, Hst⟩, Hr, Hat, Htok⟩
  imod (alloc_cell m ρ (barCell c)) $$ [Hus HsB] with HiB
  · isplitl [Hus] <;> iassumption
  imod (show iprop((bigSep Finset.univ fun j : Fin 65 => semVal ((c : Thread nD τ), osem j) 0) ∗ bigSep Finset.univ fun j : Fin 65 => roundState ER (agRd m ρ) ((c : Thread nD τ), osem j) 0)
      ⊢ (|={Set.univ}=> bigSep Finset.univ fun j : Fin 65 => inv m ρ ((c : Thread nD τ), osem j) : sProp 𝕄) from by
        rw [← bigSep_sep']
        exact (bigSep_mono fun j _ => alloc_cell m ρ ((c : Thread nD τ), osem j)).trans (bigSep_fupd _ _)) $$ [Hos Hst] with Hinv
  · isplitl [Hos] <;> iassumption
  imodintro
  isplitl [HiB Hinv]
  · isplitl [HiB] <;> iassumption
  isplitl [Hr]; · iexact Hr
  isplitl [Hat]; · iexact Hat
  iexact Htok

/-! ## The regrouping over all devices -/

omit [FloatOps F] in
theorem perDev_eq (Φ : GSem nD τ sig → sProp 𝕄) (c : Dev nD) :
    perDev Φ c = iprop(Φ (barCell c) ∗ Φ (cpCell c)
      ∗ bigSep Finset.univ fun k : Fin 16 => iprop(Φ (sxCell c k) ∗ Φ (rxCell c k) ∗ Φ (syCell c k) ∗ Φ (ryCell c k))) := by
  unfold perDev; rw [bigSep_own (fun sm => Φ ((c : Thread nD τ), sm))]

omit [FloatOps F] in
theorem toks_eq (c : Dev nD) :
    (toks c : sProp 𝕄) = iprop((dutyTok ER (barCell c) 0 false ∗ dutyTok ER (barCell c) 0 true) ∗ dutyTok ER (cpCell c) 0 false
      ∗ bigSep Finset.univ fun k : Fin 16 => iprop(dutyTok ER (sxCell c k) 0 false ∗ dutyTok ER (rxCell c k) 0 false
          ∗ dutyTok ER (syCell c k) 0 false ∗ dutyTok ER (ryCell c k) 0 false)) := by
  unfold toks; rw [bigSep_bool, bigSep_own (fun sm => dutyTok ER ((c : Thread nD τ), sm) 0 false)]

omit [FloatOps F] in
theorem perDev_bar (Φ : GSem nD τ sig → sProp 𝕄) (c : Dev nD) : perDev Φ c ⊢ Φ (barCell c) := by
  unfold perDev; iintro ⟨H, -⟩; iexact H
omit [FloatOps F] in
theorem perDev_dma (Φ : GSem nD τ sig → sProp 𝕄) (c : Dev nD) (q : DmaSem sig) (hq : 2 ≤ q.val) :
    perDev Φ c ⊢ Φ ((c : Thread nD τ), .dma q) := by
  have hlt : q.val < 67 := q.isLt
  have hj : q.val - 2 < 65 := by omega
  have he : osem ⟨q.val - 2, hj⟩ = .dma q := congrArg SemLoc.dma (Fin.ext (by show q.val - 2 + 2 = q.val; omega))
  have h : (bigSep Finset.univ fun j : Fin 65 => Φ ((c : Thread nD τ), osem j)) ⊢ Φ ((c : Thread nD τ), osem ⟨q.val - 2, hj⟩) :=
    bigSep_elim (Finset.mem_univ _)
  rw [he] at h
  unfold perDev; iintro ⟨-, H⟩; iapply h; iexact H

instance perDev_persistent (Φ : GSem nD τ sig → sProp 𝕄) [∀ g, BI.Persistent (Φ g)] (c : Dev nD) : BI.Persistent (perDev Φ c) := by
  unfold perDev; infer_instance

/-- Every cell's invariant, and that round 0 of each is reached: the lasting facts every device draws on. -/
def recs : sProp 𝕄 := iprop(bigSep Finset.univ (perDev (inv m ρ)) ∗ bigSep Finset.univ (perDev fun g => reached ER g 0))
instance recs_persistent : BI.Persistent (recs m ρ) := by unfold recs; infer_instance

omit [FloatOps F] in
theorem recs_inv (c : Dev nD) : recs m ρ ⊢ perDev (inv m ρ) c := by
  have h : bigSep Finset.univ (perDev (inv m ρ)) ⊢ perDev (inv m ρ) c := bigSep_elim (Finset.mem_univ c)
  unfold recs; iintro ⟨H, -⟩; iapply h; iexact H
omit [FloatOps F] in
theorem recs_rch (c : Dev nD) : recs m ρ ⊢ perDev (fun g => reached ER g 0) c := by
  have h : bigSep Finset.univ (perDev fun g => (reached ER g 0 : sProp 𝕄)) ⊢ perDev (fun g => reached ER g 0) c := bigSep_elim (Finset.mem_univ c)
  unfold recs; iintro ⟨-, H⟩; iapply h; iexact H

omit [FloatOps F] in
theorem inv_bar (c : Dev nD) : recs m ρ ⊢ inv m ρ (barCell c) := (recs_inv m ρ c).trans (perDev_bar _ c)
omit [FloatOps F] in
theorem inv_dma (c : Dev nD) (q : DmaSem sig) (hq : 2 ≤ q.val) : recs m ρ ⊢ inv m ρ ((c : Thread nD τ), .dma q) :=
  (recs_inv m ρ c).trans (perDev_dma _ c q hq)
omit [FloatOps F] in
theorem rch_bar (c : Dev nD) : recs m ρ ⊢ reached ER (barCell c) 0 := (recs_rch m ρ c).trans (perDev_bar (fun g => reached ER g 0) c)
omit [FloatOps F] in
theorem rch_dma (c : Dev nD) (q : DmaSem sig) (hq : 2 ≤ q.val) : recs m ρ ⊢ reached ER ((c : Thread nD τ), .dma q) 0 :=
  (recs_rch m ρ c).trans (perDev_dma (fun g => reached ER g 0) c q hq)

theorem two_le_sx (k : Fin 16) : 2 ≤ (sxS k).val := by show 2 ≤ 2 + k.val; omega
theorem two_le_rx (k : Fin 16) : 2 ≤ (rxS k).val := by show 2 ≤ 18 + k.val; omega
theorem two_le_sy (k : Fin 16) : 2 ≤ (syS k).val := by show 2 ≤ 34 + k.val; omega
theorem two_le_ry (k : Fin 16) : 2 ≤ (ryS k).val := by show 2 ≤ 50 + k.val; omega
theorem two_le_cp : 2 ≤ (cpS).val := by show 2 ≤ 66; omega

omit [FloatOps F] in
/-- Two consequences of a persistent assertion, side by side. -/
theorem pers_sep {R A B : sProp 𝕄} [BI.Persistent R] (h₁ : R ⊢ A) (h₂ : R ⊢ B) : R ⊢ iprop(A ∗ B) := by
  iintro #H
  isplitr
  · iapply h₁; iexact H
  · iapply h₂; iexact H

omit [FloatOps F] in
theorem cfacts_intro (c : Dev nD) (k : Fin 16) : recs m ρ ⊢ cfacts m ρ c k := by
  unfold cfacts
  exact pers_sep (inv_dma m ρ c (sxS k) (two_le_sx k)) (pers_sep (inv_dma m ρ c (rxS k) (two_le_rx k)) (pers_sep (inv_dma m ρ c (syS k) (two_le_sy k))
    (pers_sep (inv_dma m ρ c (ryS k) (two_le_ry k)) (pers_sep (inv_dma m ρ (xn c) (rxS k) (two_le_rx k)) (pers_sep (inv_dma m ρ (yn c) (ryS k) (two_le_ry k))
    (pers_sep (rch_dma m ρ c (sxS k) (two_le_sx k)) (pers_sep (rch_dma m ρ c (syS k) (two_le_sy k))
    (pers_sep (rch_dma m ρ (xn c) (rxS k) (two_le_rx k)) (rch_dma m ρ (yn c) (ryS k) (two_le_ry k))))))))))

omit [FloatOps F] in
theorem gfacts_intro (c : Dev nD) : recs m ρ ⊢ gfacts m ρ c := by
  unfold gfacts
  exact pers_sep (inv_bar m ρ c) (pers_sep (inv_bar m ρ (xn c)) (pers_sep (inv_bar m ρ (yn c)) (pers_sep (inv_dma m ρ c cpS two_le_cp)
    (pers_sep (rch_bar m ρ (xn c)) (pers_sep (rch_bar m ρ (yn c)) (pers_sep (rch_dma m ρ c cpS two_le_cp)
    ((BI.bigSep_of_persistent Finset.univ (recs m ρ)).trans (bigSep_mono fun k _ => cfacts_intro m ρ c k))))))))

/-- The tokens of the duties device `c` pays. -/
def payToks (c : Dev nD) : sProp 𝕄 :=
  iprop((dutyTok ER (barCell (xn c)) 0 false ∗ dutyTok ER (barCell (yn c)) 0 true) ∗ dutyTok ER (cpCell c) 0 false
    ∗ bigSep Finset.univ fun k : Fin 16 => iprop(dutyTok ER (sxCell c k) 0 false ∗ dutyTok ER (rxCell (xn c) k) 0 false
        ∗ dutyTok ER (syCell c k) 0 false ∗ dutyTok ER (ryCell (yn c) k) 0 false))

omit [FloatOps F] in
/-- Over all devices, two of a device's single summands and two of its per-chunk summands dealt along two permutations. -/
theorem travel (e₁ e₂ : Dev nD ≃ Dev nD) (p₁ p₂ p₃ : Dev nD → sProp 𝕄) (q₁ q₂ q₃ q₄ : Dev nD → Fin 16 → sProp 𝕄) :
    (bigSep Finset.univ fun c => iprop((p₁ c ∗ p₂ c) ∗ p₃ c ∗ bigSep Finset.univ fun k => iprop(q₁ c k ∗ q₂ c k ∗ q₃ c k ∗ q₄ c k)))
      = bigSep Finset.univ fun c => iprop((p₁ (e₁ c) ∗ p₂ (e₂ c)) ∗ p₃ c
          ∗ bigSep Finset.univ fun k => iprop(q₁ c k ∗ q₂ (e₁ c) k ∗ q₃ c k ∗ q₄ (e₂ c) k)) := by
  simp only [bigSep_sep']
  rw [bigSep_univ_equiv e₁ p₁, bigSep_univ_equiv e₂ p₂, bigSep_univ_equiv e₁ (fun c => bigSep Finset.univ (q₂ c)),
    bigSep_univ_equiv e₂ (fun c => bigSep Finset.univ (q₄ c))]

omit [FloatOps F] in
/-- The tokens dealt to their payers: a barrier's `false` token and a direct copy's receive token across rows, a
    barrier's `true` token and a passed-on copy's receive token along the row. -/
theorem toks_around : (bigSep Finset.univ fun c : Dev nD => (toks c : sProp 𝕄)) = bigSep Finset.univ fun c : Dev nD => payToks c := by
  rw [bigSep_congr (s := Finset.univ) fun (c : Dev nD) _ => toks_eq (F := F) c]
  unfold payToks
  exact travel xSwap ySwap (fun c => dutyTok ER (barCell c) 0 false) (fun c => dutyTok ER (barCell c) 0 true) (fun c => dutyTok ER (cpCell c) 0 false)
    (fun c k => dutyTok ER (sxCell c k) 0 false) (fun c k => dutyTok ER (rxCell c k) 0 false)
    (fun c k => dutyTok ER (syCell c k) 0 false) (fun c k => dutyTok ER (ryCell c k) 0 false)

omit [FloatOps F] in
theorem zip4 (t₁ t₂ t₃ t₄ a₁ a₂ a₃ a₄ : Fin 16 → sProp 𝕄) :
    iprop((bigSep Finset.univ fun k => iprop(t₁ k ∗ t₂ k ∗ t₃ k ∗ t₄ k)) ∗ bigSep Finset.univ fun k => iprop(a₁ k ∗ a₂ k ∗ a₃ k ∗ a₄ k))
      ⊢ bigSep Finset.univ fun k => iprop(t₁ k ∗ t₂ k ∗ t₃ k ∗ t₄ k ∗ a₁ k ∗ a₂ k ∗ a₃ k ∗ a₄ k) := by
  have h (k : Fin 16) : iprop((t₁ k ∗ t₂ k ∗ t₃ k ∗ t₄ k) ∗ a₁ k ∗ a₂ k ∗ a₃ k ∗ a₄ k) ⊢ iprop(t₁ k ∗ t₂ k ∗ t₃ k ∗ t₄ k ∗ a₁ k ∗ a₂ k ∗ a₃ k ∗ a₄ k) := by
    iintro ⟨⟨H1, H2, H3, H4⟩, K⟩
    isplitl [H1]; · iexact H1
    isplitl [H2]; · iexact H2
    isplitl [H3]; · iexact H3
    isplitl [H4]; · iexact H4
    iexact K
  rw [← bigSep_sep']
  exact bigSep_mono fun k _ => h k

omit [FloatOps F] in
theorem lin_dev (c : Dev nD) : iprop(perDev (fun g => atPos ER g 0 ∅ 0) c ∗ payToks c) ⊢ (gtoks c : sProp 𝕄) := by
  have h : iprop((bigSep Finset.univ fun k : Fin 16 => iprop(dutyTok ER (sxCell c k) 0 false ∗ dutyTok ER (rxCell (xn c) k) 0 false
          ∗ dutyTok ER (syCell c k) 0 false ∗ dutyTok ER (ryCell (yn c) k) 0 false))
        ∗ bigSep Finset.univ fun k : Fin 16 => iprop(atPos ER (sxCell c k) 0 ∅ 0 ∗ atPos ER (rxCell c k) 0 ∅ 0 ∗ atPos ER (syCell c k) 0 ∅ 0 ∗ atPos ER (ryCell c k) 0 ∅ 0))
      ⊢ (bigSep Finset.univ (T0 c) : sProp 𝕄) := zip4 _ _ _ _ _ _ _ _
  rw [perDev_eq]
  unfold payToks gtoks
  iintro ⟨⟨HaB, HaC, Ha⟩, ⟨HtF, HtT⟩, HtC, Ht⟩
  isplitl [HaB]; · iexact HaB
  isplitl [HaC]; · iexact HaC
  isplitl [HtF]; · iexact HtF
  isplitl [HtT]; · iexact HtT
  isplitl [HtC]; · iexact HtC
  iapply h
  isplitl [Ht]; · iexact Ht
  iexact Ha

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (c : Dev nD) : iprop(recs m ρ ∗ perDev (fun g => atPos ER g 0 ∅ 0) c ∗ payToks c) ⊢ G' m ρ c := by
  unfold G'
  iintro ⟨#H, HL⟩
  isplitr
  · iapply (gfacts_intro m ρ c); iexact H
  · iapply (lin_dev (F := F) c); iexact HL

omit [FloatOps F] in
theorem regroup :
    (bigSep Finset.univ fun c : Dev nD => iprop(perDev (inv m ρ) c ∗ perDev (fun g => reached ER g 0) c ∗ perDev (fun g => atPos ER g 0 ∅ 0) c ∗ toks c) : sProp 𝕄)
      ⊢ bigSep Finset.univ (G' m ρ) := by
  rw [bigSep_sep', bigSep_sep', bigSep_sep', toks_around]
  iintro ⟨#HI, #HR, Hat, Htok⟩
  iapply (bigSep_with_persistent (R := recs m ρ) fun c _ => ghost_intro m ρ c)
  isplitr
  · unfold recs; isplitr; · iexact HI
    iexact HR
  · iapply (Entails.of_eq (bigSep_sep' Finset.univ (perDev fun g => (atPos ER g 0 ∅ 0 : sProp 𝕄)) payToks).symm)
    isplitl [Hat]; · iexact Hat
    iexact Htok

end Ghost

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.Kernel.AG.hu0' depends on axioms: [propext, Classical.choice, Quot.sound] -/
#guard_msgs in #print axioms hu0
/-- info: 'Cert.Kernel.AG.glob' depends on axioms: [propext, Classical.choice, Quot.sound] -/
#guard_msgs in #print axioms glob

end Cert.Kernel.AG

end
-- ==== Proof.W.Launch2.lean ====
/-
  The launch of the all-gather: the credit each device is dealt for what its neighbours owe it, the levels its waits
  need, the region's entry and exit, and the run: every weakly fair execution of the four kernels terminates with each
  device's result array holding the whole array and its argument array as it was.
-/
import proofs.«900077_g7700000000000078_dist_ag_v7x_xy2x2_x_m1024_n512_f32_1_alg».proof.Proof.W.Launch1

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- At launch no chunk has gone yet: a device owes the receive credit of all sixteen direct copies, -/
theorem OA_zero (c : Dev nD) : OA c 0 = ∑ k : Fin 16, tallyAt (rxCell (xn c) k) () N := by
  unfold OA; exact Finset.sum_congr rfl fun k _ => if_pos (Nat.zero_le _)
/-- and of all sixteen passed-on copies. -/
theorem OB_zero (c : Dev nD) : OB c 0 = ∑ k : Fin 16, tallyAt (ryCell (yn c) k) () N := by
  unfold OB; exact Finset.sum_congr rfl fun k _ => if_pos (Nat.zero_le _)

/-- What the devices together owe device `c`'s cells: a chunk's credit on each of its receive sides, and a unit from
    each neighbour on its barrier. -/
def T₀ (c : Dev nD) : CellTallies nD τ sig Unit :=
  (∑ k : Fin 16, tallyAt (rxCell c k) () N) + (∑ k : Fin 16, tallyAt (ryCell c k) () N) + tallyAt (barCell c) () 1 + tallyAt (barCell c) () 1

/-- Summed over the devices, what each owes its neighbours is what each is owed: the neighbour maps are involutions. -/
theorem sum_O₀ : (∑ d : Dev nD, O₀ d) = ∑ d : Dev nD, T₀ d := by
  have hA : (∑ d : Dev nD, ∑ k : Fin 16, (tallyAt (rxCell (xn d) k) () N : CellTallies nD τ sig Unit)) = ∑ d : Dev nD, ∑ k : Fin 16, tallyAt (rxCell d k) () N :=
    Equiv.sum_comp xSwap (fun c => ∑ k : Fin 16, (tallyAt (rxCell c k) () N : CellTallies nD τ sig Unit))
  have hB : (∑ d : Dev nD, ∑ k : Fin 16, (tallyAt (ryCell (yn d) k) () N : CellTallies nD τ sig Unit)) = ∑ d : Dev nD, ∑ k : Fin 16, tallyAt (ryCell d k) () N :=
    Equiv.sum_comp ySwap (fun c => ∑ k : Fin 16, (tallyAt (ryCell c k) () N : CellTallies nD τ sig Unit))
  have hC : (∑ d : Dev nD, (tallyAt (barCell (yn d)) () 1 : CellTallies nD τ sig Unit)) = ∑ d : Dev nD, tallyAt (barCell d) () 1 :=
    Equiv.sum_comp ySwap (fun c => (tallyAt (barCell c) () 1 : CellTallies nD τ sig Unit))
  have hD : (∑ d : Dev nD, (tallyAt (barCell (xn d)) () 1 : CellTallies nD τ sig Unit)) = ∑ d : Dev nD, tallyAt (barCell d) () 1 :=
    Equiv.sum_comp xSwap (fun c => (tallyAt (barCell c) () 1 : CellTallies nD τ sig Unit))
  unfold O₀ T₀
  simp only [OA_zero, OB_zero, Finset.sum_add_distrib]
  rw [hA, hB, hC, hD]

/-- What a device is owed sits on its own cells. -/
theorem T₀_own (d : Dev nD) (g : GSem nD τ sig) (h : T₀ d g ≠ 0) : g.1 = (d : Thread nD τ) := by
  by_contra hne
  refine h ?_
  have hz (g' : GSem nD τ sig) (hg' : g'.1 = (d : Thread nD τ)) (n : ℕ) : tallyAt g' () n g = 0 :=
    tallyAt_ne_cell (fun e : g = g' => hne (by rw [e]; exact hg')) () n
  unfold T₀
  rw [Pi.add_apply, Pi.add_apply, Pi.add_apply, Finset.sum_apply, Finset.sum_apply,
    Finset.sum_eq_zero (fun k _ => hz (rxCell d k) rfl N), Finset.sum_eq_zero (fun k _ => hz (ryCell d k) rfl N), hz (barCell d) rfl 1, add_zero, add_zero, add_zero]

theorem T₀_eq (c : Dev nD) :
    T₀ c = tallyAt (barCell c) () 2 + ((∑ k : Fin 16, tallyAt (rxCell c k) () N) + ∑ k : Fin 16, tallyAt (ryCell c k) () N) := by
  unfold T₀
  rw [add_assoc _ (tallyAt (barCell c) () 1) (tallyAt (barCell c) () 1), tallyAt_add, add_comm]

/-- The launch deals device `c` two units on its barrier and a chunk's credit on each of its 32 receive sides. -/
theorem creds (c : Dev nD) :
    (Pipeline.launchCred O₀ c : sProp 𝕄)
      ⊢ iprop(cred (tallyAt (barCell c) () 2) ∗ bigSep Finset.univ fun k : Fin 16 => iprop(cred (tallyAt (rxCell c k) () N) ∗ cred (tallyAt (ryCell c k) () N))) := by
  rw [Pipeline.launchCred_of_sum O₀ T₀ sum_O₀ T₀_own c, T₀_eq, bigSep_sep', ← Pipeline.cred_finsetSum, ← Pipeline.cred_finsetSum]
  have h1 := (cred_add (Ix := Unit) (Val := Elt F) (Name := ℕ) (U := UU) (Lvl := ℕ) (tallyAt (barCell c) () 2 : CellTallies nD τ sig Unit) ((∑ k : Fin 16, tallyAt (rxCell c k) () N) + ∑ k : Fin 16, tallyAt (ryCell c k) () N)).1
  have h2 := (cred_add (Ix := Unit) (Val := Elt F) (Name := ℕ) (U := UU) (Lvl := ℕ) (∑ k : Fin 16, (tallyAt (rxCell c k) () N : CellTallies nD τ sig Unit)) (∑ k : Fin 16, tallyAt (ryCell c k) () N)).1
  iintro H
  ihave H' := h1 $$ H
  icases H' with ⟨Hb, Hr⟩
  isplitl [Hb]; · iexact Hb
  iapply h2; iexact Hr

/-! ## Entry and exit of the region -/

/-- A chunk's share: its tokens and places, and the two receive credits. -/
theorem K0_intro (c : Dev nD) (k : Fin 16) :
    iprop(T0 c k ∗ (cred (tallyAt (rxCell c k) () N) ∗ cred (tallyAt (ryCell c k) () N))) ⊢ (K0 c k : sProp 𝕄) := by
  unfold T0 K0
  iintro ⟨⟨H1, H2, H3, H4, H5, H6, H7, H8⟩, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What a device holds once: what the global step left it, and the launch credit. -/
theorem glin_intro (c : Dev nD) :
    iprop(gtoks c ∗ cred (tallyAt (barCell c) () 2)
        ∗ bigSep Finset.univ fun k : Fin 16 => iprop(cred (tallyAt (rxCell c k) () N) ∗ cred (tallyAt (ryCell c k) () N)))
      ⊢ (glin c : sProp 𝕄) := by
  have hK : iprop(bigSep Finset.univ (T0 c) ∗ bigSep Finset.univ fun k : Fin 16 => iprop(cred (tallyAt (rxCell c k) () N) ∗ cred (tallyAt (ryCell c k) () N)))
      ⊢ (bigSep Finset.univ (K0 c) : sProp 𝕄) := by
    rw [← bigSep_sep']; exact bigSep_mono fun k _ => K0_intro c k
  unfold gtoks glin
  iintro ⟨⟨H1, H2, H3, H4, H5, HT⟩, Hb, Hc⟩
  isplitl [H1]; · iexact H1
  isplitl [H2]; · iexact H2
  isplitl [H3]; · iexact H3
  isplitl [H4]; · iexact H4
  isplitl [H5]; · iexact H5
  isplitl [Hb]; · iexact Hb
  iapply hK
  isplitl [HT]; · iexact HT
  iexact Hc

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨Hb, Hk⟩
  imodintro
  unfold start G'
  icases HG with ⟨Hf, Ht⟩
  isplitl [Hf Hb Hk Ht Hlev]
  · isplitl [Hf]; · iexact Hf
    isplitl [Hb Hk Ht]
    · iapply (glin_intro (F := F) c)
      isplitl [Ht]; · iexact Ht
      isplitl [Hb]; · iexact Hb
      iexact Hk
    · iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

/-- The kernel's own 65 semaphores as the launch numbers them: chunk `k`'s four at `k`, `16 + k`, `32 + k` and
    `48 + k`, the local copy's last. -/
def ownIx : (Fin 4 × Fin 16) ⊕ Unit ≃ Fin 65 where
  toFun
    | .inl (a, k) => ⟨16 * a.val + k.val, by have := a.isLt; have := k.isLt; omega⟩
    | .inr _ => ⟨64, by decide⟩
  invFun j := if h : j.val < 64 then .inl (⟨j.val / 16, by omega⟩, ⟨j.val % 16, Nat.mod_lt _ (by decide)⟩) else .inr ()
  left_inv := by
    rintro (⟨a, k⟩ | _)
    · have ha := a.isLt; have hk := k.isLt
      have h : 16 * a.val + k.val < 64 := by omega
      simp only [dif_pos h]
      refine congrArg Sum.inl (Prod.ext (Fin.ext ?_) (Fin.ext ?_))
      · show (16 * a.val + k.val) / 16 = a.val; omega
      · show (16 * a.val + k.val) % 16 = k.val; omega
    · rfl
  right_inv := by
    intro j
    have hj := j.isLt
    by_cases h : j.val < 64
    · simp only [dif_pos h]; apply Fin.ext; show 16 * (j.val / 16) + j.val % 16 = j.val; omega
    · simp only [dif_neg h]; apply Fin.ext; show 64 = j.val; omega

theorem osem_sx (k : Fin 16) : osem (ownIx (.inl (0, k))) = .dma (sxS k) :=
  congrArg SemLoc.dma (Fin.ext (by show 16 * 0 + k.val + 2 = 2 + k.val; omega))
theorem osem_rx (k : Fin 16) : osem (ownIx (.inl (1, k))) = .dma (rxS k) :=
  congrArg SemLoc.dma (Fin.ext (by show 16 * 1 + k.val + 2 = 18 + k.val; omega))
theorem osem_sy (k : Fin 16) : osem (ownIx (.inl (2, k))) = .dma (syS k) :=
  congrArg SemLoc.dma (Fin.ext (by show 16 * 2 + k.val + 2 = 34 + k.val; omega))
theorem osem_ry (k : Fin 16) : osem (ownIx (.inl (3, k))) = .dma (ryS k) :=
  congrArg SemLoc.dma (Fin.ext (by show 16 * 3 + k.val + 2 = 50 + k.val; omega))
theorem osem_cp : osem (ownIx (.inr ())) = .dma cpS := rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_univ_sum' {α β : Type} [Fintype α] [Fintype β] (Φ : α ⊕ β → sProp 𝕄) :
    bigSep Finset.univ Φ = iprop(bigSep Finset.univ (fun a => Φ (.inl a)) ∗ bigSep Finset.univ fun b => Φ (.inr b)) := bigSep_univ_sum Φ

/-- The kernel's own semaphores at zero, chunk by chunk, are its 65 at zero. -/
theorem ownSems0_intro (c : Dev nD) :
    (Φ₁ c : sProp 𝕄) ⊢ Pipeline.ownSems0 (Ix := Unit) (Name := ℕ) (U := UU) (Lvl := ℕ) (Val := Elt F) (τ := τ) osem c := by
  unfold Pipeline.ownSems0 Φ₁
  rw [bigSep_univ_equiv ownIx, bigSep_univ_sum', bigSep_univ_prod, bigSep_univ_of_subsingleton (), bigSep_fin4,
    bigSep_sep', bigSep_sep', bigSep_sep']
  simp only [osem_sx, osem_rx, osem_sy, osem_ry, osem_cp]
  iintro ⟨Hcp, H0, H1, H2, H3⟩
  isplitl [H0 H1 H2 H3]
  · isplitl [H0]; · iexact H0
    isplitl [H1]; · iexact H1
    isplitl [H2]; · iexact H2
    iexact H3
  · iexact Hcp

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  iintro H
  isplitr; · iempintro
  isplitl [H]
  · iapply (ownSems0_intro (F := F) c); iexact H
  · iempintro

/-! ## Levels -/

/-- Every cell a device owes at launch is a TensorCore's, above level 0. -/
theorem O₀_lv {c : Dev nD} {g : GSem nD τ sig} {u : Unit} (h : 0 < O₀ c g u) : u ∈ L g ∧ 0 < lv g u := by
  unfold O₀ at h
  rcases Pipeline.add_pos_cases h with h | h
  · rcases Pipeline.add_pos_cases h with h | h
    · rcases OAB_pos h with ⟨k, rfl⟩ | ⟨k, rfl⟩
      · rw [L_tc, lv_rx]; exact ⟨Finset.mem_singleton_self _, by decide⟩
      · rw [L_tc, lv_ry]; exact ⟨Finset.mem_singleton_self _, by decide⟩
    · obtain ⟨rfl, -⟩ := Pipeline.tallyAt_pos h
      rw [L_tc, lv_bar]; exact ⟨Finset.mem_singleton_self _, by decide⟩
  · obtain ⟨rfl, -⟩ := Pipeline.tallyAt_pos h
    rw [L_tc, lv_bar]; exact ⟨Finset.mem_singleton_self _, by decide⟩

/-- The staging semaphores sit at level 0: a device may wait on them owing what it owes at launch, or nothing. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_lv hg).1)
      (fun p hp => by
        rw [Finset.mem_singleton.mp hp]
        show (if 18 ≤ q.val ∧ q.val < 34 then 2 else if 50 ≤ q.val ∧ q.val < 66 then 3 else 0) ≤ 0
        rw [if_neg (by omega), if_neg (by omega)])
      (fun g u hg => (O₀_lv hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

theorem share_eq (c : Dev nD) (w : Fin cfg0.W) : (dats m ρ 0 c).share w = fullShare := by unfold Dat.share; split <;> rfl

/-- Each windowed array after the run: the argument array, and the result array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's two arrays at `finalA`. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu0 m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the whole array, row by row from the device it came from. -/
theorem finalA_o (c : Dev nD) : finalA m ρ c (1 : Fin 2) = Fo m ρ c := by
  unfold finalA
  rw [show cfg0.N = (t₀ : Fin cfg0.N).val + 1 from rfl, (dats m ρ 0 c).arrAt_succ (1 : Fin 2) t₀, if_pos (show (cfg0.win (1 : Fin 2)).flush t₀ = true from rfl)]
  exact Memref.write_access_unit_zero_univ (Elt F) main_v1 (funext fun a => Nat.zero_mul _) _ _ _

/-- info: 'Cert.Kernel.AG.creds' depends on axioms: [propext, Classical.choice, Quot.sound] -/
#guard_msgs in #print axioms creds
/-- info: 'Cert.Kernel.AG.start_intro' depends on axioms: [propext, Classical.choice, Quot.sound] -/
#guard_msgs in #print axioms start_intro
/-- info: 'Cert.Kernel.AG.phi1_exit' depends on axioms: [propext, Classical.choice, Quot.sound] -/
#guard_msgs in #print axioms phi1_exit
/-- info: 'Cert.Kernel.AG.waits' depends on axioms: [propext, Classical.choice, Quot.sound] -/
#guard_msgs in #print axioms waits
/-- info: 'Cert.Kernel.AG.finalA_x' depends on axioms: [propext, Classical.choice, Quot.sound] -/
#guard_msgs in #print axioms finalA_x
/-- info: 'Cert.Kernel.AG.finalA_o' depends on axioms: [propext, Classical.choice, Quot.sound] -/
#guard_msgs in #print axioms finalA_o

end Cert.Kernel.AG

end
-- ==== Proof.Whole.lean ====
/-
  Every device ends with the whole array. When each device's block is its part of one 2048 × 512 array `X` — the block of
  its row of the mesh, the two devices of a row holding the same block — the result buffer `Fo c`, assembled row by row
  from the blocks of the devices the rows came from, is `X` on every device: the device a row comes from is always in the
  row of the mesh that holds that row's block.
-/
import proofs.«900077_g7700000000000078_dist_ag_v7x_xy2x2_x_m1024_n512_f32_1_alg».proof.Proof.Sched
import Idealize.ShloMosaic.Lib.Layout

noncomputable section

namespace Cert.KernelIdeal.AG

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The mesh row of the two neighbours: the device across rows is in the other row, the row mate in the same. -/
private theorem xn_row (c : Dev nD) : (xn c).val / 2 = 1 - c.val / 2 := by revert c; decide
private theorem yn_row (c : Dev nD) : (yn c).val / 2 = c.val / 2 := by revert c; decide

/-- The device a row of the result comes from is in the mesh row that holds that row's block. -/
private theorem srcDev_row (c : Dev nD) (r : ℕ) (hr : r < 2048) : (srcDev c r).val / 2 = r / 1024 := by
  have hc : c.val < 4 := c.isLt
  unfold srcDev
  split
  · omega
  · split
    · rw [xn_row]; omega
    · rw [xn_row, yn_row]; omega

/-- A device's block coordinate along the rows of the array is its mesh row. -/
private theorem meshLin_row : ∀ d : Dev nD, Layout.meshLin [2, 2] d.val [0] = d.val / 2 := by decide

omit [FloatOps F] in
/-- The staged block of a device is its launch block, element by element. -/
private theorem xstg_apply (d : Dev nD) (j : (⟨2, ![1024, 512]⟩ : Shape).Idx) :
    xstg m ρ d j = m ((d.tc : Thread nD τ).loc main_arg0) j := by
  have he : (win0_0.blk (0 : Fin 1)).view.emb j = j := by
    funext a
    apply Fin.ext
    show 0 * _ + 1 * (j a).val = (j a).val
    omega
  unfold xstg
  rw [View.read_apply, he]
  rfl

omit [FloatOps F] in
theorem Fo_whole (X : (⟨2, ![2048, 512]⟩ : Shape).Idx → Elt F .f32)
    (h : ∀ c : Dev nD, m ((c.tc : Thread nD τ).loc main_arg0)
      = Layout.blockN ⟨2, ![1024, 512]⟩ ⟨2, ![2048, 512]⟩ (Layout.meshBlock [2, 2] ![[0], []] c) X)
    (c : Dev nD) : Fo m ρ c = X := by
  funext i
  have hi : (i 0).val < 2048 := (i 0).isLt
  have hsrc := srcDev_row c (i 0).val hi
  show xstg m ρ (srcDev c (i 0).val) _ = X i
  rw [xstg_apply, h, Layout.blockN_apply]
  congr 1
  funext b
  apply Fin.ext
  rw [Layout.TilesN.idx_val, Layout.meshBlock_val]
  match b with
  | ⟨0, _⟩ =>
    show Layout.meshLin [2, 2] (srcDev c (i 0).val).val [0] * 1024 + (i 0).val % 1024 = (i 0).val
    rw [meshLin_row]; omega
  | ⟨1, _⟩ =>
    show 0 * 512 + (i 1).val = (i 1).val
    omega

end Cert.KernelIdeal.AG

end
-- ==== Proof.RefRun.lean ====
/-
  The reference is the identity: its @main returns at once, so every buffer ends holding what it held.
-/
import proofs.«900077_g7700000000000078_dist_ag_v7x_xy2x2_x_m1024_n512_f32_1_alg».proof.ReferenceIdeal
import proofs.«900077_g7700000000000078_dist_ag_v7x_xy2x2_x_m1024_n512_f32_1_alg».proof.Proof.Gen.ReferenceIdeal
import Idealize.ShloMosaic.Lib.StableHlo.Run

noncomputable section

namespace Cert.ReferenceIdeal.RefRun

open Cert.ReferenceIdeal
open Idealize.ShloMosaic Idealize.SL.Sem

variable {F : FTy → Type} [FloatOps F] [Cert.ReferenceIdeal.Facts]

/-- Every weakly fair execution of the reference terminates, every buffer unchanged. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ (d : Dev nD) (b : Ref sig .tc), r.2.mem ((d.tc : Thread nD τ).loc b) = m ((d.tc : Thread nD τ).loc b)) :=
  (θ_run (defs (F := F)) _ _).mono (fun r h d b => (h d b).trans rfl)
    (StableHlo.run_seq (by decide) (by decide) (defs (F := F)) (main (F := F)) (fun _ => []) (fun _ => rfl) (fun _ => trivial) m ρ)

end Cert.ReferenceIdeal.RefRun

end
-- ==== Proof.lean ====
/-
  The all-gather on a 2 × 2 mesh against the identity on the whole array.

  Each of the four devices holds the 1024-row block of its row of the mesh and must end holding all 2048 rows. Device
  `(i, j)` sends half `j` of its block to the device across rows, copies its own block into place, and passes each chunk
  it receives on to the other device of its row, all behind a handshake on the barrier semaphore with both neighbours.
  The frames: every weakly fair execution of the four kernels terminates, nothing faulting, the argument arrays unchanged
  — the run of Proof/Launch2.lean (for the word-level program the same text under Proof/W/), with the result array named.
  The value: every device's result array holds the whole array, row by row from the block of the device it came from
  (Proof/Whole.lean), which is what the reference, returning its argument, ends with. No arithmetic is done on a float, so
  the precondition is never opened and the idealization rewrote nothing.
-/
import proofs.«900077_g7700000000000078_dist_ag_v7x_xy2x2_x_m1024_n512_f32_1_alg».proof.Defs
import proofs.«900077_g7700000000000078_dist_ag_v7x_xy2x2_x_m1024_n512_f32_1_alg».proof.Proof.Gen.Kernel
import proofs.«900077_g7700000000000078_dist_ag_v7x_xy2x2_x_m1024_n512_f32_1_alg».proof.Proof.Gen.KernelIdeal
import proofs.«900077_g7700000000000078_dist_ag_v7x_xy2x2_x_m1024_n512_f32_1_alg».proof.Proof.Gen.ReferenceIdeal
import proofs.«900077_g7700000000000078_dist_ag_v7x_xy2x2_x_m1024_n512_f32_1_alg».proof.Proof.Gen.Pre_finite_inputs_Kernel
import proofs.«900077_g7700000000000078_dist_ag_v7x_xy2x2_x_m1024_n512_f32_1_alg».proof.Proof.Gen.Pre_finite_inputs_ReferenceIdeal
import proofs.«900077_g7700000000000078_dist_ag_v7x_xy2x2_x_m1024_n512_f32_1_alg».proof.Proof.Launch2
import proofs.«900077_g7700000000000078_dist_ag_v7x_xy2x2_x_m1024_n512_f32_1_alg».proof.Proof.W.Launch2
import proofs.«900077_g7700000000000078_dist_ag_v7x_xy2x2_x_m1024_n512_f32_1_alg».proof.Proof.Whole
import proofs.«900077_g7700000000000078_dist_ag_v7x_xy2x2_x_m1024_n512_f32_1_alg».proof.Proof.RefRun
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts]
  [Cert.Pre_finite_inputs_Kernel.Facts] [Cert.Pre_finite_inputs_ReferenceIdeal.Facts]

/-- The word-level kernel runs, its argument arrays unchanged. -/
theorem frame_k : Cert.frame_Kernel := fun m ρ _ =>
  (θ_run (Cert.Kernel.defs (F := Bits)) _ _).mono
    (fun r h c => ((h c) (0 : Fin 2)).trans (Cert.Kernel.AG.finalA_x m ρ c))
    (Cert.Kernel.AG.run_main (F := Bits) m ρ)

/-- The idealized kernel runs, its argument arrays unchanged. -/
theorem frame_ki : Cert.frame_KernelIdeal := fun m ρ _ =>
  (θ_run (Cert.KernelIdeal.defs (F := Ideal)) _ _).mono
    (fun r h c => ((h c) (0 : Fin 2)).trans (Cert.KernelIdeal.AG.finalA_x m ρ c))
    (Cert.KernelIdeal.AG.run_main (F := Ideal) m ρ)

/-- The reference runs, its argument array unchanged. -/
theorem frame_ri : Cert.frame_ReferenceIdeal := fun m ρ _ =>
  (θ_run (Cert.ReferenceIdeal.defs (F := Ideal)) _ _).mono (fun _ h c => h c Cert.ReferenceIdeal.main_arg0)
    (Cert.ReferenceIdeal.RefRun.run (F := Ideal) m ρ)

/-- The idealization rewrote no operation. -/
theorem preserves : Cert.preserves_Kernel_KernelIdeal := trivial

/-- Every device's result array ends holding the reference's whole argument array, which the reference returns. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun r h c => ⟨?_, ?_⟩) (Cert.KernelIdeal.AG.run_main (F := Ideal) m ρ)
    · exact ((h c) (1 : Fin 2)).trans ((Cert.KernelIdeal.AG.finalA_o m ρ c).trans (Cert.KernelIdeal.AG.Fo_whole m ρ _ hagree c))
    · exact ((h c) (0 : Fin 2)).trans (Cert.KernelIdeal.AG.finalA_x m ρ c)
  · exact (θ_run (Cert.ReferenceIdeal.defs (F := Ideal)) _ _).mono
      (fun _ h => ⟨h 0 Cert.ReferenceIdeal.main_arg0, h 0 Cert.ReferenceIdeal.main_arg0⟩)
      (Cert.ReferenceIdeal.RefRun.run (F := Ideal) m' ρ')

end

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
